-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_arg1 : IVec S4096x4096 32) (main_v15 : IVec S_ 1) (main_c_5 : IVec S_ 32) : IVec S_ 1 :=
  let main_v16 : IVec S4096x4096 32 := broadcastInDim S4096x4096 ![] bcast_S_S4096x4096 main_c_5
  let main_v17 : IVec S4096x4096 1 := cmpi .sge main_arg1 main_v16
  let main_c_6 : IVec S_ 32 := constantI S_ 32 4#32
  let main_v18 : IVec S4096x4096 32 := broadcastInDim S4096x4096 ![] bcast_S_S4096x4096 main_c_6
  let main_v19 : IVec S4096x4096 1 := cmpi .slt main_arg1 main_v18
  let main_v20 : IVec S4096x4096 1 := andi main_v17 main_v19
  let main_c_7 : IVec S_ 1 := constantI S_ 1 1#1
  let main_v21 : IVec S_ 1 := (fun x v => Host.reduce IntOp.andi x v reducesTo_S4096x4096_S_d0_1 h_S_) main_v20 main_c_7
  let main_v22 : IVec S_ 1 := andi main_v15 main_v21
  main_v22

def fn {F : FTy → Type} [FloatOps F] (main_arg0 : FVec F S4096x4096 .f32) (main_arg1 : IVec S4096x4096 32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_cst_2 : FVec F S_ .f32 := constant S_ .f32 0x00000000#32
  let main_v9 : FVec F S4096x4096 .f32 := broadcastInDim S4096x4096 ![] bcast_S_S4096x4096 main_cst_2
  let main_v10 : IVec S4096x4096 1 := cmpf .oeq main_arg0 main_v9
  let main_cst_3 : FVec F S_ .f32 := constant S_ .f32 0x3F800000#32
  let main_v11 : FVec F S4096x4096 .f32 := broadcastInDim S4096x4096 ![] bcast_S_S4096x4096 main_cst_3
  let main_v12 : IVec S4096x4096 1 := cmpf .oeq main_arg0 main_v11
  let main_v13 : IVec S4096x4096 1 := ori main_v10 main_v12
  let main_c_4 : IVec S_ 1 := constantI S_ 1 1#1
  let main_v14 : IVec S_ 1 := (fun x v => Host.reduce IntOp.andi x v reducesTo_S4096x4096_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x4096 : Shape := ⟨2, ![4096, 4096]⟩
abbrev S2x4096x4096 : Shape := ⟨3, ![2, 4096, 4096]⟩
abbrev S128x4096 : Shape := ⟨2, ![128, 4096]⟩
abbrev S8x4096 : Shape := ⟨2, ![8, 4096]⟩
abbrev S2x128x4096 : Shape := ⟨3, ![2, 128, 4096]⟩
abbrev S144x4096 : Shape := ⟨2, ![144, 4096]⟩
abbrev S32x4096 : Shape := ⟨2, ![32, 4096]⟩
abbrev S1x32x4096 : Shape := ⟨3, ![1, 32, 4096]⟩

abbrev nBuf : Space → Nat
  | .hbm => 4
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S2x4096x4096, .f32⟩
  | .local _ .vmem, ⟨0, _⟩ => ⟨S128x4096, .f32⟩
  | .local _ .vmem, ⟨1, _⟩ => ⟨S128x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S128x4096, .i32⟩
  | .local _ .vmem, ⟨7, _⟩ => ⟨S128x4096, .i32⟩
  | .local _ .vmem, ⟨8, _⟩ => ⟨S128x4096, .f32⟩
  | .local _ .vmem, ⟨9, _⟩ => ⟨S128x4096, .f32⟩
  | .local _ .vmem, ⟨10, _⟩ => ⟨S2x128x4096, .f32⟩
  | .local _ .vmem, ⟨11, _⟩ => ⟨S2x128x4096, .f32⟩
  | .local _ .vmem, ⟨12, _⟩ => ⟨S144x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c512_i32 : BitVec 32 := 512#32
  let v2 : BitVec 32 := Scalar.addi v1 c512_i32
  let c512_i32_0 : BitVec 32 := 512#32
  let c0_i32 : BitVec 32 := 0#32
  let v3 : BitVec 1 := Scalar.cmpi .eq c512_i32_0 c0_i32
  let c1_i32_1 : BitVec 32 := 1#32
  let v4 : BitVec 32 := Scalar.select v3 c1_i32_1 c512_i32_0
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, c0_i32_5.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.addi v0 c16_i32_0
  let c512_i32 : BitVec 32 := 512#32
  let c0_i32 : BitVec 32 := 0#32
  let v2 : BitVec 1 := Scalar.cmpi .eq c512_i32 c0_i32
  let c1_i32 : BitVec 32 := 1#32
  let v3 : BitVec 32 := Scalar.select v2 c1_i32 c512_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x4096_S8x4096_0_0 : ∀ a, (![0, 0] : Fin 2 → Nat) a + S8x4096.size a ≤ S8x4096.size a
  h_S8x4096 : 0 < S8x4096.numel
  inb_S144x4096_S8x4096_0_0 : ∀ a, (![0, 0] : Fin 2 → Nat) a + S8x4096.size a ≤ S144x4096.size a
  shapeCasts_S8x4096_S8x4096 : S8x4096.ShapeCasts S8x4096
  inb_S128x4096_S128x4096_0_0 : ∀ a, (![0, 0] : Fin 2 → Nat) a + S128x4096.size a ≤ S128x4096.size a
  h_S128x4096 : 0 < S128x4096.numel
  inb_S144x4096_S128x4096_8_0 : ∀ a, (![8, 0] : Fin 2 → Nat) a + S128x4096.size a ≤ S144x4096.size a
  shapeCasts_S128x4096_S128x4096 : S128x4096.ShapeCasts S128x4096
  inb_S144x4096_S8x4096_136_0 : ∀ a, (![136, 0] : Fin 2 → Nat) a + S8x4096.size a ≤ S144x4096.size a
  inb_S144x4096_S144x4096_0_0 : ∀ a, (![0, 0] : Fin 2 → Nat) a + S144x4096.size a ≤ S144x4096.size a
  h_S144x4096 : 0 < S144x4096.numel
  natLt_1_32 : 1 < 32
  rotates_S144x4096_d0 : S144x4096.Rotates 0 none
  rotates_S144x4096_d1 : S144x4096.Rotates 1 none
  slices_S144x4096_o8_0_S32x4096 : S144x4096.Slices ![8, 0] S32x4096
  rotates_S32x4096_d1 : S32x4096.Rotates 1 none
  slices_S144x4096_o7_0_S32x4096 : S144x4096.Slices ![7, 0] S32x4096
  slices_S144x4096_o9_0_S32x4096 : S144x4096.Slices ![9, 0] S32x4096
  inb_S128x4096_S32x4096_0_0 : ∀ a, (![0, 0] : Fin 2 → Nat) a + S32x4096.size a ≤ S128x4096.size a
  h_S32x4096 : 0 < S32x4096.numel
  inb_S2x128x4096_S1x32x4096_0_0_0 : ∀ a, (![0, 0, 0] : Fin 3 → Nat) a + S1x32x4096.size a ≤ S2x128x4096.size a
  h_S1x32x4096 : 0 < S1x32x4096.numel
  shapeCasts_S1x32x4096_S32x4096 : S1x32x4096.ShapeCasts S32x4096
  shapeCasts_S32x4096_S1x32x4096 : S32x4096.ShapeCasts S1x32x4096
  inb_S2x128x4096_S1x32x4096_1_0_0 : ∀ a, (![1, 0, 0] : Fin 3 → Nat) a + S1x32x4096.size a ≤ S2x128x4096.size a
  slices_S144x4096_o40_0_S32x4096 : S144x4096.Slices ![40, 0] S32x4096
  slices_S144x4096_o39_0_S32x4096 : S144x4096.Slices ![39, 0] S32x4096
  slices_S144x4096_o41_0_S32x4096 : S144x4096.Slices ![41, 0] S32x4096
  inb_S128x4096_S32x4096_32_0 : ∀ a, (![32, 0] : Fin 2 → Nat) a + S32x4096.size a ≤ S128x4096.size a
  inb_S2x128x4096_S1x32x4096_0_32_0 : ∀ a, (![0, 32, 0] : Fin 3 → Nat) a + S1x32x4096.size a ≤ S2x128x4096.size a
  inb_S2x128x4096_S1x32x4096_1_32_0 : ∀ a, (![1, 32, 0] : Fin 3 → Nat) a + S1x32x4096.size a ≤ S2x128x4096.size a
  slices_S144x4096_o72_0_S32x4096 : S144x4096.Slices ![72, 0] S32x4096
  slices_S144x4096_o71_0_S32x4096 : S144x4096.Slices ![71, 0] S32x4096
  slices_S144x4096_o73_0_S32x4096 : S144x4096.Slices ![73, 0] S32x4096
  inb_S128x4096_S32x4096_64_0 : ∀ a, (![64, 0] : Fin 2 → Nat) a + S32x4096.size a ≤ S128x4096.size a
  inb_S2x128x4096_S1x32x4096_0_64_0 : ∀ a, (![0, 64, 0] : Fin 3 → Nat) a + S1x32x4096.size a ≤ S2x128x4096.size a
  inb_S2x128x4096_S1x32x4096_1_64_0 : ∀ a, (![1, 64, 0] : Fin 3 → Nat) a + S1x32x4096.size a ≤ S2x128x4096.size a
  slices_S144x4096_o104_0_S32x4096 : S144x4096.Slices ![104, 0] S32x4096
  slices_S144x4096_o103_0_S32x4096 : S144x4096.Slices ![103, 0] S32x4096
  slices_S144x4096_o105_0_S32x4096 : S144x4096.Slices ![105, 0] S32x4096
  inb_S128x4096_S32x4096_96_0 : ∀ a, (![96, 0] : Fin 2 → Nat) a + S32x4096.size a ≤ S128x4096.size a
  inb_S2x128x4096_S1x32x4096_0_96_0 : ∀ a, (![0, 96, 0] : Fin 3 → Nat) a + S1x32x4096.size a ≤ S2x128x4096.size a
  inb_S2x128x4096_S1x32x4096_1_96_0 : ∀ a, (![1, 96, 0] : Fin 3 → Nat) a + S1x32x4096.size a ≤ S2x128x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S4096x4096.size a
  hwx0_1 : ∀ i : grid0.Coords, EltTy.bits .f32 = 32 ∨ (Rect.block (s := S4096x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S4096x4096.size a
  hwx0_2 : ∀ i : grid0.Coords, EltTy.bits .f32 = 32 ∨ (Rect.block (s := S4096x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .i32 = 32 ∨ (Rect.block (s := S4096x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x128x4096.size a ≤ S2x4096x4096.size a
  hwx0_5 : ∀ i : grid0.Coords, EltTy.bits .f32 = 32 ∨ (Rect.block (s := S2x4096x4096) S2x128x4096.size (cc0_transform_5 i) (hinb0_5 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S1x4096 : Shape := ⟨2, ![1, 4096]⟩
abbrev S4095x4096 : Shape := ⟨2, ![4095, 4096]⟩
abbrev S4096x1 : Shape := ⟨2, ![4096, 1]⟩
abbrev S4096x4095 : Shape := ⟨2, ![4096, 4095]⟩
abbrev S1x4096x4096 : Shape := ⟨3, ![1, 4096, 4096]⟩
abbrev S4x4096x4096 : Shape := ⟨3, ![4, 4096, 4096]⟩
abbrev S1x4096x4096x1 : Shape := ⟨4, ![1, 4096, 4096, 1]⟩
abbrev S1 : Shape := ⟨1, ![1]⟩
abbrev S1x1x1x1 : Shape := ⟨4, ![1, 1, 1, 1]⟩
abbrev S2x4096x4096 : Shape := ⟨3, ![2, 4096, 4096]⟩

abbrev nBuf : Space → Nat
  | .hbm => 211
  | .vmem => 0
  | .smem => 0
  | _ => 0

abbrev hbmTy0_0 (i : Nat) : BufTy := match i % 128 with
  | 0 => ⟨S4096x4096, .f32⟩
  | 1 => ⟨S4096x4096, .i32⟩
  | 2 => ⟨S4096x4096, .f32⟩
  | 3 => ⟨S_, .f32⟩
  | 4 => ⟨S4096x4096, .f32⟩
  | 5 => ⟨S4096x4096, .i1⟩
  | 6 => ⟨S4096x4096, .f32⟩
  | 7 => ⟨S_, .f32⟩
  | 8 => ⟨S4096x4096, .f32⟩
  | 9 => ⟨S4096x4096, .i1⟩
  | 10 => ⟨S4096x4096, .f32⟩
  | 11 => ⟨S1x4096, .f32⟩
  | 12 => ⟨S4095x4096, .f32⟩
  | 13 => ⟨S4096x4096, .f32⟩
  | 14 => ⟨S4096x4096, .f32⟩
  | 15 => ⟨S4095x4096, .f32⟩
  | 16 => ⟨S1x4096, .f32⟩
  | 17 => ⟨S4096x4096, .f32⟩
  | 18 => ⟨S4096x4096, .f32⟩
  | 19 => ⟨S4096x1, .f32⟩
  | 20 => ⟨S4096x4095, .f32⟩
  | 21 => ⟨S4096x4096, .f32⟩
  | 22 => ⟨S4096x4096, .f32⟩
  | 23 => ⟨S4096x4095, .f32⟩
  | 24 => ⟨S4096x1, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S_, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S1x4096, .f32⟩
  | 43 => ⟨S4095x4096, .f32⟩
  | 44 => ⟨S4096x4096, .f32⟩
  | 45 => ⟨S4096x4096, .f32⟩
  | 46 => ⟨S4095x4096, .f32⟩
  | 47 => ⟨S1x4096, .f32⟩
  | 48 => ⟨S4096x4096, .f32⟩
  | 49 => ⟨S4096x4096, .f32⟩
  | 50 => ⟨S4096x1, .f32⟩
  | 51 => ⟨S4096x4095, .f32⟩
  | 52 => ⟨S4096x4096, .f32⟩
  | 53 => ⟨S4096x4096, .f32⟩
  | 54 => ⟨S4096x4095, .f32⟩
  | 55 => ⟨S4096x1, .f32⟩
  | 56 => ⟨S4096x4096, .f32⟩
  | 57 => ⟨S4096x4096, .f32⟩
  | 58 => ⟨S1x4096, .f32⟩
  | 59 => ⟨S4095x4096, .f32⟩
  | 60 => ⟨S4096x4096, .f32⟩
  | 61 => ⟨S4096x4096, .f32⟩
  | 62 => ⟨S4095x4096, .f32⟩
  | 63 => ⟨S1x4096, .f32⟩
  | 64 => ⟨S4096x4096, .f32⟩
  | 65 => ⟨S4096x4096, .f32⟩
  | 66 => ⟨S4096x1, .f32⟩
  | 67 => ⟨S4096x4095, .f32⟩
  | 68 => ⟨S4096x4096, .f32⟩
  | 69 => ⟨S4096x4096, .f32⟩
  | 70 => ⟨S4096x4095, .f32⟩
  | 71 => ⟨S4096x1, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x1, .f32⟩
  | 78 => ⟨S4096x4095, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S4096x4096, .f32⟩
  | 85 => ⟨S4096x4096, .f32⟩
  | 86 => ⟨S_, .f32⟩
  | 87 => ⟨S4096x4096, .f32⟩
  | 88 => ⟨S4096x4096, .f32⟩
  | 89 => ⟨S_, .f32⟩
  | 90 => ⟨S4096x4096, .f32⟩
  | 91 => ⟨S4096x4096, .f32⟩
  | 92 => ⟨S4096x4095, .f32⟩
  | 93 => ⟨S4096x1, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S_, .f32⟩
  | 105 => ⟨S4096x4096, .f32⟩
  | 106 => ⟨S4096x4096, .f32⟩
  | 107 => ⟨S1x4096, .f32⟩
  | 108 => ⟨S4095x4096, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S_, .f32⟩
  | 120 => ⟨S4096x4096, .f32⟩
  | 121 => ⟨S4096x4096, .f32⟩
  | 122 => ⟨S4095x4096, .f32⟩
  | 123 => ⟨S1x4096, .f32⟩
  | 124 => ⟨S4096x4096, .f32⟩
  | 125 => ⟨S4096x4096, .f32⟩
  | 126 => ⟨S_, .f32⟩
  | 127 => ⟨S4096x4096, .f32⟩
  | _ => ⟨S4096x4096, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S1x4096x4096, .f32⟩
  | 10 => ⟨S1x4096x4096, .f32⟩
  | 11 => ⟨S1x4096x4096, .f32⟩
  | 12 => ⟨S1x4096x4096, .f32⟩
  | 13 => ⟨S4x4096x4096, .f32⟩
  | 14 => ⟨S4096x1, .f32⟩
  | 15 => ⟨S4096x4095, .f32⟩
  | 16 => ⟨S4096x4096, .f32⟩
  | 17 => ⟨S4096x4095, .f32⟩
  | 18 => ⟨S4096x1, .f32⟩
  | 19 => ⟨S4096x4096, .f32⟩
  | 20 => ⟨S1x4096, .f32⟩
  | 21 => ⟨S4095x4096, .f32⟩
  | 22 => ⟨S4096x4096, .f32⟩
  | 23 => ⟨S4095x4096, .f32⟩
  | 24 => ⟨S1x4096, .f32⟩
  | 25 => ⟨S4096x4096, .f32⟩
  | 26 => ⟨S1x4096x4096, .f32⟩
  | 27 => ⟨S1x4096x4096, .f32⟩
  | 28 => ⟨S1x4096x4096, .f32⟩
  | 29 => ⟨S1x4096x4096, .f32⟩
  | 30 => ⟨S4x4096x4096, .f32⟩
  | 31 => ⟨S1x4096x4096, .i32⟩
  | 32 => ⟨S_, .i32⟩
  | 33 => ⟨S1x4096x4096, .i32⟩
  | 34 => ⟨S1x4096x4096, .i1⟩
  | 35 => ⟨S_, .i32⟩
  | 36 => ⟨S1x4096x4096, .i32⟩
  | 37 => ⟨S1x4096x4096, .i32⟩
  | 38 => ⟨S1x4096x4096, .i32⟩
  | 39 => ⟨S1x4096x4096x1, .i32⟩
  | 40 => ⟨S1, .i32⟩
  | 41 => ⟨S_, .i32⟩
  | 42 => ⟨S1x4096x4096x1, .i32⟩
  | 43 => ⟨S1x4096x4096x1, .i1⟩
  | 44 => ⟨S1x1x1x1, .i32⟩
  | 45 => ⟨S1x4096x4096x1, .i32⟩
  | 46 => ⟨S1x4096x4096x1, .i1⟩
  | 47 => ⟨S1x4096x4096x1, .i1⟩
  | 48 => ⟨S_, .i1⟩
  | 49 => ⟨S1x4096x4096, .i1⟩
  | 50 => ⟨S1x4096x4096, .f32⟩
  | 51 => ⟨S_, .f32⟩
  | 52 => ⟨S1x4096x4096, .f32⟩
  | 53 => ⟨S1x4096x4096, .f32⟩
  | 54 => ⟨S4096x4096, .f32⟩
  | 55 => ⟨S_, .i32⟩
  | 56 => ⟨S1x4096x4096, .i32⟩
  | 57 => ⟨S1x4096x4096, .i1⟩
  | 58 => ⟨S_, .i32⟩
  | 59 => ⟨S1x4096x4096, .i32⟩
  | 60 => ⟨S1x4096x4096, .i32⟩
  | 61 => ⟨S1x4096x4096, .i32⟩
  | 62 => ⟨S1x4096x4096x1, .i32⟩
  | 63 => ⟨S1, .i32⟩
  | 64 => ⟨S_, .i32⟩
  | 65 => ⟨S1x4096x4096x1, .i32⟩
  | 66 => ⟨S1x4096x4096x1, .i1⟩
  | 67 => ⟨S1x1x1x1, .i32⟩
  | 68 => ⟨S1x4096x4096x1, .i32⟩
  | 69 => ⟨S1x4096x4096x1, .i1⟩
  | 70 => ⟨S1x4096x4096x1, .i1⟩
  | 71 => ⟨S_, .i1⟩
  | 72 => ⟨S1x4096x4096, .i1⟩
  | 73 => ⟨S1x4096x4096, .f32⟩
  | 74 => ⟨S_, .f32⟩
  | 75 => ⟨S1x4096x4096, .f32⟩
  | 76 => ⟨S1x4096x4096, .f32⟩
  | 77 => ⟨S4096x4096, .f32⟩
  | 78 => ⟨S4096x4096, .i1⟩
  | 79 => ⟨S4096x4096, .f32⟩
  | 80 => ⟨S1x4096x4096, .f32⟩
  | 81 => ⟨S1x4096x4096, .f32⟩
  | 82 => ⟨S2x4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_call2_v0 : Ref sig .tc := ⟨.hbm, 19, rfl⟩
abbrev main_call2_v1 : Ref sig .tc := ⟨.hbm, 20, rfl⟩
abbrev main_v10 : Ref sig .tc := ⟨.hbm, 21, rfl⟩
abbrev main_v11 : Ref sig .tc := ⟨.hbm, 22, rfl⟩
abbrev main_call3_v0 : Ref sig .tc := ⟨.hbm, 23, rfl⟩
abbrev main_call3_v1 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_call4_v0 : Ref sig .tc := ⟨.hbm, 42, rfl⟩
abbrev main_call4_v1 : Ref sig .tc := ⟨.hbm, 43, rfl⟩
abbrev main_v24 : Ref sig .tc := ⟨.hbm, 44, rfl⟩
abbrev main_v25 : Ref sig .tc := ⟨.hbm, 45, rfl⟩
abbrev main_call5_v0 : Ref sig .tc := ⟨.hbm, 46, rfl⟩
abbrev main_call5_v1 : Ref sig .tc := ⟨.hbm, 47, rfl⟩
abbrev main_v26 : Ref sig .tc := ⟨.hbm, 48, rfl⟩
abbrev main_v27 : Ref sig .tc := ⟨.hbm, 49, rfl⟩
abbrev main_call6_v0 : Ref sig .tc := ⟨.hbm, 50, rfl⟩
abbrev main_call6_v1 : Ref sig .tc := ⟨.hbm, 51, rfl⟩
abbrev main_v28 : Ref sig .tc := ⟨.hbm, 52, rfl⟩
abbrev main_v29 : Ref sig .tc := ⟨.hbm, 53, rfl⟩
abbrev main_call7_v0 : Ref sig .tc := ⟨.hbm, 54, rfl⟩
abbrev main_call7_v1 : Ref sig .tc := ⟨.hbm, 55, rfl⟩
abbrev main_v30 : Ref sig .tc := ⟨.hbm, 56, rfl⟩
abbrev main_v31 : Ref sig .tc := ⟨.hbm, 57, rfl⟩
abbrev main_call8_v0 : Ref sig .tc := ⟨.hbm, 58, rfl⟩
abbrev main_call8_v1 : Ref sig .tc := ⟨.hbm, 59, rfl⟩
abbrev main_v32 : Ref sig .tc := ⟨.hbm, 60, rfl⟩
abbrev main_v33 : Ref sig .tc := ⟨.hbm, 61, rfl⟩
abbrev main_call9_v0 : Ref sig .tc := ⟨.hbm, 62, rfl⟩
abbrev main_call9_v1 : Ref sig .tc := ⟨.hbm, 63, rfl⟩
abbrev main_v34 : Ref sig .tc := ⟨.hbm, 64, rfl⟩
abbrev main_v35 : Ref sig .tc := ⟨.hbm, 65, rfl⟩
abbrev main_call10_v0 : Ref sig .tc := ⟨.hbm, 66, rfl⟩
abbrev main_call10_v1 : Ref sig .tc := ⟨.hbm, 67, rfl⟩
abbrev main_v36 : Ref sig .tc := ⟨.hbm, 68, rfl⟩
abbrev main_v37 : Ref sig .tc := ⟨.hbm, 69, rfl⟩
abbrev main_call11_v0 : Ref sig .tc := ⟨.hbm, 70, rfl⟩
abbrev main_call11_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call12_v0 : Ref sig .tc := ⟨.hbm, 77, rfl⟩
abbrev main_call12_v1 : Ref sig .tc := ⟨.hbm, 78, rfl⟩
abbrev main_v43 : Ref sig .tc := ⟨.hbm, 79, rfl⟩
abbrev main_v44 : Ref sig .tc := ⟨.hbm, 80, rfl⟩
abbrev main_cst_6 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_call13_v0 : Ref sig .tc := ⟨.hbm, 92, rfl⟩
abbrev main_call13_v1 : Ref sig .tc := ⟨.hbm, 93, rfl⟩
abbrev main_v53 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_cst_11 : Ref sig .tc := ⟨.hbm, 104, rfl⟩
abbrev main_v61 : Ref sig .tc := ⟨.hbm, 105, rfl⟩
abbrev main_v62 : Ref sig .tc := ⟨.hbm, 106, rfl⟩
abbrev main_call14_v0 : Ref sig .tc := ⟨.hbm, 107, rfl⟩
abbrev main_call14_v1 : Ref sig .tc := ⟨.hbm, 108, rfl⟩
abbrev main_v63 : Ref sig .tc := ⟨.hbm, 109, rfl⟩
abbrev main_v64 : Ref sig .tc := ⟨.hbm, 110, rfl⟩
abbrev main_cst_12 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_13 : Ref sig .tc := ⟨.hbm, 116, rfl⟩
abbrev main_v69 : Ref sig .tc := ⟨.hbm, 117, rfl⟩
abbrev main_v70 : Ref sig .tc := ⟨.hbm, 118, rfl⟩
abbrev main_cst_14 : Ref sig .tc := ⟨.hbm, 119, rfl⟩
abbrev main_v71 : Ref sig .tc := ⟨.hbm, 120, rfl⟩
abbrev main_v72 : Ref sig .tc := ⟨.hbm, 121, rfl⟩
abbrev main_call15_v0 : Ref sig .tc := ⟨.hbm, 122, rfl⟩
abbrev main_call15_v1 : Ref sig .tc := ⟨.hbm, 123, rfl⟩
abbrev main_v73 : Ref sig .tc := ⟨.hbm, 124, rfl⟩
abbrev main_v74 : Ref sig .tc := ⟨.hbm, 125, rfl⟩
abbrev main_cst_15 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_16 : Ref sig .tc := ⟨.hbm, 131, rfl⟩
abbrev main_v79 : Ref sig .tc := ⟨.hbm, 132, rfl⟩
abbrev main_v80 : Ref sig .tc := ⟨.hbm, 133, rfl⟩
abbrev main_cst_17 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_call16_v0 : Ref sig .tc := ⟨.hbm, 142, rfl⟩
abbrev main_call16_v1 : Ref sig .tc := ⟨.hbm, 143, rfl⟩
abbrev main_v88 : Ref sig .tc := ⟨.hbm, 144, rfl⟩
abbrev main_call17_v0 : Ref sig .tc := ⟨.hbm, 145, rfl⟩
abbrev main_call17_v1 : Ref sig .tc := ⟨.hbm, 146, rfl⟩
abbrev main_v89 : Ref sig .tc := ⟨.hbm, 147, rfl⟩
abbrev main_call18_v0 : Ref sig .tc := ⟨.hbm, 148, rfl⟩
abbrev main_call18_v1 : Ref sig .tc := ⟨.hbm, 149, rfl⟩
abbrev main_v90 : Ref sig .tc := ⟨.hbm, 150, rfl⟩
abbrev main_call19_v0 : Ref sig .tc := ⟨.hbm, 151, rfl⟩
abbrev main_call19_v1 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_call20_c : Ref sig .tc := ⟨.hbm, 160, rfl⟩
abbrev main_call20_v0 : Ref sig .tc := ⟨.hbm, 161, rfl⟩
abbrev main_call20_v1 : Ref sig .tc := ⟨.hbm, 162, rfl⟩
abbrev main_call20_c_0 : Ref sig .tc := ⟨.hbm, 163, rfl⟩
abbrev main_call20_v2 : Ref sig .tc := ⟨.hbm, 164, rfl⟩
abbrev main_call20_v3 : Ref sig .tc := ⟨.hbm, 165, rfl⟩
abbrev main_call20_v4 : Ref sig .tc := ⟨.hbm, 166, rfl⟩
abbrev main_call20_v5 : Ref sig .tc := ⟨.hbm, 167, rfl⟩
abbrev main_call20_c_1 : Ref sig .tc := ⟨.hbm, 168, rfl⟩
abbrev main_call20_c_2 : Ref sig .tc := ⟨.hbm, 169, rfl⟩
abbrev main_call20_v6 : Ref sig .tc := ⟨.hbm, 170, rfl⟩
abbrev main_call20_v7 : Ref sig .tc := ⟨.hbm, 171, rfl⟩
abbrev main_call20_v8 : Ref sig .tc := ⟨.hbm, 172, rfl⟩
abbrev main_call20_v9 : Ref sig .tc := ⟨.hbm, 173, rfl⟩
abbrev main_call20_v10 : Ref sig .tc := ⟨.hbm, 174, rfl⟩
abbrev main_call20_v11 : Ref sig .tc := ⟨.hbm, 175, rfl⟩
abbrev main_call20_c_3 : Ref sig .tc := ⟨.hbm, 176, rfl⟩
abbrev main_call20_v12 : Ref sig .tc := ⟨.hbm, 177, rfl⟩
abbrev main_call20_v13 : Ref sig .tc := ⟨.hbm, 178, rfl⟩
abbrev main_call20_cst : Ref sig .tc := ⟨.hbm, 179, rfl⟩
abbrev main_call20_v14 : Ref sig .tc := ⟨.hbm, 180, rfl⟩
abbrev main_v98 : Ref sig .tc := ⟨.hbm, 181, rfl⟩
abbrev main_v99 : Ref sig .tc := ⟨.hbm, 182, rfl⟩
abbrev main_call21_c : Ref sig .tc := ⟨.hbm, 183, rfl⟩
abbrev main_call21_v0 : Ref sig .tc := ⟨.hbm, 184, rfl⟩
abbrev main_call21_v1 : Ref sig .tc := ⟨.hbm, 185, rfl⟩
abbrev main_call21_c_0 : Ref sig .tc := ⟨.hbm, 186, rfl⟩
abbrev main_call21_v2 : Ref sig .tc := ⟨.hbm, 187, rfl⟩
abbrev main_call21_v3 : Ref sig .tc := ⟨.hbm, 188, rfl⟩
abbrev main_call21_v4 : Ref sig .tc := ⟨.hbm, 189, rfl⟩
abbrev main_call21_v5 : Ref sig .tc := ⟨.hbm, 190, rfl⟩
abbrev main_call21_c_1 : Ref sig .tc := ⟨.hbm, 191, rfl⟩
abbrev main_call21_c_2 : Ref sig .tc := ⟨.hbm, 192, rfl⟩
abbrev main_call21_v6 : Ref sig .tc := ⟨.hbm, 193, rfl⟩
abbrev main_call21_v7 : Ref sig .tc := ⟨.hbm, 194, rfl⟩
abbrev main_call21_v8 : Ref sig .tc := ⟨.hbm, 195, rfl⟩
abbrev main_call21_v9 : Ref sig .tc := ⟨.hbm, 196, rfl⟩
abbrev main_call21_v10 : Ref sig .tc := ⟨.hbm, 197, rfl⟩
abbrev main_call21_v11 : Ref sig .tc := ⟨.hbm, 198, rfl⟩
abbrev main_call21_c_3 : Ref sig .tc := ⟨.hbm, 199, rfl⟩
abbrev main_call21_v12 : Ref sig .tc := ⟨.hbm, 200, rfl⟩
abbrev main_call21_v13 : Ref sig .tc := ⟨.hbm, 201, rfl⟩
abbrev main_call21_cst : Ref sig .tc := ⟨.hbm, 202, rfl⟩
abbrev main_call21_v14 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S4096x4096_S1x4096_4095_0 : S4096x4096.Slices ![4095, 0] S1x4096
  slices_S4096x4096_S4095x4096_0_0 : S4096x4096.Slices ![0, 0] S4095x4096
  concatenates_S1x4096_S4095x4096_S4096x4096_d0 : Shape.Concatenates [S1x4096, S4095x4096] S4096x4096 0
  slices_S4096x4096_S4095x4096_1_0 : S4096x4096.Slices ![1, 0] S4095x4096
  slices_S4096x4096_S1x4096_0_0 : S4096x4096.Slices ![0, 0] S1x4096
  concatenates_S4095x4096_S1x4096_S4096x4096_d0 : Shape.Concatenates [S4095x4096, S1x4096] S4096x4096 0
  slices_S4096x4096_S4096x1_0_4095 : S4096x4096.Slices ![0, 4095] S4096x1
  slices_S4096x4096_S4096x4095_0_0 : S4096x4096.Slices ![0, 0] S4096x4095
  concatenates_S4096x1_S4096x4095_S4096x4096_d1 : Shape.Concatenates [S4096x1, S4096x4095] S4096x4096 1
  slices_S4096x4096_S4096x4095_0_1 : S4096x4096.Slices ![0, 1] S4096x4095
  slices_S4096x4096_S4096x1_0_0 : S4096x4096.Slices ![0, 0] S4096x1
  concatenates_S4096x4095_S4096x1_S4096x4096_d1 : Shape.Concatenates [S4096x4095, S4096x1] S4096x4096 1
  bcast_S4096x4096_S1x4096x4096_1_2 : S4096x4096.BroadcastsInDim S1x4096x4096 (![1, 2] : Fin 2 → Fin S1x4096x4096.rank)
  concatenates_S1x4096x4096_S1x4096x4096_S1x4096x4096_S1x4096x4096_S4x4096x4096_d0 : Shape.Concatenates [S1x4096x4096, S1x4096x4096, S1x4096x4096, S1x4096x4096] S4x4096x4096 0
  bcast_S_S1x4096x4096 : S_.BroadcastsInDim S1x4096x4096 (![] : Fin 0 → Fin S1x4096x4096.rank)
  shapeCasts_S1x4096x4096_S1x4096x4096x1 : S1x4096x4096.ShapeCasts S1x4096x4096x1
  bcast_S_S1x4096x4096x1 : S_.BroadcastsInDim S1x4096x4096x1 (![] : Fin 0 → Fin S1x4096x4096x1.rank)
  bcast_S1_S1x1x1x1_3 : S1.BroadcastsInDim S1x1x1x1 (![3] : Fin 1 → Fin S1x1x1x1.rank)
  bcast_S1x1x1x1_S1x4096x4096x1_0_1_2_3 : S1x1x1x1.BroadcastsInDim S1x4096x4096x1 (![0, 1, 2, 3] : Fin 4 → Fin S1x4096x4096x1.rank)
  reducesTo_S1x4096x4096x1_S1x4096x4096_d3 : S1x4096x4096x1.ReducesTo [3] S1x4096x4096
  h_S_ : 0 < S_.numel
  shapeCasts_S1x4096x4096_S4096x4096 : S1x4096x4096.ShapeCasts S4096x4096
  concatenates_S1x4096x4096_S1x4096x4096_S2x4096x4096_d0 : Shape.Concatenates [S1x4096x4096, S1x4096x4096] S2x4096x4096 0
  gather_S4x4096x4096_S1x4096x4096x1_S1x4096x4096_n_0_12_12_0_3_111_wf : GatherDims.WF S4x4096x4096 S1x4096x4096x1 S1x4096x4096 [] [0] [1, 2] [0] [1, 2] 3 ![1, 1, 1]

variable [Facts₀]

def gather_S4x4096x4096_S1x4096x4096x1_S1x4096x4096_n_0_12_12_0_3_111 : GatherDims S4x4096x4096 S1x4096x4096x1 S1x4096x4096 where
  offsetDims := []
  collapsedSliceDims := [0]
  operandBatchingDims := [1, 2]
  startIndicesBatchingDims := [1, 2]
  startIndexMap := [0]
  indexVectorDim := 3
  sliceSizes := ![1, 1, 1]
  wf := gather_S4x4096x4096_S1x4096x4096x1_S1x4096x4096_n_0_12_12_0_3_111_wf

class Facts : Prop extends Facts₀ where

variable [Facts]
-- ==== Proof.Kernel.Base.lean ====
/-
  The idealized kernel's proof data: what one grid point's body leaves in the result's staging buffer, as a function of
  the five input blocks it is handed.

  The body first stitches its 144-row window in scratch memory from three blocks of the type field — eight halo rows
  above, the tile's 128 core rows, eight halo rows below —, reads the window back whole, and from it computes, strip of
  32 rows by strip, the new types (plane 0 of the result block) and the profits (plane 1). Each stored value is a
  payload of the window, of the strip's direction words and of its probabilities.

  The type field reaches the body through three windows of ONE array (the core tile and the two halos), so that array's
  share is split among them; the direction and probability arrays and the result have a window each.
-/
import proofs.«410334_j7902739824972_3_alg».proof.Proof.Gen.Kernel.Launch
import proofs.«410334_j7902739824972_3_alg».proof.Proof.Gen.Kernel.Skeleton
import proofs.«410334_j7902739824972_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_v0 (c : Dev nD) : V m c main_v0 = m ((c : Thread nD τ).loc main_v0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- A halo block, whole; the core block, whole; -/
abbrev rHalo : Rect S8x4096 := Rect.unit (s := S8x4096) ![0, 0] S8x4096.size inb_S8x4096_S8x4096_0_0
abbrev rCore : Rect S128x4096 := Rect.unit (s := S128x4096) ![0, 0] S128x4096.size inb_S128x4096_S128x4096_0_0
/-- where they land in the 144-row window: rows 0–7, 8–135, 136–143; and the window whole. -/
abbrev rWinTop : Rect S144x4096 := Rect.unit (s := S144x4096) ![0, 0] S8x4096.size inb_S144x4096_S8x4096_0_0
abbrev rWinCore : Rect S144x4096 := Rect.unit (s := S144x4096) ![8, 0] S128x4096.size inb_S144x4096_S128x4096_8_0
abbrev rWinBot : Rect S144x4096 := Rect.unit (s := S144x4096) ![136, 0] S8x4096.size inb_S144x4096_S8x4096_136_0
abbrev rWin : Rect S144x4096 := Rect.unit (s := S144x4096) ![0, 0] S144x4096.size inb_S144x4096_S144x4096_0_0
/-- The four 32-row strips of a 128-row block (the direction words', the probabilities'), -/
abbrev rStrip0 : Rect S128x4096 := Rect.unit (s := S128x4096) ![0, 0] S32x4096.size inb_S128x4096_S32x4096_0_0
abbrev rStrip1 : Rect S128x4096 := Rect.unit (s := S128x4096) ![32, 0] S32x4096.size inb_S128x4096_S32x4096_32_0
abbrev rStrip2 : Rect S128x4096 := Rect.unit (s := S128x4096) ![64, 0] S32x4096.size inb_S128x4096_S32x4096_64_0
abbrev rStrip3 : Rect S128x4096 := Rect.unit (s := S128x4096) ![96, 0] S32x4096.size inb_S128x4096_S32x4096_96_0
/-- and the eight pieces of the result block: plane by strip. -/
abbrev rOut0_0 : Rect S2x128x4096 := Rect.unit (s := S2x128x4096) ![0, 0, 0] S1x32x4096.size inb_S2x128x4096_S1x32x4096_0_0_0
abbrev rOut1_0 : Rect S2x128x4096 := Rect.unit (s := S2x128x4096) ![1, 0, 0] S1x32x4096.size inb_S2x128x4096_S1x32x4096_1_0_0
abbrev rOut0_1 : Rect S2x128x4096 := Rect.unit (s := S2x128x4096) ![0, 32, 0] S1x32x4096.size inb_S2x128x4096_S1x32x4096_0_32_0
abbrev rOut1_1 : Rect S2x128x4096 := Rect.unit (s := S2x128x4096) ![1, 32, 0] S1x32x4096.size inb_S2x128x4096_S1x32x4096_1_32_0
abbrev rOut0_2 : Rect S2x128x4096 := Rect.unit (s := S2x128x4096) ![0, 64, 0] S1x32x4096.size inb_S2x128x4096_S1x32x4096_0_64_0
abbrev rOut1_2 : Rect S2x128x4096 := Rect.unit (s := S2x128x4096) ![1, 64, 0] S1x32x4096.size inb_S2x128x4096_S1x32x4096_1_64_0
abbrev rOut0_3 : Rect S2x128x4096 := Rect.unit (s := S2x128x4096) ![0, 96, 0] S1x32x4096.size inb_S2x128x4096_S1x32x4096_0_96_0
abbrev rOut1_3 : Rect S2x128x4096 := Rect.unit (s := S2x128x4096) ![1, 96, 0] S1x32x4096.size inb_S2x128x4096_S1x32x4096_1_96_0

/-! ## What the body leaves in the result's staging buffer -/

/-- The scratch window after its three stores (last first): the bottom halo, the core tile, the top halo. -/
def stitched (xc : Vec F S128x4096 .f32) (xt xb : Vec F S8x4096 .f32) : Vec F S144x4096 .f32 :=
  View.canon [⟨rWinBot, k0_pay5 (View.ld xb rHalo)⟩, ⟨rWinCore, k0_pay4 (View.ld xc rCore)⟩, ⟨rWinTop, k0_pay3 (View.ld xt rHalo)⟩]

/-- The result block after the body: its eight stores (last first), each a payload of the window read back whole
    (`win`), of the profit field on the window (`prof`) and of the strip's direction words and probabilities. -/
def out0_5 (xc : Vec F S128x4096 .f32) (xt xb : Vec F S8x4096 .f32) (xd : Vec F S128x4096 .i32) (xp : Vec F S128x4096 .f32) :
    Vec F S2x128x4096 .f32 :=
  let win : Vec F S144x4096 .f32 := View.ld (stitched xc xt xb) rWin
  let prof : FVec F S144x4096 .f32 := k0_pay9 (k0_pay6 win) (k0_pay7 win) (k0_pay8 win)
  let d3 : Vec F S32x4096 .i32 := View.ld xd rStrip3
  let d2 : Vec F S32x4096 .i32 := View.ld xd rStrip2
  let d1 : Vec F S32x4096 .i32 := View.ld xd rStrip1
  let d0 : Vec F S32x4096 .i32 := View.ld xd rStrip0
  View.canon [
    ⟨rOut1_3, k0_pay2 (k0_pay28 prof)⟩,
    ⟨rOut0_3, k0_pay1 (k0_pay28 prof) (k0_pay29 win) (k0_pay30 win) (k0_pay31 win) (k0_pay32 win) (k0_pay33 win) d3 (View.ld xp rStrip3)
        (k0_pay34 prof d3) (k0_pay35 d3) (k0_pay36 d3)⟩,
    ⟨rOut1_2, k0_pay27 (k0_pay20 prof)⟩,
    ⟨rOut0_2, k0_pay26 (k0_pay20 prof) (k0_pay21 win) (k0_pay22 win) (View.ld xp rStrip2) (k0_pay23 prof d2) (k0_pay24 d2) (k0_pay25 win d2)⟩,
    ⟨rOut1_1, k0_pay19 (k0_pay14 prof)⟩,
    ⟨rOut0_1, k0_pay18 (k0_pay15 win) (View.ld xp rStrip1) (k0_pay16 win d1) (k0_pay17 prof d1)⟩,
    ⟨rOut1_0, k0_pay13 (k0_pay10 (k0_pay6 win) (k0_pay7 win) (k0_pay8 win))⟩,
    ⟨rOut0_0, k0_pay12 (k0_pay11 win (k0_pay6 win) (k0_pay7 win) (k0_pay8 win) d0 (View.ld xp rStrip0))⟩]

/-! ## The pipeline's proof data -/

/-- The share of its array each window holds: the type field's is split among its three windows. -/
def shareOf : Fin cfg0.W → PosShare TreeShare
  | ⟨0, _⟩ => fullShare.left
  | ⟨1, _⟩ => fullShare.right.left
  | ⟨2, _⟩ => fullShare.right.right
  | _ => fullShare

/-- The proof data of the one pipeline on core `c`: the arrays as the region finds them; after the body at point `t` each
    input's buffer at its block and the result's at `out0_5` of the input blocks; the invariant the scoped rest (the
    scratch window at anything) and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

end Cert.Kernel.Hand

end
-- ==== Proof.Kernel.Body.lean ====
/-
  The idealized kernel's body at one grid point: from its five input blocks it leaves the result's staging buffer at
  `out0_5` of them, the inputs' buffers as they were, the scratch window at what it stitched.

  The body is run once over variables — seven whole memrefs, the five inputs' at read contents, the result's and the
  scratch window's at anything (`sound_kernel`). Its three stores into the scratch window tile rows 0–7, 8–135 and
  136–143, so the whole-window load after them reads the list's canonical contents, `stitched` of the three input
  blocks, at every index; every later value is a payload of that window, of the strips of direction words and of the
  strips of probabilities. Its eight stores into the result block — two planes by four strips of 32 rows — tile the
  block (`cover0_5`), so whatever the block held before (each store is preceded by a load of the piece it overwrites,
  whose value nothing reads) the block afterwards reads the canonical contents of the eight pieces: `out0_5`.

  At a grid point the five inputs' staging buffers hold their blocks (`before0_W`: an input window keeps its block in
  place, and is fetched at every point), the scratch window is the one scoped buffer the region's invariant holds at
  some contents: it is lent to the body and returned at what the three stores left.
-/
import proofs.«410334_j7902739824972_3_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result block's pieces cover it -/

/-- The eight pieces of the result block — two planes by four strips of 32 rows — tile it, so they cover it. -/
theorem cover0_5 (p0 p1 p2 p3 p4 p5 p6 p7 : Vec F S1x32x4096 .f32) (y : S2x128x4096.Idx) :
    ∃ pc ∈ ([⟨rOut1_3, p0⟩, ⟨rOut0_3, p1⟩, ⟨rOut1_2, p2⟩, ⟨rOut0_2, p3⟩, ⟨rOut1_1, p4⟩, ⟨rOut0_1, p5⟩, ⟨rOut1_0, p6⟩, ⟨rOut0_0, p7⟩] :
      List (View.Piece (Elt F) S2x128x4096 .f32)), y ∈ pc.1.set :=
  View.cover_of_tiledL [⟨rOut1_3, p0⟩, ⟨rOut0_3, p1⟩, ⟨rOut1_2, p2⟩, ⟨rOut0_2, p3⟩, ⟨rOut1_1, p4⟩, ⟨rOut0_1, p5⟩, ⟨rOut1_0, p6⟩, ⟨rOut0_0, p7⟩]
    S1x32x4096.size (by sl_kernel_rfl) y

/-! ## The body's triple -/

set_option maxHeartbeats 1000000 in
/-- The kernel body at any grid coordinates, on whole memrefs: the five inputs' at read contents `xc` (the core tile),
    `xt`, `xb` (the halos above and below), `xd` (direction words), `xp` (probabilities), the result's and the scratch
    window's at anything. It runs to the continuation holding the inputs' as they were, the result's at
    `out0_5 xc xt xb xd xp` and the scratch window's at something.
    The scratch window's whole load comes after three stores over unknown contents; what it reads is the canonical
    contents of the three pieces at the window's indices, which is `View.ld (stitched xc xt xb) rWin` by unfolding, and
    an input's load through a rectangle is `View.ld` of its read contents by definition. The result's eight stores cover
    the block, so its read contents are the canonical contents of the eight pieces, the list `out0_5` names. -/
theorem sound_kernel (c : Dev nD) (E : Set ℕ) (i : grid0.Coords)
    (arg1 : Memref sig .tc .vmem S128x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S128x4096 .i32) (harg4 : arg4.IsWhole)
    (arg5 : Memref sig .tc .vmem S128x4096 .f32) (harg5 : arg5.IsWhole) (arg6 : Memref sig .tc .vmem S2x128x4096 .f32) (harg6 : arg6.IsWhole)
    (arg7 : Memref sig .tc .vmem S144x4096 .f32) (harg7 : arg7.IsWhole)
    (xc : Vec F S128x4096 .f32) (xt xb : Vec F S8x4096 .f32) (xd : Vec F S128x4096 .i32) (xp : Vec F S128x4096 .f32) (K : PUnit → sProp 𝕄) :
    iprop(owns (c : Thread nD τ) arg1 fullShare xc ∗ owns (c : Thread nD τ) arg2 fullShare xt ∗ owns (c : Thread nD τ) arg3 fullShare xb
        ∗ owns (c : Thread nD τ) arg4 fullShare xd ∗ owns (c : Thread nD τ) arg5 fullShare xp
        ∗ (∃ d, owns (c : Thread nD τ) arg6 fullShare d) ∗ (∃ d, owns (c : Thread nD τ) arg7 fullShare d)
        ∗ (iprop(owns (c : Thread nD τ) arg1 fullShare xc ∗ owns (c : Thread nD τ) arg2 fullShare xt ∗ owns (c : Thread nD τ) arg3 fullShare xb
            ∗ owns (c : Thread nD τ) arg4 fullShare xd ∗ owns (c : Thread nD τ) arg5 fullShare xp
            ∗ owns (c : Thread nD τ) arg6 fullShare (out0_5 xc xt xb xd xp) ∗ (∃ d, owns (c : Thread nD τ) arg7 fullShare d)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton, k0_part1_eq_skeleton, k0_part2_eq_skeleton, k0_part3_eq_skeleton, k0_part4_eq_skeleton, k0_part5_eq_skeleton]
  unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover0_5 _ _ _ _ _ _ _ _)]
    simp only [View.readCov_eq_canon']
    rfl
  iexists _, _; isplitr
  swap; · iexact H7
  ipureintro; rfl

/-! ## What the body finds in the inputs' staging buffers -/

/-- Input window 0's current staging buffer holds its block at every point, fetched there or not, for any proof data
    whose array is the region-entry contents (`hA`) and whose body leaves the block in place (`hafter`): the window is
    uncut and never idle, and unfetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents (`hA`) and whose body leaves the block in place (`hafter`): the window is
    uncut and never idle, and unfetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents (`hA`) and whose body leaves the block in place (`hafter`): the window is
    uncut and never idle, and unfetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents (`hA`) and whose body leaves the block in place (`hafter`): the window is
    uncut and never idle, and unfetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents (`hA`) and whose body leaves the block in place (`hafter`): the window is
    uncut and never idle, and unfetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- So for this certificate's proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The invariant is the same at every point: the scoped rest (the scratch window at some contents) and the generator
    register at some state. -/
theorem Φ_eq (c : Dev nD) (t : Fin (cfg0.N + 1)) : (dats m 0 c).Φ t = Pipeline.ΦA spec0 c := by dsimp only [dats]

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the invariant and the debt at the next point, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks (`before0_W`), the result's holds something,
    and the invariant's scoped rest is the scratch buffer whole at some contents — a whole buffer's points-to is owning
    its whole memref —, so `sound_kernel` applies at the blocks. Afterwards the scratch buffer, at whatever the body
    left, goes back into the invariant; the generator register and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Φ_eq, Φ_eq, show (dats m 0 c).owesAt () t.succ = (dats m 0 c).owesAt () t.castSucc from rfl,
    after0_0, after0_1, after0_2, after0_3, after0_4, after0_5]
  unfold Pipeline.ΦA
  rw [scopedRest0_eq c]
  iintro ⟨⟨⟨%f7, H7⟩, Hr⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]
  · iexists f7; rw [owns_whole]; iexact H7
  iintro ⟨H0, H1, H2, H3, H4, H5, ⟨%d7, H7⟩⟩
  isplitl [H7 Hr]
  · isplitl [H7]
    · iexists d7; rw [owns_whole]; exact .rfl
    · iexact Hr
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  The frame run of a one-region pipeline kernel whose windows may SHARE ARRAYS.

  The library's frame run for the plainest class of pipeline kernels asks that the windows' arrays be pairwise distinct
  and that every window hold its array at the full share. A kernel that is handed ONE array through several input
  windows (a tile and its halo blocks, say) is outside it: the arrays are not distinct, and the one buffer's full share
  has to be split among the windows that read it.

  This file states the same run with the distinctness dropped. In place of "every array at the full share" the
  certificate says how the DISTINCT buffers behind the arrays, each whole at the full share at the region's entry
  contents, make up the proof data's arrays at entry, each window at the share the proof data name for it (`hsplit`).
  Everything else is as in the library's frame run with a tracking invariant: the class invariant (the scoped rest at
  some contents, the generator register at some state) yields the data's invariant before the first point and is
  yielded back after the last; the unscoped buffers that are no window's array bypass the region; the conclusion is the
  same post, every array at what the library computes from the proof data and every bypassing buffer as the region
  found it.
-/
import Idealize.ShloMosaic.Lib.Pipeline.Frame

noncomputable section

namespace Cert.LibSharedFrame

open Idealize.ShloMosaic Idealize.ShloMosaic.TcCoe Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hw : WinFacts₀ (cfgs p).spec) (hinj : Function.Injective (cellOf (nD := nD) (τ := τ) cfgs))
  (defs₀ : Defs nD τ sig Val Λ₀) (𝒱₀ : Variants)

local notation "cfg" => cfgs p
local notation "𝔻" => Pipeline.defs (fun q => Cfg.toPCfg (Val := Val) (cfgs q)) defs₀

include hw hinj in
/-- THE FRAME RUN with a tracking invariant, for windows that may share arrays. `hw` is the windows' layout without the
    arrays' distinctness, `hinj` the staging cells' distinctness, `hne`/`harr`/`hstage` the blocks non-empty and the
    arrays and staging memrefs whole buffers; `hbody` is the body obligation at every point and `howed` says the data
    owe nothing; `hmain` is the program's shape up to the region, entered at the contents `V`; `hsplit` says how the
    distinct buffers behind the arrays, whole at the full share at `V`, make the data's arrays at entry, each window at
    its share; the class invariant yields the data's before point 0 (`hin`) and is yielded back after the last point
    (`hout`). Concludes the frame post: every array at the data's `arrAt … N`, every bypassing buffer at `V`. -/
theorem θ_run_frame_shared_track
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact Pipeline.θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end Cert.LibSharedFrame

end
-- ==== Proof.Kernel.Launch.lean ====
/-
  The idealized kernel's run: the pipeline launched over the proof data, three of whose windows share the type field's
  array.
-/
import proofs.«410334_j7902739824972_3_alg».proof.Proof.Kernel.Body
import proofs.«410334_j7902739824972_3_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one array's share split among its three windows -/

/-- The distinct buffers behind the six windows' arrays: the type field (windows 0, 1, 2), the direction words, the
    probabilities, the result. -/
theorem arrRefs_eq : Finset.univ.image (Pipeline.arrRef spec0) = [main_arg0, main_arg1, main_arg2, main_v0].toFinset := by decide

/-- The pipeline's arrays as whole buffers, each window's at the share the proof data name for it. -/
theorem arrays_eq_shares (c : Dev nD) (G : (w : Fin cfg0.W) → Buf (Elt F) ((cfg0.win w).arr.view.loc (c.tc : Thread nD τ))) :
    (dats m 0 c).arrays G
      = bigSep Finset.univ fun w : Fin 6 => (((c.tc : Thread nD τ).loc (Pipeline.arrRef spec0 w)) ↦{(dats m 0 c).share w} G w : sProp 𝕄) := by
  unfold Dat.arrays
  exact bigSep_congr fun w _ => by rw [(Gen.arr_whole0 w).set_eq_univ]

/-- At the region's entry the four buffers behind the arrays, each whole at the full share, make the proof data's six
    arrays: the type field's full share is its left half (the core tile's window) and its right half, and that the two
    quarters of the halo windows; the other three buffers have a window each. -/
theorem arrays_split (c : Dev nD) :
    (Pipeline.arrBufs spec0 c (V m c) : sProp 𝕄) ⊢ (dats m 0 c).arrays ((dats m 0 c).arrAt · 0) := by
  rw [arrays_eq_shares, Gen.bigSep_W0]
  unfold Pipeline.arrBufs
  rw [bigSep_eq_bigSepL_of_eq [main_arg0, main_arg1, main_arg2, main_v0] arrRefs_eq (by decide)]
  show iprop((((c.tc : Thread nD τ).loc main_arg0) ↦{fullShare} V m c main_arg0) ∗ (((c.tc : Thread nD τ).loc main_arg1) ↦{fullShare} V m c main_arg1)
      ∗ (((c.tc : Thread nD τ).loc main_arg2) ↦{fullShare} V m c main_arg2) ∗ (((c.tc : Thread nD τ).loc main_v0) ↦{fullShare} V m c main_v0)) ⊢ _
  iintro ⟨H0, H1, H2, H3⟩
  ihave ⟨Ha, Hb⟩ := (pointsTo_share (PosShare.mem_left_op_right fullShare)).1 $$ H0
  ihave ⟨Hc, Hd⟩ := (pointsTo_share (PosShare.mem_left_op_right fullShare.right)).1 $$ Hb
  isplitl [Ha]; · iexact Ha
  isplitl [Hc]; · iexact Hc
  isplitl [Hd]; · iexact Hd
  isplitl [H1]; · iexact H1
  isplitl [H2]; · iexact H2
  iexact H3

/-! ## The run -/

/-- Every weakly fair execution ends, nothing faulting, with every array of the pipeline at what the proof data says
    and every other unscoped buffer as the region found it. -/
theorem run_main : θ_run defs (onTc (τ := τ) (main (F := F))) (s₀ m ρ) (Pipeline.FramePost cfgs (dats m) 0 (V m)) :=
  Cert.LibSharedFrame.θ_run_frame_shared_track cfgs (dats m) (0 : Fin 1) Gen.winFacts₀0 Gen.cellOf_inj defs₀ Variants.none m ρ main
    (hbody := fun c => (body_obligation m c).loose) (hne := Gen.block_pos0) (harr := Gen.arr_whole0) (hstage := Gen.stage_whole0)
    (howed := fun _ _ => rfl) (V := V m) (hmain := hmain m Variants.none) (hsplit := arrays_split m)
    (hin := fun _ => .rfl) (hout := fun _ => .rfl)

/-- The run with the result array named and the arguments unchanged. -/
theorem run_out : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c)))⟩) (run_main m ρ)

/-- The frame: it runs to the end and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.Kernel.Hand

end
-- ==== Proof.KernelIdeal.Base.lean ====
/-
  The idealized kernel's proof data: what one grid point's body leaves in the result's staging buffer, as a function of
  the five input blocks it is handed.

  The body first stitches its 144-row window in scratch memory from three blocks of the type field — eight halo rows
  above, the tile's 128 core rows, eight halo rows below —, reads the window back whole, and from it computes, strip of
  32 rows by strip, the new types (plane 0 of the result block) and the profits (plane 1). Each stored value is a
  payload of the window, of the strip's direction words and of its probabilities.

  The type field reaches the body through three windows of ONE array (the core tile and the two halos), so that array's
  share is split among them; the direction and probability arrays and the result have a window each.
-/
import proofs.«410334_j7902739824972_3_alg».proof.Proof.Gen.KernelIdeal.Launch
import proofs.«410334_j7902739824972_3_alg».proof.Proof.Gen.KernelIdeal.Skeleton
import proofs.«410334_j7902739824972_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_v0 (c : Dev nD) : V m c main_v0 = m ((c : Thread nD τ).loc main_v0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- A halo block, whole; the core block, whole; -/
abbrev rHalo : Rect S8x4096 := Rect.unit (s := S8x4096) ![0, 0] S8x4096.size inb_S8x4096_S8x4096_0_0
abbrev rCore : Rect S128x4096 := Rect.unit (s := S128x4096) ![0, 0] S128x4096.size inb_S128x4096_S128x4096_0_0
/-- where they land in the 144-row window: rows 0–7, 8–135, 136–143; and the window whole. -/
abbrev rWinTop : Rect S144x4096 := Rect.unit (s := S144x4096) ![0, 0] S8x4096.size inb_S144x4096_S8x4096_0_0
abbrev rWinCore : Rect S144x4096 := Rect.unit (s := S144x4096) ![8, 0] S128x4096.size inb_S144x4096_S128x4096_8_0
abbrev rWinBot : Rect S144x4096 := Rect.unit (s := S144x4096) ![136, 0] S8x4096.size inb_S144x4096_S8x4096_136_0
abbrev rWin : Rect S144x4096 := Rect.unit (s := S144x4096) ![0, 0] S144x4096.size inb_S144x4096_S144x4096_0_0
/-- The four 32-row strips of a 128-row block (the direction words', the probabilities'), -/
abbrev rStrip0 : Rect S128x4096 := Rect.unit (s := S128x4096) ![0, 0] S32x4096.size inb_S128x4096_S32x4096_0_0
abbrev rStrip1 : Rect S128x4096 := Rect.unit (s := S128x4096) ![32, 0] S32x4096.size inb_S128x4096_S32x4096_32_0
abbrev rStrip2 : Rect S128x4096 := Rect.unit (s := S128x4096) ![64, 0] S32x4096.size inb_S128x4096_S32x4096_64_0
abbrev rStrip3 : Rect S128x4096 := Rect.unit (s := S128x4096) ![96, 0] S32x4096.size inb_S128x4096_S32x4096_96_0
/-- and the eight pieces of the result block: plane by strip. -/
abbrev rOut0_0 : Rect S2x128x4096 := Rect.unit (s := S2x128x4096) ![0, 0, 0] S1x32x4096.size inb_S2x128x4096_S1x32x4096_0_0_0
abbrev rOut1_0 : Rect S2x128x4096 := Rect.unit (s := S2x128x4096) ![1, 0, 0] S1x32x4096.size inb_S2x128x4096_S1x32x4096_1_0_0
abbrev rOut0_1 : Rect S2x128x4096 := Rect.unit (s := S2x128x4096) ![0, 32, 0] S1x32x4096.size inb_S2x128x4096_S1x32x4096_0_32_0
abbrev rOut1_1 : Rect S2x128x4096 := Rect.unit (s := S2x128x4096) ![1, 32, 0] S1x32x4096.size inb_S2x128x4096_S1x32x4096_1_32_0
abbrev rOut0_2 : Rect S2x128x4096 := Rect.unit (s := S2x128x4096) ![0, 64, 0] S1x32x4096.size inb_S2x128x4096_S1x32x4096_0_64_0
abbrev rOut1_2 : Rect S2x128x4096 := Rect.unit (s := S2x128x4096) ![1, 64, 0] S1x32x4096.size inb_S2x128x4096_S1x32x4096_1_64_0
abbrev rOut0_3 : Rect S2x128x4096 := Rect.unit (s := S2x128x4096) ![0, 96, 0] S1x32x4096.size inb_S2x128x4096_S1x32x4096_0_96_0
abbrev rOut1_3 : Rect S2x128x4096 := Rect.unit (s := S2x128x4096) ![1, 96, 0] S1x32x4096.size inb_S2x128x4096_S1x32x4096_1_96_0

/-! ## What the body leaves in the result's staging buffer -/

/-- The scratch window after its three stores (last first): the bottom halo, the core tile, the top halo. -/
def stitched (xc : Vec F S128x4096 .f32) (xt xb : Vec F S8x4096 .f32) : Vec F S144x4096 .f32 :=
  View.canon [⟨rWinBot, k0_pay5 (View.ld xb rHalo)⟩, ⟨rWinCore, k0_pay4 (View.ld xc rCore)⟩, ⟨rWinTop, k0_pay3 (View.ld xt rHalo)⟩]

/-- The result block after the body: its eight stores (last first), each a payload of the window read back whole
    (`win`), of the profit field on the window (`prof`) and of the strip's direction words and probabilities. -/
def out0_5 (xc : Vec F S128x4096 .f32) (xt xb : Vec F S8x4096 .f32) (xd : Vec F S128x4096 .i32) (xp : Vec F S128x4096 .f32) :
    Vec F S2x128x4096 .f32 :=
  let win : Vec F S144x4096 .f32 := View.ld (stitched xc xt xb) rWin
  let prof : FVec F S144x4096 .f32 := k0_pay9 (k0_pay6 win) (k0_pay7 win) (k0_pay8 win)
  let d3 : Vec F S32x4096 .i32 := View.ld xd rStrip3
  let d2 : Vec F S32x4096 .i32 := View.ld xd rStrip2
  let d1 : Vec F S32x4096 .i32 := View.ld xd rStrip1
  let d0 : Vec F S32x4096 .i32 := View.ld xd rStrip0
  View.canon [
    ⟨rOut1_3, k0_pay2 (k0_pay28 prof)⟩,
    ⟨rOut0_3, k0_pay1 (k0_pay28 prof) (k0_pay29 win) (k0_pay30 win) (k0_pay31 win) (k0_pay32 win) (k0_pay33 win) d3 (View.ld xp rStrip3)
        (k0_pay34 prof d3) (k0_pay35 d3) (k0_pay36 d3)⟩,
    ⟨rOut1_2, k0_pay27 (k0_pay20 prof)⟩,
    ⟨rOut0_2, k0_pay26 (k0_pay20 prof) (k0_pay21 win) (k0_pay22 win) (View.ld xp rStrip2) (k0_pay23 prof d2) (k0_pay24 d2) (k0_pay25 win d2)⟩,
    ⟨rOut1_1, k0_pay19 (k0_pay14 prof)⟩,
    ⟨rOut0_1, k0_pay18 (k0_pay15 win) (View.ld xp rStrip1) (k0_pay16 win d1) (k0_pay17 prof d1)⟩,
    ⟨rOut1_0, k0_pay13 (k0_pay10 (k0_pay6 win) (k0_pay7 win) (k0_pay8 win))⟩,
    ⟨rOut0_0, k0_pay12 (k0_pay11 win (k0_pay6 win) (k0_pay7 win) (k0_pay8 win) d0 (View.ld xp rStrip0))⟩]

/-! ## The pipeline's proof data -/

/-- The share of its array each window holds: the type field's is split among its three windows. -/
def shareOf : Fin cfg0.W → PosShare TreeShare
  | ⟨0, _⟩ => fullShare.left
  | ⟨1, _⟩ => fullShare.right.left
  | ⟨2, _⟩ => fullShare.right.right
  | _ => fullShare

/-- The proof data of the one pipeline on core `c`: the arrays as the region finds them; after the body at point `t` each
    input's buffer at its block and the result's at `out0_5` of the input blocks; the invariant the scoped rest (the
    scratch window at anything) and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

end Cert.KernelIdeal.Hand

end
-- ==== Proof.KernelIdeal.Body.lean ====
/-
  The idealized kernel's body at one grid point: from its five input blocks it leaves the result's staging buffer at
  `out0_5` of them, the inputs' buffers as they were, the scratch window at what it stitched.

  The body is run once over variables — seven whole memrefs, the five inputs' at read contents, the result's and the
  scratch window's at anything (`sound_kernel`). Its three stores into the scratch window tile rows 0–7, 8–135 and
  136–143, so the whole-window load after them reads the list's canonical contents, `stitched` of the three input
  blocks, at every index; every later value is a payload of that window, of the strips of direction words and of the
  strips of probabilities. Its eight stores into the result block — two planes by four strips of 32 rows — tile the
  block (`cover0_5`), so whatever the block held before (each store is preceded by a load of the piece it overwrites,
  whose value nothing reads) the block afterwards reads the canonical contents of the eight pieces: `out0_5`.

  At a grid point the five inputs' staging buffers hold their blocks (`before0_W`: an input window keeps its block in
  place, and is fetched at every point), the scratch window is the one scoped buffer the region's invariant holds at
  some contents: it is lent to the body and returned at what the three stores left.
-/
import proofs.«410334_j7902739824972_3_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result block's pieces cover it -/

/-- The eight pieces of the result block — two planes by four strips of 32 rows — tile it, so they cover it. -/
theorem cover0_5 (p0 p1 p2 p3 p4 p5 p6 p7 : Vec F S1x32x4096 .f32) (y : S2x128x4096.Idx) :
    ∃ pc ∈ ([⟨rOut1_3, p0⟩, ⟨rOut0_3, p1⟩, ⟨rOut1_2, p2⟩, ⟨rOut0_2, p3⟩, ⟨rOut1_1, p4⟩, ⟨rOut0_1, p5⟩, ⟨rOut1_0, p6⟩, ⟨rOut0_0, p7⟩] :
      List (View.Piece (Elt F) S2x128x4096 .f32)), y ∈ pc.1.set :=
  View.cover_of_tiledL [⟨rOut1_3, p0⟩, ⟨rOut0_3, p1⟩, ⟨rOut1_2, p2⟩, ⟨rOut0_2, p3⟩, ⟨rOut1_1, p4⟩, ⟨rOut0_1, p5⟩, ⟨rOut1_0, p6⟩, ⟨rOut0_0, p7⟩]
    S1x32x4096.size (by sl_kernel_rfl) y

/-! ## The body's triple -/

set_option maxHeartbeats 1000000 in
/-- The kernel body at any grid coordinates, on whole memrefs: the five inputs' at read contents `xc` (the core tile),
    `xt`, `xb` (the halos above and below), `xd` (direction words), `xp` (probabilities), the result's and the scratch
    window's at anything. It runs to the continuation holding the inputs' as they were, the result's at
    `out0_5 xc xt xb xd xp` and the scratch window's at something.
    The scratch window's whole load comes after three stores over unknown contents; what it reads is the canonical
    contents of the three pieces at the window's indices, which is `View.ld (stitched xc xt xb) rWin` by unfolding, and
    an input's load through a rectangle is `View.ld` of its read contents by definition. The result's eight stores cover
    the block, so its read contents are the canonical contents of the eight pieces, the list `out0_5` names. -/
theorem sound_kernel (c : Dev nD) (E : Set ℕ) (i : grid0.Coords)
    (arg1 : Memref sig .tc .vmem S128x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S128x4096 .i32) (harg4 : arg4.IsWhole)
    (arg5 : Memref sig .tc .vmem S128x4096 .f32) (harg5 : arg5.IsWhole) (arg6 : Memref sig .tc .vmem S2x128x4096 .f32) (harg6 : arg6.IsWhole)
    (arg7 : Memref sig .tc .vmem S144x4096 .f32) (harg7 : arg7.IsWhole)
    (xc : Vec F S128x4096 .f32) (xt xb : Vec F S8x4096 .f32) (xd : Vec F S128x4096 .i32) (xp : Vec F S128x4096 .f32) (K : PUnit → sProp 𝕄) :
    iprop(owns (c : Thread nD τ) arg1 fullShare xc ∗ owns (c : Thread nD τ) arg2 fullShare xt ∗ owns (c : Thread nD τ) arg3 fullShare xb
        ∗ owns (c : Thread nD τ) arg4 fullShare xd ∗ owns (c : Thread nD τ) arg5 fullShare xp
        ∗ (∃ d, owns (c : Thread nD τ) arg6 fullShare d) ∗ (∃ d, owns (c : Thread nD τ) arg7 fullShare d)
        ∗ (iprop(owns (c : Thread nD τ) arg1 fullShare xc ∗ owns (c : Thread nD τ) arg2 fullShare xt ∗ owns (c : Thread nD τ) arg3 fullShare xb
            ∗ owns (c : Thread nD τ) arg4 fullShare xd ∗ owns (c : Thread nD τ) arg5 fullShare xp
            ∗ owns (c : Thread nD τ) arg6 fullShare (out0_5 xc xt xb xd xp) ∗ (∃ d, owns (c : Thread nD τ) arg7 fullShare d)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton, k0_part1_eq_skeleton, k0_part2_eq_skeleton, k0_part3_eq_skeleton, k0_part4_eq_skeleton, k0_part5_eq_skeleton]
  unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover0_5 _ _ _ _ _ _ _ _)]
    simp only [View.readCov_eq_canon']
    rfl
  iexists _, _; isplitr
  swap; · iexact H7
  ipureintro; rfl

/-! ## What the body finds in the inputs' staging buffers -/

/-- Input window 0's current staging buffer holds its block at every point, fetched there or not, for any proof data
    whose array is the region-entry contents (`hA`) and whose body leaves the block in place (`hafter`): the window is
    uncut and never idle, and unfetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents (`hA`) and whose body leaves the block in place (`hafter`): the window is
    uncut and never idle, and unfetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents (`hA`) and whose body leaves the block in place (`hafter`): the window is
    uncut and never idle, and unfetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents (`hA`) and whose body leaves the block in place (`hafter`): the window is
    uncut and never idle, and unfetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents (`hA`) and whose body leaves the block in place (`hafter`): the window is
    uncut and never idle, and unfetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- So for this certificate's proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The invariant is the same at every point: the scoped rest (the scratch window at some contents) and the generator
    register at some state. -/
theorem Φ_eq (c : Dev nD) (t : Fin (cfg0.N + 1)) : (dats m 0 c).Φ t = Pipeline.ΦA spec0 c := by dsimp only [dats]

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the invariant and the debt at the next point, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks (`before0_W`), the result's holds something,
    and the invariant's scoped rest is the scratch buffer whole at some contents — a whole buffer's points-to is owning
    its whole memref —, so `sound_kernel` applies at the blocks. Afterwards the scratch buffer, at whatever the body
    left, goes back into the invariant; the generator register and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Φ_eq, Φ_eq, show (dats m 0 c).owesAt () t.succ = (dats m 0 c).owesAt () t.castSucc from rfl,
    after0_0, after0_1, after0_2, after0_3, after0_4, after0_5]
  unfold Pipeline.ΦA
  rw [scopedRest0_eq c]
  iintro ⟨⟨⟨%f7, H7⟩, Hr⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]
  · iexists f7; rw [owns_whole]; iexact H7
  iintro ⟨H0, H1, H2, H3, H4, H5, ⟨%d7, H7⟩⟩
  isplitl [H7 Hr]
  · isplitl [H7]
    · iexists d7; rw [owns_whole]; exact .rfl
    · iexact Hr
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Launch.lean ====
/-
  The idealized kernel's run: the pipeline launched over the proof data, three of whose windows share the type field's
  array.
-/
import proofs.«410334_j7902739824972_3_alg».proof.Proof.KernelIdeal.Body
import proofs.«410334_j7902739824972_3_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one array's share split among its three windows -/

/-- The distinct buffers behind the six windows' arrays: the type field (windows 0, 1, 2), the direction words, the
    probabilities, the result. -/
theorem arrRefs_eq : Finset.univ.image (Pipeline.arrRef spec0) = [main_arg0, main_arg1, main_arg2, main_v0].toFinset := by decide

/-- The pipeline's arrays as whole buffers, each window's at the share the proof data name for it. -/
theorem arrays_eq_shares (c : Dev nD) (G : (w : Fin cfg0.W) → Buf (Elt F) ((cfg0.win w).arr.view.loc (c.tc : Thread nD τ))) :
    (dats m 0 c).arrays G
      = bigSep Finset.univ fun w : Fin 6 => (((c.tc : Thread nD τ).loc (Pipeline.arrRef spec0 w)) ↦{(dats m 0 c).share w} G w : sProp 𝕄) := by
  unfold Dat.arrays
  exact bigSep_congr fun w _ => by rw [(Gen.arr_whole0 w).set_eq_univ]

/-- At the region's entry the four buffers behind the arrays, each whole at the full share, make the proof data's six
    arrays: the type field's full share is its left half (the core tile's window) and its right half, and that the two
    quarters of the halo windows; the other three buffers have a window each. -/
theorem arrays_split (c : Dev nD) :
    (Pipeline.arrBufs spec0 c (V m c) : sProp 𝕄) ⊢ (dats m 0 c).arrays ((dats m 0 c).arrAt · 0) := by
  rw [arrays_eq_shares, Gen.bigSep_W0]
  unfold Pipeline.arrBufs
  rw [bigSep_eq_bigSepL_of_eq [main_arg0, main_arg1, main_arg2, main_v0] arrRefs_eq (by decide)]
  show iprop((((c.tc : Thread nD τ).loc main_arg0) ↦{fullShare} V m c main_arg0) ∗ (((c.tc : Thread nD τ).loc main_arg1) ↦{fullShare} V m c main_arg1)
      ∗ (((c.tc : Thread nD τ).loc main_arg2) ↦{fullShare} V m c main_arg2) ∗ (((c.tc : Thread nD τ).loc main_v0) ↦{fullShare} V m c main_v0)) ⊢ _
  iintro ⟨H0, H1, H2, H3⟩
  ihave ⟨Ha, Hb⟩ := (pointsTo_share (PosShare.mem_left_op_right fullShare)).1 $$ H0
  ihave ⟨Hc, Hd⟩ := (pointsTo_share (PosShare.mem_left_op_right fullShare.right)).1 $$ Hb
  isplitl [Ha]; · iexact Ha
  isplitl [Hc]; · iexact Hc
  isplitl [Hd]; · iexact Hd
  isplitl [H1]; · iexact H1
  isplitl [H2]; · iexact H2
  iexact H3

/-! ## The run -/

/-- Every weakly fair execution ends, nothing faulting, with every array of the pipeline at what the proof data says
    and every other unscoped buffer as the region found it. -/
theorem run_main : θ_run defs (onTc (τ := τ) (main (F := F))) (s₀ m ρ) (Pipeline.FramePost cfgs (dats m) 0 (V m)) :=
  Cert.LibSharedFrame.θ_run_frame_shared_track cfgs (dats m) (0 : Fin 1) Gen.winFacts₀0 Gen.cellOf_inj defs₀ Variants.none m ρ main
    (hbody := fun c => (body_obligation m c).loose) (hne := Gen.block_pos0) (harr := Gen.arr_whole0) (hstage := Gen.stage_whole0)
    (howed := fun _ _ => rfl) (V := V m) (hmain := hmain m Variants.none) (hsplit := arrays_split m)
    (hin := fun _ => .rfl) (hout := fun _ => .rfl)

/-- The run with the result array named and the arguments unchanged. -/
theorem run_out : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c)))⟩) (run_main m ρ)

/-- The frame: it runs to the end and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.KernelIdeal.Hand

end
-- ==== Proof.Lattice.lean ====
/-
  The mathematics both programs compute, on the periodic 4096 × 4096 lattice, index by index over the extended reals.

  A site `(p, q)` has four neighbours on the ring in each direction: `prv` and `nxt` step a coordinate down and up
  modulo 4096. `plus5 f` is the sum of a field over a site and its four neighbours, in the one order both programs
  add them: the site, the row before, the row after, the column before, the column after.

  A site is a cooperator where the type field is the word `1.0`, a defector where it is the word `0.0`. Each site's
  group collects `plus5` of the cooperators and pays every member that count times `r/5`; a cooperator's share is
  one less. A site's profit sums the shares of the five groups it sits in.

  The two programs spell that profit differently.
  * The kernel's form: the group share is the count times ONE folded word (`0x3F7AE148`, the float nearest 0.98), and
    the profit is the five-group sum of shares less five times the cooperator indicator.
  * The reference's form: the share is the count divided by `5.0`, then times the word `0x409CCCCD` (the float
    nearest 4.9); the cooperator's and the defector's five-group sums are formed apart and recombined by the two
    indicators.
  They agree where every type is `0.0` or `1.0` (then the two indicators sum to one) because five times the first
  word is exactly the second.

  The update: each site looks at ONE neighbour, named by its direction word (0: column before, 1: column after,
  2: row before, anything else: row after), and takes that neighbour's type when its probability is at most the Fermi
  weight `1 / (1 + exp (-(Δ / 0.1)))` of the profit difference `Δ`. The kernel picks the neighbour's profit first
  and applies one logistic; the reference forms the four weights and picks among them.
-/
import Idealize.ShloMosaic.PureOps.Ideal
import Idealize.ShloMosaic.Lib.ValueIdx

noncomputable section

namespace Cert.Lattice

open Idealize.ShloMosaic Idealize.ShloMosaic.ValueIdx

/-- The lattice's shape and the result's: the new types stacked over the profits. -/
abbrev SLat : Shape := ⟨2, ![4096, 4096]⟩
abbrev SOut : Shape := ⟨3, ![2, 4096, 4096]⟩

/-- One step down the ring of 4096 sites, -/
def prv (p : Fin 4096) : Fin 4096 := ⟨(p.val + 4095) % 4096, Nat.mod_lt _ (by decide)⟩
/-- and one step up. -/
def nxt (p : Fin 4096) : Fin 4096 := ⟨(p.val + 1) % 4096, Nat.mod_lt _ (by decide)⟩

/-- A field on the lattice, by row and column. -/
abbrev Field : Type := Fin 4096 → Fin 4096 → EReal

/-- The five-point sum, in the programs' order of addition. -/
def plus5 (f : Field) : Field := fun p q => f p q + f (prv p) q + f (nxt p) q + f p (prv q) + f p (nxt q)

/-! ### The programs' float words, read exactly -/

def one : EReal := Ideal.ofBits .f32 0x3F800000#32
def zero : EReal := Ideal.ofBits .f32 0x00000000#32
def five : EReal := Ideal.ofBits .f32 0x40A00000#32
/-- the kernel's folded `r / 5`, -/
def shareWord : EReal := Ideal.ofBits .f32 0x3F7AE148#32
/-- the reference's `r`, -/
def rWord : EReal := Ideal.ofBits .f32 0x409CCCCD#32
/-- and the temperature both divide by. -/
def tempWord : EReal := Ideal.ofBits .f32 0x3DCCCCCD#32

/-- The indicator of `x = w`, as an extended real. -/
def ind (x w : EReal) : EReal := if x = w then 1 else 0

/-- One of four values, by the direction word. -/
def pick {α : Type} (d : BitVec 32) (a0 a1 a2 a3 : α) : α :=
  if d = 0#32 then a0 else if d = 1#32 then a1 else if d = 2#32 then a2 else a3

section

variable (X : SLat.Idx → EReal) (D : SLat.Idx → BitVec 32) (P : SLat.Idx → EReal)

/-- The cooperators. -/
def coop : Field := fun p q => ind (X (ix2 p q)) one
/-- The defectors, which only the reference names. -/
def defect : Field := fun p q => ind (X (ix2 p q)) zero

/-- The neighbour's type a site looks at. -/
def neighbour (p q : Fin 4096) : EReal :=
  pick (D (ix2 p q)) (X (ix2 p (prv q))) (X (ix2 p (nxt q))) (X (ix2 (prv p) q)) (X (ix2 (nxt p) q))

/-! ### The kernel's form -/

/-- A group's share by the folded word. -/
def shareK : Field := fun p q => plus5 (coop X) p q * shareWord
/-- The profit as the kernel forms it. -/
def profitK : Field := fun p q => plus5 (shareK X) p q - five * coop X p q

/-- The new type as the kernel forms it: pick the neighbour's profit, one logistic. -/
def newTypeK (p q : Fin 4096) : EReal :=
  let delta := pick (D (ix2 p q)) (profitK X p (prv q)) (profitK X p (nxt q)) (profitK X (prv p) q) (profitK X (nxt p) q)
  let w := Ideal.logistic (Ideal.div (delta - profitK X p q) tempWord)
  if P (ix2 p q) ≤ w then neighbour X D p q else X (ix2 p q)

/-- The kernel's result by coordinates: plane 0 the new types, plane 1 the profits. -/
def outK (k : Fin 2) (p q : Fin 4096) : EReal := if k = 0 then newTypeK X D P p q else profitK X p q

/-- The kernel's result array. -/
def kernelOut : SOut.Idx → EReal := fun j =>
  outK X D P ⟨(j 0).val, (j 0).isLt⟩ ⟨(j 1).val, (j 1).isLt⟩ ⟨(j 2).val, (j 2).isLt⟩

theorem kernelOut_ix3 (k : Fin 2) (p q : Fin 4096) : kernelOut X D P (ix3 k p q) = outK X D P k p q := rfl

/-! ### The reference's form -/

/-- A group's share by the quotient and the reference's word. -/
def shareR : Field := fun p q => Ideal.div (plus5 (coop X) p q) five * rWord
/-- The profit as the reference forms it. -/
def profitR : Field := fun p q =>
  plus5 (fun a b => shareR X a b - one) p q * coop X p q + plus5 (shareR X) p q * defect X p q

/-- The Fermi weight of a profit difference, as the reference spells it. -/
def fermi (delta : EReal) : EReal := Ideal.div one (one + Ideal.exp (-(Ideal.div delta tempWord)))

/-- The new type as the reference forms it: four weights, then the pick. -/
def newTypeR (p q : Fin 4096) : EReal :=
  let w := pick (D (ix2 p q)) (fermi (profitR X p (prv q) - profitR X p q)) (fermi (profitR X p (nxt q) - profitR X p q))
    (fermi (profitR X (prv p) q - profitR X p q)) (fermi (profitR X (nxt p) q - profitR X p q))
  if P (ix2 p q) ≤ w then neighbour X D p q else X (ix2 p q)

/-- The reference's result by coordinates. -/
def outR (k : Fin 2) (p q : Fin 4096) : EReal := if k = 0 then newTypeR X D P p q else profitR X p q

end

end Cert.Lattice

end
-- ==== Proof.Window.lean ====
/-
  The kernel's arithmetic as it is carried out on ONE tile: a window of 144 rows (8 halo rows, 128 core rows, 8 halo rows)
  by all 4096 columns. The row rolls wrap around the WINDOW (modulo 144), the column rolls around the lattice's full
  width (modulo 4096). The five-point sums, the share, the profit and the update are the lattice's own
  (Lattice.lean, the kernel's form) with the window's rows in place of the lattice's.

  A window row that is at least two rows inside the window (rows 2 to 141) gets the same profit as the lattice row it
  holds, since two five-point sums reach two rows and never meet the wrap; the rows the tile writes (8 to 135) look one
  row further for the neighbour's profit, which rows 7 to 136 have right.
-/
import proofs.«410334_j7902739824972_3_alg».proof.Proof.Lattice

noncomputable section

namespace Cert.Window

open Idealize.ShloMosaic Idealize.ShloMosaic.ValueIdx Cert.Lattice

/-- The window's shape. -/
abbrev SWin : Shape := ⟨2, ![144, 4096]⟩

/-- One row up the window, wrapping at its edge, -/
def rowPrv (r : Fin 144) : Fin 144 := ⟨(r.val + 143) % 144, Nat.mod_lt _ (by decide)⟩
/-- and one row down. -/
def rowNxt (r : Fin 144) : Fin 144 := ⟨(r.val + 1) % 144, Nat.mod_lt _ (by decide)⟩

/-- A field on the window. -/
abbrev WField : Type := Fin 144 → Fin 4096 → EReal

/-- The five-point sum on the window, in the kernel's order: the site, the row before, the row after, the column
    before, the column after. -/
def plus5W (f : WField) : WField := fun r q => f r q + f (rowPrv r) q + f (rowNxt r) q + f r (prv q) + f r (nxt q)

section

variable (W : SWin.Idx → EReal)

/-- The cooperators of the window. -/
def coopW : WField := fun r q => ind (W (ix2 r q)) one
/-- A group's share, by the folded word. -/
def shareW : WField := fun r q => plus5W (coopW W) r q * shareWord
/-- The profit on the window. -/
def profitW : WField := fun r q => plus5W (shareW W) r q - five * coopW W r q

/-- The new type of the site at window row `r`, column `q`, whose direction word is `d` and probability `pr`: the
    neighbour is read off the window (row before and after WITHOUT wrap: the tile's rows are inside it), its profit picked,
    one logistic. -/
def newTypeW (d : BitVec 32) (pr : EReal) (r : Fin 144) (q : Fin 4096) : EReal :=
  let delta := pick d (profitW W r (prv q)) (profitW W r (nxt q)) (profitW W (rowPrv r) q) (profitW W (rowNxt r) q)
  let neigh := pick d (W (ix2 r (prv q))) (W (ix2 r (nxt q))) (W (ix2 (rowPrv r) q)) (W (ix2 (rowNxt r) q))
  let w := Ideal.logistic (Ideal.div (delta - profitW W r q) tempWord)
  if pr ≤ w then neigh else W (ix2 r q)

end

/-- The lattice row a tile's window row holds: tile `t` (of 32) starts 8 rows above its 128 core rows, around the ring. -/
def rowOf (t : Fin 32) (r : Fin 144) : Fin 4096 := ⟨(128 * t.val + r.val + 4088) % 4096, Nat.mod_lt _ (by decide)⟩

/-- The window row of strip `s` (of 4), row `i` (of 32) of the tile's core. -/
def stripRow (s : Fin 4) (i : Fin 32) : Fin 144 := ⟨8 + 32 * s.val + i.val, by omega⟩

/-- The core row (of 128) of strip `s`, row `i`. -/
def coreRow (s : Fin 4) (i : Fin 32) : Fin 128 := ⟨32 * s.val + i.val, by omega⟩

/-- The lattice row tile `t` writes at core row `a`. -/
def outRow (t : Fin 32) (a : Fin 128) : Fin 4096 := ⟨128 * t.val + a.val, by omega⟩

end Cert.Window

end
-- ==== Proof.KernelIdeal.Payload.lean ====
/-
  The body's stored values read at an index, over the extended reals: each of the eight pieces of the result block is the
  window's profit (plane 1) or the window's update (plane 0) at the strip's row.

  The road: the rolls and the row slices are read at a row and a column; the three fields the body forms on the whole
  window (cooperator indicator, group share, profit) are the window's own, at every row; a strip's profits and update are
  then stated once over the strip's number and its three row offsets, and the eight pieces are its instances.
-/
import proofs.«410334_j7902739824972_3_alg».proof.Proof.KernelIdeal.Base
import proofs.«410334_j7902739824972_3_alg».proof.Proof.Window
import Idealize.ShloMosaic.PureOps.Ideal
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx Cert.Lattice Cert.Window

/-! The lemmas of this file live in a namespace of their own; the eight statements at the end are the interface. -/
namespace Payload

/-! ## The rolls read at an index

A roll by k along an axis of extent n reads, at coordinate c, the operand at (c + n - k) % n: by one that is the
coordinate before, by n - 1 the coordinate after, each around the end. -/

section Reads
variable {α : Type}

/-- A roll along the window's rows by one reads the row before, around the window. -/
theorem rollRow1_at (x : S144x4096.Idx → α) (h : S144x4096.Rotates 0 none) (r : Fin 144) (q : Fin 4096) :
    dynamicRotate 0 1#32 none x h (ix2 r q) = x (ix2 (rowPrv r) q) := by
  unfold dynamicRotate
  refine congrArg x (funext fun b => ?_)
  match b with
  | ⟨0, _⟩ => exact Fin.ext (by show (r.val + 144 - (1 + 0) % 144) % 144 = (r.val + 143) % 144; omega)
  | ⟨1, _⟩ => rfl

/-- A roll along the window's rows by 143 reads the row after, around the window. -/
theorem rollRow143_at (x : S144x4096.Idx → α) (h : S144x4096.Rotates 0 none) (r : Fin 144) (q : Fin 4096) :
    dynamicRotate 0 143#32 none x h (ix2 r q) = x (ix2 (rowNxt r) q) := by
  unfold dynamicRotate
  refine congrArg x (funext fun b => ?_)
  match b with
  | ⟨0, _⟩ => exact Fin.ext (by show (r.val + 144 - (143 + 0) % 144) % 144 = (r.val + 1) % 144; omega)
  | ⟨1, _⟩ => rfl

/-- A roll along the columns by one reads the column before, around the lattice's width, -/
theorem rollCol1_at {n : Nat} (x : (⟨2, ![n, 4096]⟩ : Shape).Idx → α) (h : (⟨2, ![n, 4096]⟩ : Shape).Rotates 1 none)
    (r : Fin n) (q : Fin 4096) : dynamicRotate 1 1#32 none x h (ix2 r q) = x (ix2 r (prv q)) := by
  unfold dynamicRotate
  refine congrArg x (funext fun b => ?_)
  match b with
  | ⟨0, _⟩ => rfl
  | ⟨1, _⟩ => exact Fin.ext (by show (q.val + 4096 - (1 + 0) % 4096) % 4096 = (q.val + 4095) % 4096; omega)

/-- and by 4095 the column after. -/
theorem rollCol4095_at {n : Nat} (x : (⟨2, ![n, 4096]⟩ : Shape).Idx → α) (h : (⟨2, ![n, 4096]⟩ : Shape).Rotates 1 none)
    (r : Fin n) (q : Fin 4096) : dynamicRotate 1 4095#32 none x h (ix2 r q) = x (ix2 r (nxt q)) := by
  unfold dynamicRotate
  refine congrArg x (funext fun b => ?_)
  match b with
  | ⟨0, _⟩ => rfl
  | ⟨1, _⟩ => exact Fin.ext (by show (q.val + 4096 - (4095 + 0) % 4096) % 4096 = (q.val + 1) % 4096; omega)

end Reads

/-! ## The three fields on the window -/

variable (win : Vec Ideal S144x4096 .f32)

/-- The one-bit answer of a comparison, widened to a word and read as a signed integer, is one or zero. -/
private theorem word_of_true : (((BitVec.ofBool true).setWidth 32).toInt : ℝ) = 1 := by
  have h : ((BitVec.ofBool true).setWidth 32).toInt = 1 := by decide
  rw [h, Int.cast_one]
private theorem word_of_false : (((BitVec.ofBool false).setWidth 32).toInt : ℝ) = 0 := by
  have h : ((BitVec.ofBool false).setWidth 32).toInt = 0 := by decide
  rw [h, Int.cast_zero]

/-- The body's first field is the cooperator indicator of the window. -/
theorem coop_at (r : Fin 144) (q : Fin 4096) : k0_pay6 win (ix2 r q) = coopW win r q := by
  show ((((Ideal.cmp .oeq (win (ix2 r q)) (Ideal.ofBits .f32 0x3F800000#32)).setWidth 32).toInt : ℝ) : EReal)
    = ind (win (ix2 r q)) one
  unfold ind one
  by_cases h : win (ix2 r q) = Ideal.ofBits .f32 0x3F800000#32
  · rw [if_pos h]
    show ((((BitVec.ofBool (decide (win (ix2 r q) = Ideal.ofBits .f32 0x3F800000#32))).setWidth 32).toInt : ℝ) : EReal) = 1
    rw [decide_eq_true h, word_of_true, EReal.coe_one]
  · rw [if_neg h]
    show ((((BitVec.ofBool (decide (win (ix2 r q) = Ideal.ofBits .f32 0x3F800000#32))).setWidth 32).toInt : ℝ) : EReal) = 0
    rw [decide_eq_false h, word_of_false, EReal.coe_zero]

/-- The second is the group's share: the five-point count of cooperators times the folded word. -/
theorem share_at (r : Fin 144) (q : Fin 4096) : k0_pay7 win (ix2 r q) = shareW win r q := by
  unfold k0_pay7
  simp only [mulf_apply, addf_apply, broadcast_apply]
  rw [rollRow1_at, rollRow143_at, rollCol1_at, rollCol4095_at]
  simp only [coop_at]
  rfl

/-- The profit field: the five-point sum of shares (four terms formed first, the fifth added last) less five times the
    indicator. The window's own wrap is in both sides, so this holds at every row. -/
theorem profit_at (r : Fin 144) (q : Fin 4096) :
    k0_pay9 (k0_pay6 win) (k0_pay7 win) (k0_pay8 win) (ix2 r q) = profitW win r q := by
  unfold k0_pay9 k0_pay8
  simp only [subf_apply, mulf_apply, addf_apply, broadcast_apply]
  rw [rollRow1_at, rollRow143_at, rollCol1_at, rollCol4095_at]
  simp only [coop_at, share_at]
  rfl

/-! ## One site's update, word by word -/

section Words
variable {α : Type}

/-- A select on the comparison of two words is the choice on their equality. -/
private theorem select_eq (d k : BitVec 32) (a b : α) :
    Scalar.select (IntOp.cmpi .eq d k) a b = if d = k then a else b := by
  show (if BitVec.ofBool (d == k) = 1#1 then a else b) = _
  by_cases h : d = k
  · rw [if_pos h, beq_iff_eq.mpr h]; exact if_pos rfl
  · rw [if_neg h, beq_eq_false_iff_ne.mpr h]; exact if_neg (by decide)

/-- The three nested selects on the direction word are the four-way pick. -/
theorem pick_of_selects (d : BitVec 32) (a0 a1 a2 a3 : α) :
    Scalar.select (IntOp.cmpi .eq d 0#32) a0
        (Scalar.select (IntOp.cmpi .eq d 1#32) a1 (Scalar.select (IntOp.cmpi .eq d 2#32) a2 a3))
      = pick d a0 a1 a2 a3 := by
  rw [select_eq, select_eq, select_eq]; rfl

/-- A select on "at most" is the choice on the order of the extended reals. -/
theorem select_ole (p w : EReal) (a b : α) : Scalar.select (Ideal.cmp .ole p w) a b = if p ≤ w then a else b := by
  show (if BitVec.ofBool (decide (p ≤ w)) = 1#1 then a else b) = _
  by_cases h : p ≤ w
  · rw [if_pos h, decide_eq_true h]; exact if_pos rfl
  · rw [if_neg h, decide_eq_false h]; exact if_neg (by decide)

end Words

/-! ## The strips

A strip is 32 rows of the window from row 8 + 32 s on. Its profits are the profit field's rows there; its update reads
the profit and the type at the site, at the two columns beside it (rolls of the strip's own rows) and at the rows before
and after (the window's rows one above and one below the strip's, which never leave the window). -/

section Strip
variable (P : FVec Ideal S144x4096 .f32) (hP : ∀ (r : Fin 144) (q : Fin 4096), P (ix2 r q) = profitW win r q)
variable (o7 o8 o9 : Nat) (h7 : S144x4096.Slices ![o7, 0] S32x4096) (h8 : S144x4096.Slices ![o8, 0] S32x4096)
  (h9 : S144x4096.Slices ![o9, 0] S32x4096) (hr : S32x4096.Rotates 1 none) (hc : S32x4096.ShapeCasts S1x32x4096)
variable (s : Fin 4) (e8 : o8 = 8 + 32 * s.val) (e7 : o7 + 1 = o8) (e9 : o9 = o8 + 1)

include e8 in
/-- The strip's own rows of a field on the window. -/
theorem stripRows_at {α : Type} (x : S144x4096.Idx → α) (i : Fin 32) (q : Fin 4096) :
    extractStridedSlice S32x4096 ![o8, 0] x h8 (ix2 i q) = x (ix2 (stripRow s i) q) :=
  slice2_axis0_apply o8 x h8 i q (stripRow s i) (by
    have := s.isLt; have := i.isLt
    show 8 + 32 * s.val + i.val = o8 + i.val
    omega)

include e8 e7 in
/-- The rows one above the strip's: the row before each of its rows, with no wrap. -/
theorem stripAbove_at {α : Type} (x : S144x4096.Idx → α) (i : Fin 32) (q : Fin 4096) :
    extractStridedSlice S32x4096 ![o7, 0] x h7 (ix2 i q) = x (ix2 (rowPrv (stripRow s i)) q) :=
  slice2_axis0_apply o7 x h7 i q (rowPrv (stripRow s i)) (by
    have := s.isLt; have := i.isLt
    show (8 + 32 * s.val + i.val + 143) % 144 = o7 + i.val
    omega)

include e8 e9 in
/-- The rows one below the strip's: the row after each of its rows, with no wrap. -/
theorem stripBelow_at {α : Type} (x : S144x4096.Idx → α) (i : Fin 32) (q : Fin 4096) :
    extractStridedSlice S32x4096 ![o9, 0] x h9 (ix2 i q) = x (ix2 (rowNxt (stripRow s i)) q) :=
  slice2_axis0_apply o9 x h9 i q (rowNxt (stripRow s i)) (by
    have := s.isLt; have := i.isLt
    show (8 + 32 * s.val + i.val + 1) % 144 = o9 + i.val
    omega)

include hP e8 in
/-- The strip's plane of profits. -/
theorem strip_profit (i : Fin 32) (q : Fin 4096) :
    shapeCast S1x32x4096 (extractStridedSlice S32x4096 ![o8, 0] P h8) hc (ix3 (0 : Fin 1) i q)
      = profitW win (stripRow s i) q :=
  (shapeCast_ab_1ab_apply _ hc 0 i q).trans ((stripRows_at o8 h8 s e8 P i q).trans (hP _ _))

include hP e8 e7 e9 in
/-- The strip's update: the neighbour's profit picked by the direction word, one logistic of the scaled difference, the
    neighbour's type taken where the probability is at most that weight. -/
theorem strip_update (d : Vec Ideal S32x4096 .i32) (pr : Vec Ideal S32x4096 .f32) (i : Fin 32) (q : Fin 4096) :
    select (cmpf .ole pr (logistic (divf (subf
        (select (cmpi .eq d (broadcast S32x4096 0#32))
          (dynamicRotate 1 1#32 none (extractStridedSlice S32x4096 ![o8, 0] P h8) hr)
          (select (cmpi .eq d (broadcast S32x4096 1#32))
            (dynamicRotate 1 4095#32 none (extractStridedSlice S32x4096 ![o8, 0] P h8) hr)
            (select (cmpi .eq d (broadcast S32x4096 2#32))
              (extractStridedSlice S32x4096 ![o7, 0] P h7) (extractStridedSlice S32x4096 ![o9, 0] P h9))))
        (extractStridedSlice S32x4096 ![o8, 0] P h8))
        (broadcast S32x4096 (Scalar.ofBits (F := Ideal) .f32 0x3DCCCCCD#32)))))
      (select (cmpi .eq d (broadcast S32x4096 0#32))
        (dynamicRotate 1 1#32 none (extractStridedSlice S32x4096 ![o8, 0] win h8) hr)
        (select (cmpi .eq d (broadcast S32x4096 1#32))
          (dynamicRotate 1 4095#32 none (extractStridedSlice S32x4096 ![o8, 0] win h8) hr)
          (select (cmpi .eq d (broadcast S32x4096 2#32))
            (extractStridedSlice S32x4096 ![o7, 0] win h7) (extractStridedSlice S32x4096 ![o9, 0] win h9))))
      (extractStridedSlice S32x4096 ![o8, 0] win h8) (ix2 i q)
      = newTypeW win (d (ix2 i q)) (pr (ix2 i q)) (stripRow s i) q := by
  show Scalar.select (Ideal.cmp .ole (pr (ix2 i q)) (Ideal.logistic (Ideal.div
        (Scalar.select (IntOp.cmpi .eq (d (ix2 i q)) 0#32)
          (dynamicRotate 1 1#32 none (extractStridedSlice S32x4096 ![o8, 0] P h8) hr (ix2 i q))
          (Scalar.select (IntOp.cmpi .eq (d (ix2 i q)) 1#32)
            (dynamicRotate 1 4095#32 none (extractStridedSlice S32x4096 ![o8, 0] P h8) hr (ix2 i q))
            (Scalar.select (IntOp.cmpi .eq (d (ix2 i q)) 2#32)
              (extractStridedSlice S32x4096 ![o7, 0] P h7 (ix2 i q)) (extractStridedSlice S32x4096 ![o9, 0] P h9 (ix2 i q))))
          - extractStridedSlice S32x4096 ![o8, 0] P h8 (ix2 i q)) tempWord)))
      (Scalar.select (IntOp.cmpi .eq (d (ix2 i q)) 0#32)
        (dynamicRotate 1 1#32 none (extractStridedSlice S32x4096 ![o8, 0] win h8) hr (ix2 i q))
        (Scalar.select (IntOp.cmpi .eq (d (ix2 i q)) 1#32)
          (dynamicRotate 1 4095#32 none (extractStridedSlice S32x4096 ![o8, 0] win h8) hr (ix2 i q))
          (Scalar.select (IntOp.cmpi .eq (d (ix2 i q)) 2#32)
            (extractStridedSlice S32x4096 ![o7, 0] win h7 (ix2 i q)) (extractStridedSlice S32x4096 ![o9, 0] win h9 (ix2 i q)))))
      (extractStridedSlice S32x4096 ![o8, 0] win h8 (ix2 i q)) = _
  rw [rollCol1_at (extractStridedSlice S32x4096 ![o8, 0] P h8), rollCol4095_at (extractStridedSlice S32x4096 ![o8, 0] P h8),
    rollCol1_at (extractStridedSlice S32x4096 ![o8, 0] win h8), rollCol4095_at (extractStridedSlice S32x4096 ![o8, 0] win h8)]
  simp only [stripRows_at o8 h8 s e8, stripAbove_at o7 o8 h7 s e8 e7, stripBelow_at o8 o9 h9 s e8 e9, hP]
  rw [pick_of_selects, pick_of_selects, select_ole]
  rfl

end Strip

end Payload

open Payload

variable (win : Vec Ideal S144x4096 .f32)

/-! ## The eight stored pieces -/

/-- The profit field on the window, as the body forms it. -/
abbrev profOf : FVec Ideal S144x4096 .f32 := k0_pay9 (k0_pay6 win) (k0_pay7 win) (k0_pay8 win)

theorem profit_strip0 (i : Fin 32) (q : Fin 4096) :
    k0_pay13 (k0_pay10 (k0_pay6 win) (k0_pay7 win) (k0_pay8 win)) (ix3 (0 : Fin 1) i q) = profitW win (stripRow 0 i) q := by
  unfold k0_pay13 k0_pay10
  exact strip_profit win _ (profit_at win) 8 _ _ 0 rfl i q
theorem profit_strip1 (i : Fin 32) (q : Fin 4096) :
    k0_pay19 (k0_pay14 (profOf win)) (ix3 (0 : Fin 1) i q) = profitW win (stripRow 1 i) q := by
  unfold k0_pay19 k0_pay14
  exact strip_profit win _ (profit_at win) 40 _ _ 1 rfl i q
theorem profit_strip2 (i : Fin 32) (q : Fin 4096) :
    k0_pay27 (k0_pay20 (profOf win)) (ix3 (0 : Fin 1) i q) = profitW win (stripRow 2 i) q := by
  unfold k0_pay27 k0_pay20
  exact strip_profit win _ (profit_at win) 72 _ _ 2 rfl i q
theorem profit_strip3 (i : Fin 32) (q : Fin 4096) :
    k0_pay2 (k0_pay28 (profOf win)) (ix3 (0 : Fin 1) i q) = profitW win (stripRow 3 i) q := by
  unfold k0_pay2 k0_pay28
  exact strip_profit win _ (profit_at win) 104 _ _ 3 rfl i q

theorem newType_strip0 (d : Vec Ideal S32x4096 .i32) (pr : Vec Ideal S32x4096 .f32) (i : Fin 32) (q : Fin 4096) :
    k0_pay12 (k0_pay11 win (k0_pay6 win) (k0_pay7 win) (k0_pay8 win) d pr) (ix3 (0 : Fin 1) i q)
      = newTypeW win (d (ix2 i q)) (pr (ix2 i q)) (stripRow 0 i) q := by
  unfold k0_pay12 k0_pay11 k0_pay10
  refine (shapeCast_ab_1ab_apply _ _ 0 i q).trans ?_
  exact strip_update win _ (profit_at win) 7 8 9 _ _ _ _ 0 rfl rfl rfl d pr i q
theorem newType_strip1 (d : Vec Ideal S32x4096 .i32) (pr : Vec Ideal S32x4096 .f32) (i : Fin 32) (q : Fin 4096) :
    k0_pay18 (k0_pay15 win) pr (k0_pay16 win d) (k0_pay17 (profOf win) d) (ix3 (0 : Fin 1) i q)
      = newTypeW win (d (ix2 i q)) (pr (ix2 i q)) (stripRow 1 i) q := by
  unfold k0_pay18 k0_pay17 k0_pay16 k0_pay15 k0_pay14
  refine (shapeCast_ab_1ab_apply _ _ 0 i q).trans ?_
  exact strip_update win _ (profit_at win) 39 40 41 _ _ _ _ 1 rfl rfl rfl d pr i q
theorem newType_strip2 (d : Vec Ideal S32x4096 .i32) (pr : Vec Ideal S32x4096 .f32) (i : Fin 32) (q : Fin 4096) :
    k0_pay26 (k0_pay20 (profOf win)) (k0_pay21 win) (k0_pay22 win) pr (k0_pay23 (profOf win) d) (k0_pay24 d) (k0_pay25 win d) (ix3 (0 : Fin 1) i q)
      = newTypeW win (d (ix2 i q)) (pr (ix2 i q)) (stripRow 2 i) q := by
  unfold k0_pay26 k0_pay25 k0_pay24 k0_pay23 k0_pay22 k0_pay21 k0_pay20
  refine (shapeCast_ab_1ab_apply _ _ 0 i q).trans ?_
  exact strip_update win _ (profit_at win) 71 72 73 _ _ _ _ 2 rfl rfl rfl d pr i q
theorem newType_strip3 (d : Vec Ideal S32x4096 .i32) (pr : Vec Ideal S32x4096 .f32) (i : Fin 32) (q : Fin 4096) :
    k0_pay1 (k0_pay28 (profOf win)) (k0_pay29 win) (k0_pay30 win) (k0_pay31 win) (k0_pay32 win) (k0_pay33 win) d pr
        (k0_pay34 (profOf win) d) (k0_pay35 d) (k0_pay36 d) (ix3 (0 : Fin 1) i q)
      = newTypeW win (d (ix2 i q)) (pr (ix2 i q)) (stripRow 3 i) q := by
  unfold k0_pay1 k0_pay36 k0_pay35 k0_pay34 k0_pay33 k0_pay32 k0_pay31 k0_pay30 k0_pay29 k0_pay28
  refine (shapeCast_ab_1ab_apply _ _ 0 i q).trans ?_
  exact strip_update win _ (profit_at win) 103 104 105 _ _ _ _ 3 rfl rfl rfl d pr i q

end Cert.KernelIdeal.Hand

end
-- ==== Proof.KernelIdeal.Blocks.lean ====
/-
  What the body is handed at a grid point, read off the argument arrays: the core tile, the two halo blocks (their block
  index wraps around the lattice's ring of 512 eight-row blocks), the direction words' and the probabilities' tiles; and
  the 144-row window the body stitches from the first three, which holds lattice rows `rowOf t r`.
-/
import proofs.«410334_j7902739824972_3_alg».proof.Proof.KernelIdeal.Base
import proofs.«410334_j7902739824972_3_alg».proof.Proof.Window
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Lattice Cert.Window

variable {F : FTy → Type} [FloatOps F]

variable (m : (ℓ : Loc nD τ sig) → Buf (Elt F) ℓ)

/-- A grid point as a tile number. -/
def tile (t : Fin cfg0.N) : Fin 32 := ⟨t.val, lt_of_lt_of_eq t.isLt N_0⟩

namespace Blocks

/-! ## The index maps, in closed form over the grid's 32 points

A block's row index is read off its window's printed index map. The core tile and the two 128-row tiles of the
direction words and the probabilities sit at block row `t`; the halo above is the eight-row block before the tile's
first, `16 t - 1` around the ring of 512 such blocks; the halo below is the eight-row block after the tile's last,
`16 t + 16` around the same ring. Every block spans all columns: its column index is 0. -/

theorem idx_core : ∀ t : Fin cfg0.N, win0_0.index t (0 : Fin 2) = t.val ∧ win0_0.index t (1 : Fin 2) = 0 :=
  (by decide +kernel : ∀ t : Fin grid0.N, _)

theorem idx_top : ∀ t : Fin cfg0.N,
    win0_1.index t (0 : Fin 2) = (16 * t.val + 511) % 512 ∧ win0_1.index t (1 : Fin 2) = 0 :=
  (by decide +kernel : ∀ t : Fin grid0.N, _)

theorem idx_bot : ∀ t : Fin cfg0.N,
    win0_2.index t (0 : Fin 2) = (16 * t.val + 16) % 512 ∧ win0_2.index t (1 : Fin 2) = 0 :=
  (by decide +kernel : ∀ t : Fin grid0.N, _)

theorem idx_dirs : ∀ t : Fin cfg0.N, win0_3.index t (0 : Fin 2) = t.val ∧ win0_3.index t (1 : Fin 2) = 0 :=
  (by decide +kernel : ∀ t : Fin grid0.N, _)

theorem idx_probs : ∀ t : Fin cfg0.N, win0_4.index t (0 : Fin 2) = t.val ∧ win0_4.index t (1 : Fin 2) = 0 :=
  (by decide +kernel : ∀ t : Fin grid0.N, _)

/-! ## From a block to its array

A block's element at `(a, q)` is the array's at block index times block size plus the coordinate inside the block, axis
by axis. -/

/-- The core tile's row `a` is lattice row `128 t + a`. -/
theorem core_at (c : Dev nD) (t : Fin cfg0.N) (a : Fin 128) (q : Fin 4096) :
    iblk m c 0 t (ix2 a q) = (V m c main_arg0 : Vec F S4096x4096 .f32) (ix2 (outRow (tile t) a) q) := by
  obtain ⟨e0, e1⟩ := idx_core t
  show V m c main_arg0 (((cfg0.win 0).blk t).view.emb (ix2 a q)) = V m c main_arg0 (ix2 (outRow (tile t) a) q)
  refine congrArg _ ?_
  funext d; apply Fin.ext
  match d with
  | ⟨0, _⟩ => show win0_0.index t (0 : Fin 2) * 128 + 1 * a.val = 128 * t.val + a.val; omega
  | ⟨1, _⟩ => show win0_0.index t (1 : Fin 2) * 4096 + 1 * q.val = q.val; omega

/-- The halo above: its row `h` is lattice row `128 t - 8 + h` around the ring, the window's row `h`. For `t = 0` the
    block index is 511 and the rows are the lattice's last eight; otherwise it is `16 t - 1`. -/
theorem top_at (c : Dev nD) (t : Fin cfg0.N) (h : Fin 8) (q : Fin 4096) :
    iblk m c 1 t (ix2 h q)
      = (V m c main_arg0 : Vec F S4096x4096 .f32) (ix2 (rowOf (tile t) ⟨h.val, by omega⟩) q) := by
  obtain ⟨e0, e1⟩ := idx_top t
  have htl : t.val < 32 := lt_of_lt_of_eq t.isLt N_0
  have hh : h.val < 8 := h.isLt
  show V m c main_arg0 (((cfg0.win 1).blk t).view.emb (ix2 h q))
    = V m c main_arg0 (ix2 (rowOf (tile t) ⟨h.val, _⟩) q)
  refine congrArg _ ?_
  funext d; apply Fin.ext
  match d with
  | ⟨0, _⟩ => show win0_1.index t (0 : Fin 2) * 8 + 1 * h.val = (128 * t.val + h.val + 4088) % 4096; omega
  | ⟨1, _⟩ => show win0_1.index t (1 : Fin 2) * 4096 + 1 * q.val = q.val; omega

/-- The halo below: its row `h` is lattice row `128 t + 128 + h` around the ring, the window's row `136 + h`. For
    `t = 31` the block index wraps to 0 and the rows are the lattice's first eight. -/
theorem bot_at (c : Dev nD) (t : Fin cfg0.N) (h : Fin 8) (q : Fin 4096) :
    iblk m c 2 t (ix2 h q)
      = (V m c main_arg0 : Vec F S4096x4096 .f32) (ix2 (rowOf (tile t) ⟨136 + h.val, by omega⟩) q) := by
  obtain ⟨e0, e1⟩ := idx_bot t
  have htl : t.val < 32 := lt_of_lt_of_eq t.isLt N_0
  have hh : h.val < 8 := h.isLt
  show V m c main_arg0 (((cfg0.win 2).blk t).view.emb (ix2 h q))
    = V m c main_arg0 (ix2 (rowOf (tile t) ⟨136 + h.val, _⟩) q)
  refine congrArg _ ?_
  funext d; apply Fin.ext
  match d with
  | ⟨0, _⟩ =>
    show win0_2.index t (0 : Fin 2) * 8 + 1 * h.val = (128 * t.val + (136 + h.val) + 4088) % 4096; omega
  | ⟨1, _⟩ => show win0_2.index t (1 : Fin 2) * 4096 + 1 * q.val = q.val; omega

/-- The direction words' tile: row `a` is the array's row `128 t + a`. -/
theorem dirs_blk_at (c : Dev nD) (t : Fin cfg0.N) (a : Fin 128) (q : Fin 4096) :
    iblk m c 3 t (ix2 a q) = (V m c main_arg1 : Vec F S4096x4096 .i32) (ix2 (outRow (tile t) a) q) := by
  obtain ⟨e0, e1⟩ := idx_dirs t
  show V m c main_arg1 (((cfg0.win 3).blk t).view.emb (ix2 a q)) = V m c main_arg1 (ix2 (outRow (tile t) a) q)
  refine congrArg _ ?_
  funext d; apply Fin.ext
  match d with
  | ⟨0, _⟩ => show win0_3.index t (0 : Fin 2) * 128 + 1 * a.val = 128 * t.val + a.val; omega
  | ⟨1, _⟩ => show win0_3.index t (1 : Fin 2) * 4096 + 1 * q.val = q.val; omega

/-- The probabilities' tile: row `a` is the array's row `128 t + a`. -/
theorem probs_blk_at (c : Dev nD) (t : Fin cfg0.N) (a : Fin 128) (q : Fin 4096) :
    iblk m c 4 t (ix2 a q) = (V m c main_arg2 : Vec F S4096x4096 .f32) (ix2 (outRow (tile t) a) q) := by
  obtain ⟨e0, e1⟩ := idx_probs t
  show V m c main_arg2 (((cfg0.win 4).blk t).view.emb (ix2 a q)) = V m c main_arg2 (ix2 (outRow (tile t) a) q)
  refine congrArg _ ?_
  funext d; apply Fin.ext
  match d with
  | ⟨0, _⟩ => show win0_4.index t (0 : Fin 2) * 128 + 1 * a.val = 128 * t.val + a.val; omega
  | ⟨1, _⟩ => show win0_4.index t (1 : Fin 2) * 4096 + 1 * q.val = q.val; omega

/-! ## The stitched window

Stated over any field `X` and any three blocks that hold its rows as the halo above, the core and the halo below of
tile `t` do. The three stores land on disjoint row ranges of the window — rows 0 to 7, 8 to 135, 136 to 143 — so a
window row reads the one piece whose range holds it; each stored value is its block unchanged (a shape cast to the
same shape, of a load of the whole block). -/

theorem zeros2 : (![0, 0] : Fin 2 → Nat) = fun _ => 0 := funext fun a => by fin_cases a <;> rfl

theorem pay3_id (v : Vec F S8x4096 .f32) : k0_pay3 v = v := shapeCast_self v _
theorem pay4_id (v : Vec F S128x4096 .f32) : k0_pay4 v = v := shapeCast_self v _
theorem pay5_id (v : Vec F S8x4096 .f32) : k0_pay5 v = v := shapeCast_self v _

theorem stitched_at (X : Vec F S4096x4096 .f32) (t : Fin 32) (xc : Vec F S128x4096 .f32) (xt xb : Vec F S8x4096 .f32)
    (hc : ∀ (a : Fin 128) (q : Fin 4096), xc (ix2 a q) = X (ix2 (outRow t a) q))
    (ht : ∀ (h : Fin 8) (q : Fin 4096), xt (ix2 h q) = X (ix2 (rowOf t ⟨h.val, by omega⟩) q))
    (hb : ∀ (h : Fin 8) (q : Fin 4096), xb (ix2 h q) = X (ix2 (rowOf t ⟨136 + h.val, by omega⟩) q))
    (r : Fin 144) (q : Fin 4096) :
    (View.ld (stitched xc xt xb) rWin : Vec F S144x4096 .f32) (ix2 r q) = X (ix2 (rowOf t r) q) := by
  rw [View.ld_unit_zero (S := S144x4096) zeros2]
  unfold stitched
  rw [pay3_id, pay4_id, pay5_id, View.ld_unit_zero (S := S8x4096) zeros2, View.ld_unit_zero (S := S128x4096) zeros2,
    View.ld_unit_zero (S := S8x4096) zeros2]
  have hr : r.val < 144 := r.isLt
  have htl : t.val < 32 := t.isLt
  by_cases h1 : r.val < 8
  · -- a row of the halo above: outside the other two ranges, row `r` of the top piece
    have nb : ix2 r q ∉ (rWinBot).set := fun h => by
      have h0 : 136 ≤ r.val ∧ r.val < 136 + 8 := (Rect.mem_set_unit.mp h) 0
      omega
    have nc : ix2 r q ∉ (rWinCore).set := fun h => by
      have h0 : 8 ≤ r.val ∧ r.val < 8 + 128 := (Rect.mem_set_unit.mp h) 0
      omega
    rw [View.canon_cons_of_not_mem (Val := Elt F) (s := S144x4096) (e := .f32) ⟨rWinBot, xb⟩ _ nb,
      View.canon_cons_of_not_mem (Val := Elt F) (s := S144x4096) (e := .f32) ⟨rWinCore, xc⟩ _ nc]
    have e : ix2 r q = rWinTop.emb (ix2 (⟨r.val, h1⟩ : Fin 8) q) := by
      funext d; apply Fin.ext
      match d with
      | ⟨0, _⟩ => show r.val = 0 + 1 * r.val; omega
      | ⟨1, _⟩ => show q.val = 0 + 1 * q.val; omega
    rw [e, View.canon_cons_emb]
    exact ht ⟨r.val, h1⟩ q
  · by_cases h2 : r.val < 136
    · -- a core row: outside the bottom range, row `r - 8` of the core piece, lattice row `128 t + r - 8`
      have nb : ix2 r q ∉ (rWinBot).set := fun h => by
        have h0 : 136 ≤ r.val ∧ r.val < 136 + 8 := (Rect.mem_set_unit.mp h) 0
        omega
      rw [View.canon_cons_of_not_mem (Val := Elt F) (s := S144x4096) (e := .f32) ⟨rWinBot, xb⟩ _ nb]
      have e : ix2 r q = rWinCore.emb (ix2 (⟨r.val - 8, by omega⟩ : Fin 128) q) := by
        funext d; apply Fin.ext
        match d with
        | ⟨0, _⟩ => show r.val = 8 + 1 * (r.val - 8); omega
        | ⟨1, _⟩ => show q.val = 0 + 1 * q.val; omega
      rw [e, View.canon_cons_emb, hc]
      refine congrArg X (congrArg (fun p => ix2 p q) (Fin.ext ?_))
      show 128 * t.val + (r.val - 8) = (128 * t.val + r.val + 4088) % 4096
      omega
    · -- a row of the halo below: row `r - 136` of the piece stored last
      have e : ix2 r q = rWinBot.emb (ix2 (⟨r.val - 136, by omega⟩ : Fin 8) q) := by
        funext d; apply Fin.ext
        match d with
        | ⟨0, _⟩ => show r.val = 136 + 1 * (r.val - 136); omega
        | ⟨1, _⟩ => show q.val = 0 + 1 * q.val; omega
      rw [e, View.canon_cons_emb, hb]
      refine congrArg X (congrArg (fun p => ix2 p q) (congrArg (rowOf t) (Fin.ext ?_)))
      show 136 + (r.val - 136) = r.val
      omega

/-! ## The four 32-row strips of a 128-row tile

Stated over any array `X` and any block `xd` that holds its rows `128 t + a`: strip `s` starts at the tile's row
`32 s`, so its row `i` is the tile's row `32 s + i`. -/

section Strips

variable {e : EltTy} (X : Vec F S4096x4096 e) (t : Fin 32) (xd : Vec F S128x4096 e)
  (hd : ∀ (a : Fin 128) (q : Fin 4096), xd (ix2 a q) = X (ix2 (outRow t a) q))
include hd

theorem strip0_at (i : Fin 32) (q : Fin 4096) :
    (View.ld xd rStrip0 : Vec F S32x4096 e) (ix2 i q) = X (ix2 (outRow t (coreRow 0 i)) q) := by
  have e1 : rStrip0.idx (ix2 i q) = ix2 (coreRow 0 i) q := by
    funext d; apply Fin.ext
    match d with
    | ⟨0, _⟩ => show 0 + 1 * i.val = 32 * 0 + i.val; omega
    | ⟨1, _⟩ => show 0 + 1 * q.val = q.val; omega
  show xd (rStrip0.idx (ix2 i q)) = _
  rw [e1, hd]

theorem strip1_at (i : Fin 32) (q : Fin 4096) :
    (View.ld xd rStrip1 : Vec F S32x4096 e) (ix2 i q) = X (ix2 (outRow t (coreRow 1 i)) q) := by
  have e1 : rStrip1.idx (ix2 i q) = ix2 (coreRow 1 i) q := by
    funext d; apply Fin.ext
    match d with
    | ⟨0, _⟩ => show 32 + 1 * i.val = 32 * 1 + i.val; omega
    | ⟨1, _⟩ => show 0 + 1 * q.val = q.val; omega
  show xd (rStrip1.idx (ix2 i q)) = _
  rw [e1, hd]

theorem strip2_at (i : Fin 32) (q : Fin 4096) :
    (View.ld xd rStrip2 : Vec F S32x4096 e) (ix2 i q) = X (ix2 (outRow t (coreRow 2 i)) q) := by
  have e1 : rStrip2.idx (ix2 i q) = ix2 (coreRow 2 i) q := by
    funext d; apply Fin.ext
    match d with
    | ⟨0, _⟩ => show 64 + 1 * i.val = 32 * 2 + i.val; omega
    | ⟨1, _⟩ => show 0 + 1 * q.val = q.val; omega
  show xd (rStrip2.idx (ix2 i q)) = _
  rw [e1, hd]

theorem strip3_at (i : Fin 32) (q : Fin 4096) :
    (View.ld xd rStrip3 : Vec F S32x4096 e) (ix2 i q) = X (ix2 (outRow t (coreRow 3 i)) q) := by
  have e1 : rStrip3.idx (ix2 i q) = ix2 (coreRow 3 i) q := by
    funext d; apply Fin.ext
    match d with
    | ⟨0, _⟩ => show 96 + 1 * i.val = 32 * 3 + i.val; omega
    | ⟨1, _⟩ => show 0 + 1 * q.val = q.val; omega
  show xd (rStrip3.idx (ix2 i q)) = _
  rw [e1, hd]

end Strips

end Blocks

/-- The stitched window, read back whole, holds the type field's rows `rowOf t r`. -/
theorem window_at (c : Dev nD) (t : Fin cfg0.N) (r : Fin 144) (q : Fin 4096) :
    (View.ld (stitched (iblk m c 0 t) (iblk m c 1 t) (iblk m c 2 t)) rWin : Vec F S144x4096 .f32) (ix2 r q)
      = (V m c main_arg0 : Vec F S4096x4096 .f32) (ix2 (rowOf (tile t) r) q) :=
  Blocks.stitched_at (V m c main_arg0) (tile t) (iblk m c 0 t) (iblk m c 1 t) (iblk m c 2 t)
    (Blocks.core_at m c t) (Blocks.top_at m c t) (Blocks.bot_at m c t) r q

/-- Strip `s` of the direction words' tile holds the array's rows the tile writes. -/
theorem dirs_at (c : Dev nD) (t : Fin cfg0.N) (s : Fin 4) (i : Fin 32) (q : Fin 4096) :
    (match s with
      | 0 => (View.ld (iblk m c 3 t) rStrip0 : Vec F S32x4096 .i32)
      | 1 => (View.ld (iblk m c 3 t) rStrip1 : Vec F S32x4096 .i32)
      | 2 => (View.ld (iblk m c 3 t) rStrip2 : Vec F S32x4096 .i32)
      | 3 => (View.ld (iblk m c 3 t) rStrip3 : Vec F S32x4096 .i32)) (ix2 i q)
      = (V m c main_arg1 : Vec F S4096x4096 .i32) (ix2 (outRow (tile t) (coreRow s i)) q) := by
  match s with
  | ⟨0, _⟩ => exact Blocks.strip0_at (V m c main_arg1) (tile t) (iblk m c 3 t) (Blocks.dirs_blk_at m c t) i q
  | ⟨1, _⟩ => exact Blocks.strip1_at (V m c main_arg1) (tile t) (iblk m c 3 t) (Blocks.dirs_blk_at m c t) i q
  | ⟨2, _⟩ => exact Blocks.strip2_at (V m c main_arg1) (tile t) (iblk m c 3 t) (Blocks.dirs_blk_at m c t) i q
  | ⟨3, _⟩ => exact Blocks.strip3_at (V m c main_arg1) (tile t) (iblk m c 3 t) (Blocks.dirs_blk_at m c t) i q

/-- The same of the probabilities' tile. -/
theorem probs_at (c : Dev nD) (t : Fin cfg0.N) (s : Fin 4) (i : Fin 32) (q : Fin 4096) :
    (match s with
      | 0 => (View.ld (iblk m c 4 t) rStrip0 : Vec F S32x4096 .f32)
      | 1 => (View.ld (iblk m c 4 t) rStrip1 : Vec F S32x4096 .f32)
      | 2 => (View.ld (iblk m c 4 t) rStrip2 : Vec F S32x4096 .f32)
      | 3 => (View.ld (iblk m c 4 t) rStrip3 : Vec F S32x4096 .f32)) (ix2 i q)
      = (V m c main_arg2 : Vec F S4096x4096 .f32) (ix2 (outRow (tile t) (coreRow s i)) q) := by
  match s with
  | ⟨0, _⟩ => exact Blocks.strip0_at (V m c main_arg2) (tile t) (iblk m c 4 t) (Blocks.probs_blk_at m c t) i q
  | ⟨1, _⟩ => exact Blocks.strip1_at (V m c main_arg2) (tile t) (iblk m c 4 t) (Blocks.probs_blk_at m c t) i q
  | ⟨2, _⟩ => exact Blocks.strip2_at (V m c main_arg2) (tile t) (iblk m c 4 t) (Blocks.probs_blk_at m c t) i q
  | ⟨3, _⟩ => exact Blocks.strip3_at (V m c main_arg2) (tile t) (iblk m c 4 t) (Blocks.probs_blk_at m c t) i q

end Cert.KernelIdeal.Hand

end
-- ==== Proof.WindowLattice.lean ====
/-
  A tile's window against the lattice: where the window holds the lattice rows it was stitched from, the window's
  profit is the lattice's on every row at least two inside the window, and the update of the tile's own rows is the
  lattice's.
-/
import proofs.«410334_j7902739824972_3_alg».proof.Proof.Window

noncomputable section

namespace Cert.Window

open Idealize.ShloMosaic Idealize.ShloMosaic.ValueIdx Cert.Lattice

/-! ### Rows: one row inside the window the wrapped neighbours are the lattice's -/

/-- The row before, read as a number, where the wrap is not met, -/
theorem rowPrv_val (r : Fin 144) (h1 : 1 ≤ r.val) : (rowPrv r).val = r.val - 1 := by
  simp only [rowPrv]
  omega

/-- and the row after. -/
theorem rowNxt_val (r : Fin 144) (h142 : r.val ≤ 142) : (rowNxt r).val = r.val + 1 := by
  simp only [rowNxt]
  omega

/-- The window's row before holds the lattice's row before, -/
theorem rowOf_rowPrv (t : Fin 32) (r : Fin 144) (h1 : 1 ≤ r.val) : rowOf t (rowPrv r) = prv (rowOf t r) := by
  apply Fin.ext
  simp only [rowOf, rowPrv, prv]
  omega

/-- and its row after the lattice's row after. -/
theorem rowOf_rowNxt (t : Fin 32) (r : Fin 144) (h142 : r.val ≤ 142) : rowOf t (rowNxt r) = nxt (rowOf t r) := by
  apply Fin.ext
  simp only [rowOf, rowNxt, nxt]
  omega

/-- The lattice row of a strip's window row is the row the tile writes there. -/
theorem rowOf_stripRow (t : Fin 32) (s : Fin 4) (i : Fin 32) : rowOf t (stripRow s i) = outRow t (coreRow s i) := by
  apply Fin.ext
  simp only [rowOf, stripRow, outRow, coreRow]
  omega

/-! ### Fields: cooperators on every row, shares one row inside, profits two rows inside -/

section

variable (X : SLat.Idx → EReal) (t : Fin 32) (W : SWin.Idx → EReal)
  (hW : ∀ (r : Fin 144) (q : Fin 4096), W (ix2 r q) = X (ix2 (rowOf t r) q))

include hW

/-- The window's cooperators are the lattice's, on every row. -/
theorem coopW_eq (r : Fin 144) (q : Fin 4096) : coopW W r q = coop X (rowOf t r) q := by
  unfold coopW coop
  rw [hW r q]

/-- One row inside the window the five-point sum of the cooperators is the lattice's: each of the five terms is. -/
theorem plus5W_coopW_eq (r : Fin 144) (h1 : 1 ≤ r.val) (h142 : r.val ≤ 142) (q : Fin 4096) :
    plus5W (coopW W) r q = plus5 (coop X) (rowOf t r) q := by
  unfold plus5W plus5
  rw [coopW_eq X t W hW r q, coopW_eq X t W hW (rowPrv r) q, coopW_eq X t W hW (rowNxt r) q,
    coopW_eq X t W hW r (prv q), coopW_eq X t W hW r (nxt q), rowOf_rowPrv t r h1, rowOf_rowNxt t r h142]

/-- So is the share. -/
theorem shareW_eq (r : Fin 144) (h1 : 1 ≤ r.val) (h142 : r.val ≤ 142) (q : Fin 4096) :
    shareW W r q = shareK X (rowOf t r) q := by
  unfold shareW shareK
  rw [plus5W_coopW_eq X t W hW r h1 h142 q]

/-- Two rows inside the window the five-point sum of the shares is the lattice's: the row before and the row after
    are still one row inside. -/
theorem plus5W_shareW_eq (r : Fin 144) (h2 : 2 ≤ r.val) (h141 : r.val ≤ 141) (q : Fin 4096) :
    plus5W (shareW W) r q = plus5 (shareK X) (rowOf t r) q := by
  have hp : (rowPrv r).val = r.val - 1 := rowPrv_val r (by omega)
  have hn : (rowNxt r).val = r.val + 1 := rowNxt_val r (by omega)
  unfold plus5W plus5
  rw [shareW_eq X t W hW r (by omega) (by omega) q,
    shareW_eq X t W hW (rowPrv r) (by omega) (by omega) q,
    shareW_eq X t W hW (rowNxt r) (by omega) (by omega) q,
    shareW_eq X t W hW r (by omega) (by omega) (prv q),
    shareW_eq X t W hW r (by omega) (by omega) (nxt q),
    rowOf_rowPrv t r (by omega), rowOf_rowNxt t r (by omega)]

end

/-- Two rows inside the window the profit is the lattice's. -/
theorem profitW_eq (X : SLat.Idx → EReal) (t : Fin 32) (W : SWin.Idx → EReal)
    (hW : ∀ (r : Fin 144) (q : Fin 4096), W (ix2 r q) = X (ix2 (rowOf t r) q))
    (r : Fin 144) (h2 : 2 ≤ r.val) (h141 : r.val ≤ 141) (q : Fin 4096) :
    profitW W r q = profitK X (rowOf t r) q := by
  unfold profitW profitK
  rw [plus5W_shareW_eq X t W hW r h2 h141 q, coopW_eq X t W hW r q]

/-- Three rows inside the window the update is the lattice's: the site, its row before and its row after are all two
    rows inside, so the five profits are the lattice's, and the five reads are the lattice's reads. -/
theorem newTypeW_row (X : SLat.Idx → EReal) (D : SLat.Idx → BitVec 32) (P : SLat.Idx → EReal) (t : Fin 32) (W : SWin.Idx → EReal)
    (hW : ∀ (r : Fin 144) (q : Fin 4096), W (ix2 r q) = X (ix2 (rowOf t r) q))
    (r : Fin 144) (h3 : 3 ≤ r.val) (h140 : r.val ≤ 140) (q : Fin 4096) :
    newTypeW W (D (ix2 (rowOf t r) q)) (P (ix2 (rowOf t r) q)) r q = newTypeK X D P (rowOf t r) q := by
  have hp : (rowPrv r).val = r.val - 1 := rowPrv_val r (by omega)
  have hn : (rowNxt r).val = r.val + 1 := rowNxt_val r (by omega)
  unfold newTypeW newTypeK neighbour
  rw [profitW_eq X t W hW r (by omega) (by omega) q,
    profitW_eq X t W hW r (by omega) (by omega) (prv q),
    profitW_eq X t W hW r (by omega) (by omega) (nxt q),
    profitW_eq X t W hW (rowPrv r) (by omega) (by omega) q,
    profitW_eq X t W hW (rowNxt r) (by omega) (by omega) q,
    hW r q, hW r (prv q), hW r (nxt q), hW (rowPrv r) q, hW (rowNxt r) q,
    rowOf_rowPrv t r (by omega), rowOf_rowNxt t r (by omega)]

/-- On the tile's own rows the update is the lattice's. -/
theorem newTypeW_eq (X : SLat.Idx → EReal) (D : SLat.Idx → BitVec 32) (P : SLat.Idx → EReal) (t : Fin 32) (W : SWin.Idx → EReal)
    (hW : ∀ (r : Fin 144) (q : Fin 4096), W (ix2 r q) = X (ix2 (rowOf t r) q))
    (s : Fin 4) (i : Fin 32) (q : Fin 4096) :
    newTypeW W (D (ix2 (outRow t (coreRow s i)) q)) (P (ix2 (outRow t (coreRow s i)) q)) (stripRow s i) q
      = newTypeK X D P (outRow t (coreRow s i)) q := by
  have h8 : 8 ≤ (stripRow s i).val := by simp only [stripRow]; omega
  have h135 : (stripRow s i).val ≤ 135 := by simp only [stripRow]; omega
  rw [← rowOf_stripRow t s i]
  exact newTypeW_row X D P t W hW (stripRow s i) (by omega) (by omega) q

end Cert.Window

end
-- ==== Proof.KernelIdeal.Value.lean ====
/-
  The idealized kernel's value: after the run its result array is the lattice's result in the kernel's form, of the
  argument arrays.

  One grid point's body leaves in the result's staging buffer eight pieces, plane by strip of 32 rows. Each piece is
  the window's profit (plane 1) or the window's update (plane 0) on its strip's rows; the stitched window holds the
  lattice rows of the point's tile, and its strips sit at least eight rows inside it, so each piece is the lattice's
  result on the rows the tile writes. The eight rectangles tile the block, so the block is ONE function of its index:
  plane `k`, core row `a`, column `q` holds the lattice's result at plane `k`, row `128 t + a`, column `q`.

  Point `t` writes that block back at rows `128 t … 128 t + 127` of both planes, which is the block of the lattice's
  result under it; the 32 points' blocks cover the array (row `p` lies in the block of point `p / 128`), so the array
  ends holding the lattice's result.
-/
import proofs.«410334_j7902739824972_3_alg».proof.Proof.KernelIdeal.Launch
import proofs.«410334_j7902739824972_3_alg».proof.Proof.KernelIdeal.Payload
import proofs.«410334_j7902739824972_3_alg».proof.Proof.KernelIdeal.Blocks
import proofs.«410334_j7902739824972_3_alg».proof.Proof.WindowLattice

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Lattice Cert.Window

/-! ## One tile's result block, entry by entry -/

section Block

variable (X : SLat.Idx → EReal) (D : SLat.Idx → BitVec 32) (P : SLat.Idx → EReal) (tl : Fin 32)

/-- Plane 0 of the result holds the new types, -/
theorem outK_zero (p q : Fin 4096) : outK X D P 0 p q = newTypeK X D P p q := if_pos rfl
/-- plane 1 the profits. -/
theorem outK_one (p q : Fin 4096) : outK X D P 1 p q = profitK X p q := if_neg (by decide)

/-- What tile `tl`'s result block holds: plane `k`, core row `a`, column `q` is the lattice's result at the row the
    tile writes there. -/
def blockG : S2x128x4096.Idx → EReal := fun j =>
  outK X D P ⟨(j 0).val, (j 0).isLt⟩ (outRow tl ⟨(j 1).val, (j 1).isLt⟩) ⟨(j 2).val, (j 2).isLt⟩

theorem blockG_ix3 (k : Fin 2) (a : Fin 128) (q : Fin 4096) :
    blockG X D P tl (ix3 k a q) = outK X D P k (outRow tl a) q := rfl

end Block

/-! ### Where each of the eight pieces sits in the block: plane `k`, the core rows of strip `s` -/

theorem emb_out0_0 (i : Fin 32) (q : Fin 4096) : rOut0_0.emb (ix3 (0 : Fin 1) i q) = ix3 (0 : Fin 2) (coreRow 0 i) q := by
  funext a; apply Fin.ext
  match a with
  | ⟨0, _⟩ => rfl
  | ⟨1, _⟩ => show 0 + 1 * i.val = 32 * 0 + i.val; omega
  | ⟨2, _⟩ => show 0 + 1 * q.val = q.val; omega
theorem emb_out1_0 (i : Fin 32) (q : Fin 4096) : rOut1_0.emb (ix3 (0 : Fin 1) i q) = ix3 (1 : Fin 2) (coreRow 0 i) q := by
  funext a; apply Fin.ext
  match a with
  | ⟨0, _⟩ => rfl
  | ⟨1, _⟩ => show 0 + 1 * i.val = 32 * 0 + i.val; omega
  | ⟨2, _⟩ => show 0 + 1 * q.val = q.val; omega
theorem emb_out0_1 (i : Fin 32) (q : Fin 4096) : rOut0_1.emb (ix3 (0 : Fin 1) i q) = ix3 (0 : Fin 2) (coreRow 1 i) q := by
  funext a; apply Fin.ext
  match a with
  | ⟨0, _⟩ => rfl
  | ⟨1, _⟩ => show 32 + 1 * i.val = 32 * 1 + i.val; omega
  | ⟨2, _⟩ => show 0 + 1 * q.val = q.val; omega
theorem emb_out1_1 (i : Fin 32) (q : Fin 4096) : rOut1_1.emb (ix3 (0 : Fin 1) i q) = ix3 (1 : Fin 2) (coreRow 1 i) q := by
  funext a; apply Fin.ext
  match a with
  | ⟨0, _⟩ => rfl
  | ⟨1, _⟩ => show 32 + 1 * i.val = 32 * 1 + i.val; omega
  | ⟨2, _⟩ => show 0 + 1 * q.val = q.val; omega
theorem emb_out0_2 (i : Fin 32) (q : Fin 4096) : rOut0_2.emb (ix3 (0 : Fin 1) i q) = ix3 (0 : Fin 2) (coreRow 2 i) q := by
  funext a; apply Fin.ext
  match a with
  | ⟨0, _⟩ => rfl
  | ⟨1, _⟩ => show 64 + 1 * i.val = 32 * 2 + i.val; omega
  | ⟨2, _⟩ => show 0 + 1 * q.val = q.val; omega
theorem emb_out1_2 (i : Fin 32) (q : Fin 4096) : rOut1_2.emb (ix3 (0 : Fin 1) i q) = ix3 (1 : Fin 2) (coreRow 2 i) q := by
  funext a; apply Fin.ext
  match a with
  | ⟨0, _⟩ => rfl
  | ⟨1, _⟩ => show 64 + 1 * i.val = 32 * 2 + i.val; omega
  | ⟨2, _⟩ => show 0 + 1 * q.val = q.val; omega
theorem emb_out0_3 (i : Fin 32) (q : Fin 4096) : rOut0_3.emb (ix3 (0 : Fin 1) i q) = ix3 (0 : Fin 2) (coreRow 3 i) q := by
  funext a; apply Fin.ext
  match a with
  | ⟨0, _⟩ => rfl
  | ⟨1, _⟩ => show 96 + 1 * i.val = 32 * 3 + i.val; omega
  | ⟨2, _⟩ => show 0 + 1 * q.val = q.val; omega
theorem emb_out1_3 (i : Fin 32) (q : Fin 4096) : rOut1_3.emb (ix3 (0 : Fin 1) i q) = ix3 (1 : Fin 2) (coreRow 3 i) q := by
  funext a; apply Fin.ext
  match a with
  | ⟨0, _⟩ => rfl
  | ⟨1, _⟩ => show 96 + 1 * i.val = 32 * 3 + i.val; omega
  | ⟨2, _⟩ => show 0 + 1 * q.val = q.val; omega

/-- A strip's window rows are at least eight rows inside the window. -/
theorem stripRow_inside (s : Fin 4) (i : Fin 32) : 2 ≤ (stripRow s i).val ∧ (stripRow s i).val ≤ 141 := by
  have hs : s.val < 4 := s.isLt
  have hi : i.val < 32 := i.isLt
  simp only [stripRow]
  omega

/-! ### The eight stores as one function of the block's index -/

section Pieces

variable (X : SLat.Idx → EReal) (D : SLat.Idx → BitVec 32) (P : SLat.Idx → EReal) (tl : Fin 32)
variable (win : Vec Ideal S144x4096 .f32) (d0 d1 d2 d3 : Vec Ideal S32x4096 .i32) (p0 p1 p2 p3 : Vec Ideal S32x4096 .f32)

/-- The result block's eight pieces, as the body stores them (last first). -/
abbrev outPieces : List (View.Piece (Elt Ideal) S2x128x4096 .f32) := [
    ⟨rOut1_3, k0_pay2 (k0_pay28 (profOf win))⟩,
    ⟨rOut0_3, k0_pay1 (k0_pay28 (profOf win)) (k0_pay29 win) (k0_pay30 win) (k0_pay31 win) (k0_pay32 win) (k0_pay33 win) d3 p3
        (k0_pay34 (profOf win) d3) (k0_pay35 d3) (k0_pay36 d3)⟩,
    ⟨rOut1_2, k0_pay27 (k0_pay20 (profOf win))⟩,
    ⟨rOut0_2, k0_pay26 (k0_pay20 (profOf win)) (k0_pay21 win) (k0_pay22 win) p2 (k0_pay23 (profOf win) d2) (k0_pay24 d2) (k0_pay25 win d2)⟩,
    ⟨rOut1_1, k0_pay19 (k0_pay14 (profOf win))⟩,
    ⟨rOut0_1, k0_pay18 (k0_pay15 win) p1 (k0_pay16 win d1) (k0_pay17 (profOf win) d1)⟩,
    ⟨rOut1_0, k0_pay13 (k0_pay10 (k0_pay6 win) (k0_pay7 win) (k0_pay8 win))⟩,
    ⟨rOut0_0, k0_pay12 (k0_pay11 win (k0_pay6 win) (k0_pay7 win) (k0_pay8 win) d0 p0)⟩]

/-- Where the window holds the lattice rows of tile `tl` and the strips the direction words and probabilities of the
    rows the tile writes, the eight pieces read back as the tile's block of the lattice's result: each piece is that
    block on its rectangle (a profit strip by the window's profit two rows inside, an update strip by the window's
    update on the tile's own rows), and the eight rectangles tile the block. -/
theorem pieces_eq
    (hW : ∀ (r : Fin 144) (q : Fin 4096), win (ix2 r q) = X (ix2 (rowOf tl r) q))
    (hd0 : ∀ (i : Fin 32) (q : Fin 4096), d0 (ix2 i q) = D (ix2 (outRow tl (coreRow 0 i)) q))
    (hd1 : ∀ (i : Fin 32) (q : Fin 4096), d1 (ix2 i q) = D (ix2 (outRow tl (coreRow 1 i)) q))
    (hd2 : ∀ (i : Fin 32) (q : Fin 4096), d2 (ix2 i q) = D (ix2 (outRow tl (coreRow 2 i)) q))
    (hd3 : ∀ (i : Fin 32) (q : Fin 4096), d3 (ix2 i q) = D (ix2 (outRow tl (coreRow 3 i)) q))
    (hp0 : ∀ (i : Fin 32) (q : Fin 4096), p0 (ix2 i q) = P (ix2 (outRow tl (coreRow 0 i)) q))
    (hp1 : ∀ (i : Fin 32) (q : Fin 4096), p1 (ix2 i q) = P (ix2 (outRow tl (coreRow 1 i)) q))
    (hp2 : ∀ (i : Fin 32) (q : Fin 4096), p2 (ix2 i q) = P (ix2 (outRow tl (coreRow 2 i)) q))
    (hp3 : ∀ (i : Fin 32) (q : Fin 4096), p3 (ix2 i q) = P (ix2 (outRow tl (coreRow 3 i)) q))
    (j : S2x128x4096.Idx) :
    View.canon (outPieces win d0 d1 d2 d3 p0 p1 p2 p3) j = blockG X D P tl j := by
  refine View.canon_apply_of_pieces (blockG X D P tl) _ ?_ j
    (View.cover_of_tiledL (outPieces win d0 d1 d2 d3 p0 p1 p2 p3) S1x32x4096.size (by sl_kernel_rfl) j)
  intro p hp
  rcases List.mem_cons.mp hp with rfl | hp  -- the profits of strip 3
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (profit_strip3 win i q).trans ?_
    rw [profitW_eq X tl win hW (stripRow 3 i) (stripRow_inside 3 i).1 (stripRow_inside 3 i).2 q, rowOf_stripRow tl 3 i]
    exact ((congrArg (blockG X D P tl) (emb_out1_3 i q)).trans ((blockG_ix3 X D P tl 1 (coreRow 3 i) q).trans (outK_one X D P _ q))).symm
  rcases List.mem_cons.mp hp with rfl | hp  -- the new types of strip 3
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (newType_strip3 win d3 p3 i q).trans ?_
    rw [hd3 i q, hp3 i q, newTypeW_eq X D P tl win hW 3 i q]
    exact ((congrArg (blockG X D P tl) (emb_out0_3 i q)).trans ((blockG_ix3 X D P tl 0 (coreRow 3 i) q).trans (outK_zero X D P _ q))).symm
  rcases List.mem_cons.mp hp with rfl | hp  -- the profits of strip 2
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (profit_strip2 win i q).trans ?_
    rw [profitW_eq X tl win hW (stripRow 2 i) (stripRow_inside 2 i).1 (stripRow_inside 2 i).2 q, rowOf_stripRow tl 2 i]
    exact ((congrArg (blockG X D P tl) (emb_out1_2 i q)).trans ((blockG_ix3 X D P tl 1 (coreRow 2 i) q).trans (outK_one X D P _ q))).symm
  rcases List.mem_cons.mp hp with rfl | hp  -- the new types of strip 2
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (newType_strip2 win d2 p2 i q).trans ?_
    rw [hd2 i q, hp2 i q, newTypeW_eq X D P tl win hW 2 i q]
    exact ((congrArg (blockG X D P tl) (emb_out0_2 i q)).trans ((blockG_ix3 X D P tl 0 (coreRow 2 i) q).trans (outK_zero X D P _ q))).symm
  rcases List.mem_cons.mp hp with rfl | hp  -- the profits of strip 1
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (profit_strip1 win i q).trans ?_
    rw [profitW_eq X tl win hW (stripRow 1 i) (stripRow_inside 1 i).1 (stripRow_inside 1 i).2 q, rowOf_stripRow tl 1 i]
    exact ((congrArg (blockG X D P tl) (emb_out1_1 i q)).trans ((blockG_ix3 X D P tl 1 (coreRow 1 i) q).trans (outK_one X D P _ q))).symm
  rcases List.mem_cons.mp hp with rfl | hp  -- the new types of strip 1
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (newType_strip1 win d1 p1 i q).trans ?_
    rw [hd1 i q, hp1 i q, newTypeW_eq X D P tl win hW 1 i q]
    exact ((congrArg (blockG X D P tl) (emb_out0_1 i q)).trans ((blockG_ix3 X D P tl 0 (coreRow 1 i) q).trans (outK_zero X D P _ q))).symm
  rcases List.mem_cons.mp hp with rfl | hp  -- the profits of strip 0
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (profit_strip0 win i q).trans ?_
    rw [profitW_eq X tl win hW (stripRow 0 i) (stripRow_inside 0 i).1 (stripRow_inside 0 i).2 q, rowOf_stripRow tl 0 i]
    exact ((congrArg (blockG X D P tl) (emb_out1_0 i q)).trans ((blockG_ix3 X D P tl 1 (coreRow 0 i) q).trans (outK_one X D P _ q))).symm
  rcases List.mem_cons.mp hp with rfl | hp  -- the new types of strip 0
  · intro x
    obtain ⟨z, i, q, rfl⟩ : ∃ (z : Fin 1) (i : Fin 32) (q : Fin 4096), x = ix3 z i q := ⟨x 0, x 1, x 2, eq_ix3 x⟩
    obtain rfl : z = 0 := Subsingleton.elim _ _
    refine (newType_strip0 win d0 p0 i q).trans ?_
    rw [hd0 i q, hp0 i q, newTypeW_eq X D P tl win hW 0 i q]
    exact ((congrArg (blockG X D P tl) (emb_out0_0 i q)).trans ((blockG_ix3 X D P tl 0 (coreRow 0 i) q).trans (outK_zero X D P _ q))).symm
  nomatch hp

end Pieces

/-! ### The body's result block is the tile's block of the lattice's result -/

section OutBlock

variable (X : SLat.Idx → EReal) (D : SLat.Idx → BitVec 32) (P : SLat.Idx → EReal) (tl : Fin 32)
variable (xc : Vec Ideal S128x4096 .f32) (xt xb : Vec Ideal S8x4096 .f32) (xd : Vec Ideal S128x4096 .i32) (xp : Vec Ideal S128x4096 .f32)

/-- What the body leaves in the result's staging buffer, where its stitched window holds tile `tl`'s lattice rows and
    its direction and probability blocks the rows the tile writes. -/
theorem out_block
    (hW : ∀ (r : Fin 144) (q : Fin 4096), (View.ld (stitched xc xt xb) rWin : Vec Ideal S144x4096 .f32) (ix2 r q) = X (ix2 (rowOf tl r) q))
    (hd0 : ∀ (i : Fin 32) (q : Fin 4096), (View.ld xd rStrip0 : Vec Ideal S32x4096 .i32) (ix2 i q) = D (ix2 (outRow tl (coreRow 0 i)) q))
    (hd1 : ∀ (i : Fin 32) (q : Fin 4096), (View.ld xd rStrip1 : Vec Ideal S32x4096 .i32) (ix2 i q) = D (ix2 (outRow tl (coreRow 1 i)) q))
    (hd2 : ∀ (i : Fin 32) (q : Fin 4096), (View.ld xd rStrip2 : Vec Ideal S32x4096 .i32) (ix2 i q) = D (ix2 (outRow tl (coreRow 2 i)) q))
    (hd3 : ∀ (i : Fin 32) (q : Fin 4096), (View.ld xd rStrip3 : Vec Ideal S32x4096 .i32) (ix2 i q) = D (ix2 (outRow tl (coreRow 3 i)) q))
    (hp0 : ∀ (i : Fin 32) (q : Fin 4096), (View.ld xp rStrip0 : Vec Ideal S32x4096 .f32) (ix2 i q) = P (ix2 (outRow tl (coreRow 0 i)) q))
    (hp1 : ∀ (i : Fin 32) (q : Fin 4096), (View.ld xp rStrip1 : Vec Ideal S32x4096 .f32) (ix2 i q) = P (ix2 (outRow tl (coreRow 1 i)) q))
    (hp2 : ∀ (i : Fin 32) (q : Fin 4096), (View.ld xp rStrip2 : Vec Ideal S32x4096 .f32) (ix2 i q) = P (ix2 (outRow tl (coreRow 2 i)) q))
    (hp3 : ∀ (i : Fin 32) (q : Fin 4096), (View.ld xp rStrip3 : Vec Ideal S32x4096 .f32) (ix2 i q) = P (ix2 (outRow tl (coreRow 3 i)) q))
    (j : S2x128x4096.Idx) :
    out0_5 xc xt xb xd xp j = blockG X D P tl j := by
  unfold out0_5
  exact pieces_eq X D P tl _ _ _ _ _ _ _ _ _ hW hd0 hd1 hd2 hd3 hp0 hp1 hp2 hp3 j

/-- The tile's block of the lattice's result is the result array under the block: the planes and columns as they are,
    core row `a` at lattice row `128 tl + a`. -/
theorem blockG_eq_kernelOut (j : S2x128x4096.Idx) (i : SOut.Idx)
    (h0 : (i 0).val = (j 0).val) (h1 : (i 1).val = 128 * tl.val + (j 1).val) (h2 : (i 2).val = (j 2).val) :
    blockG X D P tl j = kernelOut X D P i := by
  have e0 : (⟨(j 0).val, (j 0).isLt⟩ : Fin 2) = ⟨(i 0).val, (i 0).isLt⟩ := Fin.ext h0.symm
  have e1 : outRow tl ⟨(j 1).val, (j 1).isLt⟩ = (⟨(i 1).val, (i 1).isLt⟩ : Fin 4096) := Fin.ext (by simp only [outRow]; omega)
  have e2 : (⟨(j 2).val, (j 2).isLt⟩ : Fin 4096) = ⟨(i 2).val, (i 2).isLt⟩ := Fin.ext h2.symm
  show outK X D P _ _ _ = outK X D P _ _ _
  rw [e0, e1, e2]

end OutBlock

/-! ## From blocks to the array -/

variable (m : (ℓ : Loc nD τ sig) → Buf (Elt Ideal) ℓ) (ρ : Dev nD → PrngReg)

/-- The lattice's result of the three argument arrays, as an array of the result's buffer. -/
abbrev result (c : Dev nD) : Buf (Elt Ideal) ((c : Thread nD τ).loc main_v0) :=
  kernelOut (V m c main_arg0) (V m c main_arg1) (V m c main_arg2)

/-- The result window's block at point `t`, decided over the grid: both planes, the 128 rows from `128 t`, every column. -/
theorem out_index : ∀ t : Fin cfg0.N, win0_5.index t (0 : Fin 3) = 0 ∧ win0_5.index t (1 : Fin 3) = t.val ∧ win0_5.index t (2 : Fin 3) = 0 :=
  (by decide +kernel : ∀ t : Fin grid0.N, _)

/-- WHAT POINT `t` WRITES BACK is block `t` of the lattice's result of the argument arrays. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  obtain ⟨e0, e1, e2⟩ := out_index t
  funext y
  refine (out_block (V m c main_arg0) (V m c main_arg1) (V m c main_arg2) (tile t)
    (iblk m c 0 t) (iblk m c 1 t) (iblk m c 2 t) (iblk m c 3 t) (iblk m c 4 t)
    (window_at m c t) (dirs_at m c t 0) (dirs_at m c t 1) (dirs_at m c t 2) (dirs_at m c t 3)
    (probs_at m c t 0) (probs_at m c t 1) (probs_at m c t 2) (probs_at m c t 3)
    ((cfg0.win 5).xinj (grid0.coords t) y)).trans ?_
  show blockG _ _ _ (tile t) ((cfg0.win 5).xinj (grid0.coords t) y)
    = kernelOut (V m c main_arg0) (V m c main_arg1) (V m c main_arg2) (((cfg0.win 5).blk t).view.emb y)
  refine blockG_eq_kernelOut _ _ _ (tile t) _ _ ?_ ?_ ?_
  · show win0_5.index t (0 : Fin 3) * 2 + 1 * (y 0).val = (y 0).val
    rw [e0]; omega
  · show win0_5.index t (1 : Fin 3) * 128 + 1 * (y 1).val = 128 * t.val + (y 1).val
    rw [e1]; omega
  · show win0_5.index t (2 : Fin 3) * 4096 + 1 * (y 2).val = (y 2).val
    rw [e2]; omega

/-- An index of the result array is in point `t`'s block iff each coordinate is in the block's range on its axis. -/
theorem mem_blk (t : Fin cfg0.N) (i : S2x4096x4096.Idx) :
    i ∈ ((cfg0.win 5).blk t).view.set ↔ ∀ a : Fin 3, win0_5.index t a * S2x128x4096.size a ≤ (i a).val
      ∧ (i a).val < win0_5.index t a * S2x128x4096.size a + S2x128x4096.size a := by
  show i ∈ ((View.whole main_v0).slice (win0_5.rect t)).set ↔ _
  rw [View.set_slice_whole, Rect.mem_set_unit]
  exact Iff.rfl

/-- Every index of the result array is in some point's block: row `p` in the block of point `p / 128`. -/
theorem covered (i : S2x4096x4096.Idx) :
    ∃ t : Fin cfg0.N, (cfg0.win 5).flush t = true ∧ i ∈ ((cfg0.win 5).blk t).view.set := by
  have h0 : (i 0).val < 2 := (i 0).isLt
  have h1 : (i 1).val < 4096 := (i 1).isLt
  have h2 : (i 2).val < 4096 := (i 2).isLt
  have ht : (i 1).val / 128 < cfg0.N := lt_of_lt_of_eq (by omega : (i 1).val / 128 < 32) N_0.symm
  obtain ⟨e0, e1, e2⟩ := out_index ⟨(i 1).val / 128, ht⟩
  refine ⟨⟨(i 1).val / 128, ht⟩, flush0_5 _, ?_⟩
  rw [mem_blk]
  intro a
  match a with
  | ⟨0, _⟩ =>
    show win0_5.index ⟨(i 1).val / 128, ht⟩ (0 : Fin 3) * 2 ≤ (i 0).val
      ∧ (i 0).val < win0_5.index ⟨(i 1).val / 128, ht⟩ (0 : Fin 3) * 2 + 2
    rw [e0]; omega
  | ⟨1, _⟩ =>
    show win0_5.index ⟨(i 1).val / 128, ht⟩ (1 : Fin 3) * 128 ≤ (i 1).val
      ∧ (i 1).val < win0_5.index ⟨(i 1).val / 128, ht⟩ (1 : Fin 3) * 128 + 128
    rw [e1]
    show (i 1).val / 128 * 128 ≤ (i 1).val ∧ (i 1).val < (i 1).val / 128 * 128 + 128
    omega
  | ⟨2, _⟩ =>
    show win0_5.index ⟨(i 1).val / 128, ht⟩ (2 : Fin 3) * 4096 ≤ (i 2).val
      ∧ (i 2).val < win0_5.index ⟨(i 1).val / 128, ht⟩ (2 : Fin 3) * 4096 + 4096
    rw [e2]; omega

/-- THE RESULT ARRAY after the run: the lattice's result of the argument arrays. -/
theorem final (c : Dev nD) : (dats m 0 c).arrAt 5 cfg0.N = result m c :=
  (dats m 0 c).arrAt_eq_of_cover 5 (result m c) (fun t _ => flushed_eq m c t) covered

/-- The run at the extended reals: the result array is `kernelOut` of the three argument arrays, which end unchanged. -/
theorem run_value : θ_run (defs (F := Ideal)) (onTc (τ := τ) (main (F := Ideal))) ⟨m, fun _ => 0, ρ⟩ (fun r => ∀ c : Dev nD,
      r.2.mem ((c.tc : Thread nD τ).loc main_v0)
        = Cert.Lattice.kernelOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_out m ρ)

end Cert.KernelIdeal.Hand

end
-- ==== Proof.RefRunOps.lean ====
/-
  The reference program as a list of its host operations, cut into nine stretches, and the facts about the list that do
  not look at values: that the program IS the list run in order, that every operation touches TensorCore buffers only,
  and that none of them leaves its result undetermined.

  The stretches follow the mathematics (Lattice.lean): the indicators and the shares; the profit; the four Fermi
  weights; the neighbours' types; the pick by direction, twice; the update and the stacked result. A cut point names
  the few buffers later stretches still read; `Cut1` … `Cut8` say that a valuation holds, at those buffers, the stage
  values of RefRead.lean (`ReadP.val_<buffer>`, each a function of the argument arrays), and `Args` that it holds
  the argument arrays themselves.

  A roll of the lattice by one step ends in a join of the wrapped row (or column) with the rest; the four such joins
  and the result's stacking are named (`catRowLast` …), so that a stretch's run can be read through them by
  congruence: a join's operands sit inside a list of shaped pieces, where rewriting does not reach.
-/
import proofs.«410334_j7902739824972_3_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The joins, named -/

/-- The four joins a roll of the lattice by one step ends in: the wrapped row or column put back before, or after, the rest. -/
def catRowLast (a : (⟨S1x4096, .f32⟩ : BufTy).Contents (Elt F)) (b : (⟨S4095x4096, .f32⟩ : BufTy).Contents (Elt F)) : (⟨S4096x4096, .f32⟩ : BufTy).Contents (Elt F) :=
  concatenate S4096x4096 0 [⟨S1x4096, a⟩, ⟨S4095x4096, b⟩] concatenates_S1x4096_S4095x4096_S4096x4096_d0
def catRowFirst (a : (⟨S4095x4096, .f32⟩ : BufTy).Contents (Elt F)) (b : (⟨S1x4096, .f32⟩ : BufTy).Contents (Elt F)) : (⟨S4096x4096, .f32⟩ : BufTy).Contents (Elt F) :=
  concatenate S4096x4096 0 [⟨S4095x4096, a⟩, ⟨S1x4096, b⟩] concatenates_S4095x4096_S1x4096_S4096x4096_d0
def catColLast (a : (⟨S4096x1, .f32⟩ : BufTy).Contents (Elt F)) (b : (⟨S4096x4095, .f32⟩ : BufTy).Contents (Elt F)) : (⟨S4096x4096, .f32⟩ : BufTy).Contents (Elt F) :=
  concatenate S4096x4096 1 [⟨S4096x1, a⟩, ⟨S4096x4095, b⟩] concatenates_S4096x1_S4096x4095_S4096x4096_d1
def catColFirst (a : (⟨S4096x4095, .f32⟩ : BufTy).Contents (Elt F)) (b : (⟨S4096x1, .f32⟩ : BufTy).Contents (Elt F)) : (⟨S4096x4096, .f32⟩ : BufTy).Contents (Elt F) :=
  concatenate S4096x4096 1 [⟨S4096x4095, a⟩, ⟨S4096x1, b⟩] concatenates_S4096x4095_S4096x1_S4096x4096_d1
/-- The result's two planes stacked. -/
def catPlanes (a b : (⟨S1x4096x4096, .f32⟩ : BufTy).Contents (Elt F)) : (⟨S2x4096x4096, .f32⟩ : BufTy).Contents (Elt F) :=
  concatenate S2x4096x4096 0 [⟨S1x4096x4096, a⟩, ⟨S1x4096x4096, b⟩] concatenates_S1x4096x4096_S1x4096x4096_S2x4096x4096_d0

/-! ## The nine stretches -/

/-- Operations 1 … 39 of 208. The two indicators (cooperators `main_v2`, defectors `main_v5`), the five-point sum of the cooperators (`main_v13`), and the two group shares: the cooperator's (`main_v19`) and the defector's (`main_v23`). -/
abbrev opsA : List (HloOp τ sig (Elt F)) :=
  [ nullary main_cst (constant S_ .f32 0x3F800000#32),
    unary main_cst main_v0 (broadcastInDim S4096x4096 ![] bcast_S_S4096x4096 : (⟨S_, .f32⟩ : BufTy).Contents (Elt F) → (⟨S4096x4096, .f32⟩ : BufTy).Contents (Elt F)),
    binary main_arg0 main_v0 main_v1 (cmpf .oeq : (⟨S4096x4096, .f32⟩ : BufTy).Contents (Elt F) → (⟨S4096x4096, .f32⟩ : BufTy).Contents (Elt F) → (⟨S4096x4096, .i1⟩ : BufTy).Contents (Elt F)),
    unary main_v1 main_v2 (uitofp .f32 : (⟨S4096x4096, .i1⟩ : BufTy).Contents (Elt F) → (⟨S4096x4096, .f32⟩ : BufTy).Contents (Elt F)),
    nullary main_cst_0 (constant S_ .f32 0x00000000#32),
    unary main_cst_0 main_v3 (broadcastInDim S4096x4096 ![] bcast_S_S4096x4096 : (⟨S_, .f32⟩ : BufTy).Contents (Elt F) → (⟨S4096x4096, .f32⟩ : BufTy).Contents (Elt F)),
    binary main_arg0 main_v3 main_v4 (cmpf .oeq : (⟨S4096x4096, .f32⟩ : BufTy).Contents (Elt F) → (⟨S4096x4096, .f32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    unary main_v2 main_call0_v0 (fun x => extractStridedSlice S1x4096 ![4095, 0] x slices_S4096x4096_S1x4096_4095_0 : (⟨S4096x4096, .f32⟩ : BufTy).Contents (Elt F) → (⟨S1x4096, .f32⟩ : BufTy).Contents (Elt F)),
    unary main_v2 main_call0_v1 (fun x => extractStridedSlice S4095x4096 ![0, 0] x slices_S4096x4096_S4095x4096_0_0 : (⟨S4096x4096, .f32⟩ : BufTy).Contents (Elt F) → (⟨S4095x4096, .f32⟩ : BufTy).Contents (Elt F)),
    binary main_call0_v0 main_call0_v1 main_v6 (catRowLast : (⟨S1x4096, .f32⟩ : BufTy).Contents (Elt F) → (⟨S4095x4096, .f32⟩ : BufTy).Contents (Elt F) → (⟨S4096x4096, .f32⟩ : BufTy).Contents (Elt F)),
    binary main_v2 main_v6 main_v7 (addf : (⟨S4096x4096, .f32⟩ : BufTy).Contents (Elt F) → (⟨S4096x4096, .f32⟩ : BufTy).Contents (Elt F) → (⟨S4096x4096, .f32⟩ : BufTy).Contents (Elt F)),
    unary main_v2 main_call1_v0 (fun x => extractStridedSlice S4095x4096 ![1, 0] x slices_S4096x4096_S4095x4096_1_0 : (⟨S4096x4096, .f32⟩ : BufTy).Contents (Elt F) → (⟨S4095x4096, .f32⟩ : BufTy).Contents (Elt F)),
    unary main_v2 main_call1_v1 (fun x => extractStridedSlice S1x4096 ![0, 0] x slices_S4096x4096_S1x4096_0_0 : (⟨S4096x4096, .f32⟩ : BufTy).Contents (Elt F) → (⟨S1x4096, .f32⟩ : BufTy).Contents (Elt F)),
    binary main_call1_v0 main_call1_v1 main_v8 (catRowFirst : (⟨S4095x4096, .f32⟩ : BufTy).Contents (Elt F) → (⟨S1x4096, .f32⟩ : BufTy).Contents (Elt F) → (⟨S4096x4096, .f32⟩ : BufTy).Contents (Elt F)),
    binary main_v7 main_v8 main_v9 (addf : (⟨S4096x4096, .f32⟩ : BufTy).Contents (Elt F) → (⟨S4096x4096, .f32⟩ : BufTy).Contents (Elt F) → (⟨S4096x4096, .f32⟩ : BufTy).Contents (Elt F)),
    unary main_v2 main_call2_v0 (fun x => extractStridedSlice S4096x1 ![0, 4095] x slices_S4096x4096_S4096x1_0_4095 : (⟨S4096x4096, .f32⟩ : BufTy).Contents (Elt F) → (⟨S4096x1, .f32⟩ : BufTy).Contents (Elt F)),
    unary main_v2 main_call2_v1 (fun x => extractStridedSlice S4096x4095 ![0, 0] x slices_S4096x4096_S4096x4095_0_0 : (⟨S4096x4096, .f32⟩ : BufTy).Contents (Elt F) → (⟨S4096x4095, .f32⟩ : BufTy).Contents (Elt F)),
    binary main_call2_v0 main_call2_v1 main_v10 (catColLast : (⟨S4096x1, .f32⟩ : BufTy).Contents (Elt F) → (⟨S4096x4095, .f32⟩ : BufTy).Contents (Elt F) → (⟨S4096x4096, .f32⟩ : BufTy).Contents (Elt F)),
    binary main_v9 main_v10 main_v11 (addf : (⟨S4096x4096, .f32⟩ : BufTy).Contents (Elt F) → (⟨S4096x4096, .f32⟩ : BufTy).Contents (Elt F) → (⟨S4096x4096, .f32⟩ : BufTy).Contents (Elt F)),
    unary main_v2 main_call3_v0 (fun x => extractStridedSlice S4096x4095 ![0, 1] x slices_S4096x4096_S4096x4095_0_1 : (⟨S4096x4096, .f32⟩ : BufTy).Contents (Elt F) → (⟨S4096x4095, .f32⟩ : BufTy).Contents (Elt F)),
    unary main_v2 main_call3_v1 (fun x => extractStridedSlice S4096x1 ![0, 0] x slices_S4096x4096_S4096x1_0_0 : (⟨S4096x4096, .f32⟩ : BufTy).Contents (Elt F) → (⟨S4096x1, .f32⟩ : BufTy).Contents (Elt F)),
    binary main_call3_v0 main_call3_v1 main_v12 (catColFirst : (⟨S4096x4095, .f32⟩ : BufTy).Contents (Elt F) → (⟨S4096x1, .f32⟩ : BufTy).Contents (Elt F) → (⟨S4096x4096, .f32⟩ : BufTy).Contents (Elt F)),
    binary main_v11 main_v12 main_v13 (addf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x40A00000#32),
    unary main_cst_1 main_v14 (broadcastInDim S4096x4096 ![] bcast_S_S4096x4096 : (⟨S_, .f32⟩ : BufTy).Contents (Elt F) → (⟨S4096x4096, .f32⟩ : BufTy).Contents (Elt F)),
    binary main_v13 main_v14 main_v15 (Host.divf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x409CCCCD#32),
    unary main_cst_2 main_v16 (broadcastInDim S4096x4096 ![] bcast_S_S4096x4096 : (⟨S_, .f32⟩ : BufTy).Contents (Elt F) → (⟨S4096x4096, .f32⟩ : BufTy).Contents (Elt F)),
    binary main_v15 main_v16 main_v17 (mulf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x3F800000#32),
    unary main_cst_3 main_v18 (broadcastInDim S4096x4096 ![] bcast_S_S4096x4096 : (⟨S_, .f32⟩ : BufTy).Contents (Elt F) → (⟨S4096x4096, .f32⟩ : BufTy).Contents (Elt F)),
    binary main_v17 main_v18 main_v19 (subf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x40A00000#32),
    unary main_cst_4 main_v20 (broadcastInDim S4096x4096 ![] bcast_S_S4096x4096 : (⟨S_, .f32⟩ : BufTy).Contents (Elt F) → (⟨S4096x4096, .f32⟩ : BufTy).Contents (Elt F)),
    binary main_v13 main_v20 main_v21 (Host.divf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x409CCCCD#32),
    unary main_cst_5 main_v22 (broadcastInDim S4096x4096 ![] bcast_S_S4096x4096 : (⟨S_, .f32⟩ : BufTy).Contents (Elt F) → (⟨S4096x4096, .f32⟩ : BufTy).Contents (Elt F)),
    binary main_v21 main_v22 main_v23 (mulf : (⟨S4096x4096, .f32⟩ : BufTy).Contents (Elt F) → (⟨S4096x4096, .f32⟩ : BufTy).Contents (Elt F) → (⟨S4096x4096, .f32⟩ : BufTy).Contents (Elt F)) ]

/-- Operations 40 … 74 of 208. The five-point sums of the two shares (`main_v31`, `main_v39`) and the profit (`main_v42`): each sum times its indicator, added. -/
abbrev opsB : List (HloOp τ sig (Elt F)) :=
  [ unary main_v19 main_call4_v0 (fun x => extractStridedSlice S1x4096 ![4095, 0] x slices_S4096x4096_S1x4096_4095_0 : (⟨S4096x4096, .f32⟩ : BufTy).Contents (Elt F) → (⟨S1x4096, .f32⟩ : BufTy).Contents (Elt F)),
    unary main_v19 main_call4_v1 (fun x => extractStridedSlice S4095x4096 ![0, 0] x slices_S4096x4096_S4095x4096_0_0 : (⟨S4096x4096, .f32⟩ : BufTy).Contents (Elt F) → (⟨S4095x4096, .f32⟩ : BufTy).Contents (Elt F)),
    binary main_call4_v0 main_call4_v1 main_v24 (catRowLast : (⟨S1x4096, .f32⟩ : BufTy).Contents (Elt F) → (⟨S4095x4096, .f32⟩ : BufTy).Contents (Elt F) → (⟨S4096x4096, .f32⟩ : BufTy).Contents (Elt F)),
    binary main_v19 main_v24 main_v25 (addf : (⟨S4096x4096, .f32⟩ : BufTy).Contents (Elt F) → (⟨S4096x4096, .f32⟩ : BufTy).Contents (Elt F) → (⟨S4096x4096, .f32⟩ : BufTy).Contents (Elt F)),
    unary main_v19 main_call5_v0 (fun x => extractStridedSlice S4095x4096 ![1, 0] x slices_S4096x4096_S4095x4096_1_0 : (⟨S4096x4096, .f32⟩ : BufTy).Contents (Elt F) → (⟨S4095x4096, .f32⟩ : BufTy).Contents (Elt F)),
    unary main_v19 main_call5_v1 (fun x => extractStridedSlice S1x4096 ![0, 0] x slices_S4096x4096_S1x4096_0_0 : (⟨S4096x4096, .f32⟩ : BufTy).Contents (Elt F) → (⟨S1x4096, .f32⟩ : BufTy).Contents (Elt F)),
    binary main_call5_v0 main_call5_v1 main_v26 (catRowFirst : (⟨S4095x4096, .f32⟩ : BufTy).Contents (Elt F) → (⟨S1x4096, .f32⟩ : BufTy).Contents (Elt F) → (⟨S4096x4096, .f32⟩ : BufTy).Contents (Elt F)),
    binary main_v25 main_v26 main_v27 (addf : (⟨S4096x4096, .f32⟩ : BufTy).Contents (Elt F) → (⟨S4096x4096, .f32⟩ : BufTy).Contents (Elt F) → (⟨S4096x4096, .f32⟩ : BufTy).Contents (Elt F)),
    unary main_v19 main_call6_v0 (fun x => extractStridedSlice S4096x1 ![0, 4095] x slices_S4096x4096_S4096x1_0_4095 : (⟨S4096x4096, .f32⟩ : BufTy).Contents (Elt F) → (⟨S4096x1, .f32⟩ : BufTy).Contents (Elt F)),
    unary main_v19 main_call6_v1 (fun x => extractStridedSlice S4096x4095 ![0, 0] x slices_S4096x4096_S4096x4095_0_0 : (⟨S4096x4096, .f32⟩ : BufTy).Contents (Elt F) → (⟨S4096x4095, .f32⟩ : BufTy).Contents (Elt F)),
    binary main_call6_v0 main_call6_v1 main_v28 (catColLast : (⟨S4096x1, .f32⟩ : BufTy).Contents (Elt F) → (⟨S4096x4095, .f32⟩ : BufTy).Contents (Elt F) → (⟨S4096x4096, .f32⟩ : BufTy).Contents (Elt F)),
    binary main_v27 main_v28 main_v29 (addf : (⟨S4096x4096, .f32⟩ : BufTy).Contents (Elt F) → (⟨S4096x4096, .f32⟩ : BufTy).Contents (Elt F) → (⟨S4096x4096, .f32⟩ : BufTy).Contents (Elt F)),
    unary main_v19 main_call7_v0 (fun x => extractStridedSlice S4096x4095 ![0, 1] x slices_S4096x4096_S4096x4095_0_1 : (⟨S4096x4096, .f32⟩ : BufTy).Contents (Elt F) → (⟨S4096x4095, .f32⟩ : BufTy).Contents (Elt F)),
    unary main_v19 main_call7_v1 (fun x => extractStridedSlice S4096x1 ![0, 0] x slices_S4096x4096_S4096x1_0_0 : (⟨S4096x4096, .f32⟩ : BufTy).Contents (Elt F) → (⟨S4096x1, .f32⟩ : BufTy).Contents (Elt F)),
    binary main_call7_v0 main_call7_v1 main_v30 (catColFirst : (⟨S4096x4095, .f32⟩ : BufTy).Contents (Elt F) → (⟨S4096x1, .f32⟩ : BufTy).Contents (Elt F) → (⟨S4096x4096, .f32⟩ : BufTy).Contents (Elt F)),
    binary main_v29 main_v30 main_v31 (addf : (⟨S4096x4096, .f32⟩ : BufTy).Contents (Elt F) → (⟨S4096x4096, .f32⟩ : BufTy).Contents (Elt F) → (⟨S4096x4096, .f32⟩ : BufTy).Contents (Elt F)),
    unary main_v23 main_call8_v0 (fun x => extractStridedSlice S1x4096 ![4095, 0] x slices_S4096x4096_S1x4096_4095_0 : (⟨S4096x4096, .f32⟩ : BufTy).Contents (Elt F) → (⟨S1x4096, .f32⟩ : BufTy).Contents (Elt F)),
    unary main_v23 main_call8_v1 (fun x => extractStridedSlice S4095x4096 ![0, 0] x slices_S4096x4096_S4095x4096_0_0 : (⟨S4096x4096, .f32⟩ : BufTy).Contents (Elt F) → (⟨S4095x4096, .f32⟩ : BufTy).Contents (Elt F)),
    binary main_call8_v0 main_call8_v1 main_v32 (catRowLast : (⟨S1x4096, .f32⟩ : BufTy).Contents (Elt F) → (⟨S4095x4096, .f32⟩ : BufTy).Contents (Elt F) → (⟨S4096x4096, .f32⟩ : BufTy).Contents (Elt F)),
    binary main_v23 main_v32 main_v33 (addf : (⟨S4096x4096, .f32⟩ : BufTy).Contents (Elt F) → (⟨S4096x4096, .f32⟩ : BufTy).Contents (Elt F) → (⟨S4096x4096, .f32⟩ : BufTy).Contents (Elt F)),
    unary main_v23 main_call9_v0 (fun x => extractStridedSlice S4095x4096 ![1, 0] x slices_S4096x4096_S4095x4096_1_0 : (⟨S4096x4096, .f32⟩ : BufTy).Contents (Elt F) → (⟨S4095x4096, .f32⟩ : BufTy).Contents (Elt F)),
    unary main_v23 main_call9_v1 (fun x => extractStridedSlice S1x4096 ![0, 0] x slices_S4096x4096_S1x4096_0_0 : (⟨S4096x4096, .f32⟩ : BufTy).Contents (Elt F) → (⟨S1x4096, .f32⟩ : BufTy).Contents (Elt F)),
    binary main_call9_v0 main_call9_v1 main_v34 (catRowFirst : (⟨S4095x4096, .f32⟩ : BufTy).Contents (Elt F) → (⟨S1x4096, .f32⟩ : BufTy).Contents (Elt F) → (⟨S4096x4096, .f32⟩ : BufTy).Contents (Elt F)),
    binary main_v33 main_v34 main_v35 (addf : (⟨S4096x4096, .f32⟩ : BufTy).Contents (Elt F) → (⟨S4096x4096, .f32⟩ : BufTy).Contents (Elt F) → (⟨S4096x4096, .f32⟩ : BufTy).Contents (Elt F)),
    unary main_v23 main_call10_v0 (fun x => extractStridedSlice S4096x1 ![0, 4095] x slices_S4096x4096_S4096x1_0_4095 : (⟨S4096x4096, .f32⟩ : BufTy).Contents (Elt F) → (⟨S4096x1, .f32⟩ : BufTy).Contents (Elt F)),
    unary main_v23 main_call10_v1 (fun x => extractStridedSlice S4096x4095 ![0, 0] x slices_S4096x4096_S4096x4095_0_0 : (⟨S4096x4096, .f32⟩ : BufTy).Contents (Elt F) → (⟨S4096x4095, .f32⟩ : BufTy).Contents (Elt F)),
    binary main_call10_v0 main_call10_v1 main_v36 (catColLast : (⟨S4096x1, .f32⟩ : BufTy).Contents (Elt F) → (⟨S4096x4095, .f32⟩ : BufTy).Contents (Elt F) → (⟨S4096x4096, .f32⟩ : BufTy).Contents (Elt F)),
    binary main_v35 main_v36 main_v37 (addf : (⟨S4096x4096, .f32⟩ : BufTy).Contents (Elt F) → (⟨S4096x4096, .f32⟩ : BufTy).Contents (Elt F) → (⟨S4096x4096, .f32⟩ : BufTy).Contents (Elt F)),
    unary main_v23 main_call11_v0 (fun x => extractStridedSlice S4096x4095 ![0, 1] x slices_S4096x4096_S4096x4095_0_1 : (⟨S4096x4096, .f32⟩ : BufTy).Contents (Elt F) → (⟨S4096x4095, .f32⟩ : BufTy).Contents (Elt F)),
    unary main_v23 main_call11_v1 (fun x => extractStridedSlice S4096x1 ![0, 0] x slices_S4096x4096_S4096x1_0_0 : (⟨S4096x4096, .f32⟩ : BufTy).Contents (Elt F) → (⟨S4096x1, .f32⟩ : BufTy).Contents (Elt F)),
    binary main_call11_v0 main_call11_v1 main_v38 (catColFirst : (⟨S4096x4095, .f32⟩ : BufTy).Contents (Elt F) → (⟨S4096x1, .f32⟩ : BufTy).Contents (Elt F) → (⟨S4096x4096, .f32⟩ : BufTy).Contents (Elt F)),
    binary main_v37 main_v38 main_v39 (addf : (⟨S4096x4096, .f32⟩ : BufTy).Contents (Elt F) → (⟨S4096x4096, .f32⟩ : BufTy).Contents (Elt F) → (⟨S4096x4096, .f32⟩ : BufTy).Contents (Elt F)),
    binary main_v31 main_v2 main_v40 (mulf : (⟨S4096x4096, .f32⟩ : BufTy).Contents (Elt F) → (⟨S4096x4096, .f32⟩ : BufTy).Contents (Elt F) → (⟨S4096x4096, .f32⟩ : BufTy).Contents (Elt F)),
    binary main_v39 main_v5 main_v41 (mulf : (⟨S4096x4096, .f32⟩ : BufTy).Contents (Elt F) → (⟨S4096x4096, .f32⟩ : BufTy).Contents (Elt F) → (⟨S4096x4096, .f32⟩ : BufTy).Contents (Elt F)),
    binary main_v40 main_v41 main_v42 (addf : (⟨S4096x4096, .f32⟩ : BufTy).Contents (Elt F) → (⟨S4096x4096, .f32⟩ : BufTy).Contents (Elt F) → (⟨S4096x4096, .f32⟩ : BufTy).Contents (Elt F)) ]

/-- Operations 75 … 86 of 208. The first Fermi weight, as far as its denominator: the profit one column back less the profit, over the temperature, negated, exponentiated, plus one (`main_v50`). -/
abbrev opsC : List (HloOp τ sig (Elt F)) :=
  [ unary main_v42 main_call12_v0 (fun x => extractStridedSlice S4096x1 ![0, 4095] x slices_S4096x4096_S4096x1_0_4095 : (⟨S4096x4096, .f32⟩ : BufTy).Contents (Elt F) → (⟨S4096x1, .f32⟩ : BufTy).Contents (Elt F)),
    unary main_v42 main_call12_v1 (fun x => extractStridedSlice S4096x4095 ![0, 0] x slices_S4096x4096_S4096x4095_0_0 : (⟨S4096x4096, .f32⟩ : BufTy).Contents (Elt F) → (⟨S4096x4095, .f32⟩ : BufTy).Contents (Elt F)),
    binary main_call12_v0 main_call12_v1 main_v43 (catColLast : (⟨S4096x1, .f32⟩ : BufTy).Contents (Elt F) → (⟨S4096x4095, .f32⟩ : BufTy).Contents (Elt F) → (⟨S4096x4096, .f32⟩ : BufTy).Contents (Elt F)),
    binary main_v43 main_v42 main_v44 (subf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x3DCCCCCD#32),
    unary main_cst_6 main_v45 (broadcastInDim S4096x4096 ![] bcast_S_S4096x4096 : (⟨S_, .f32⟩ : BufTy).Contents (Elt F) → (⟨S4096x4096, .f32⟩ : BufTy).Contents (Elt F)),
    binary main_v44 main_v45 main_v46 (Host.divf : (⟨S4096x4096, .f32⟩ : BufTy).Contents (Elt F) → (⟨S4096x4096, .f32⟩ : BufTy).Contents (Elt F) → (⟨S4096x4096, .f32⟩ : BufTy).Contents (Elt F)),
    unary main_v46 main_v47 (Host.negf : (⟨S4096x4096, .f32⟩ : BufTy).Contents (Elt F) → (⟨S4096x4096, .f32⟩ : BufTy).Contents (Elt F)),
    unary main_v47 main_v48 (Host.exp : (⟨S4096x4096, .f32⟩ : BufTy).Contents (Elt F) → (⟨S4096x4096, .f32⟩ : BufTy).Contents (Elt F)),
    nullary main_cst_7 (constant S_ .f32 0x3F800000#32),
    unary main_cst_7 main_v49 (broadcastInDim S4096x4096 ![] bcast_S_S4096x4096 : (⟨S_, .f32⟩ : BufTy).Contents (Elt F) → (⟨S4096x4096, .f32⟩ : BufTy).Contents (Elt F)),
    binary main_v49 main_v48 main_v50 (addf : (⟨S4096x4096, .f32⟩ : BufTy).Contents (Elt F) → (⟨S4096x4096, .f32⟩ : BufTy).Contents (Elt F) → (⟨S4096x4096, .f32⟩ : BufTy).Contents (Elt F)) ]

/-- Operations 87 … 104 of 208. The first weight's quotient (`main_v52`) and the whole second weight, the column ahead (`main_v62`). -/
abbrev opsD : List (HloOp τ sig (Elt F)) :=
  [ nullary main_cst_8 (constant S_ .f32 0x3F800000#32),
    unary main_cst_8 main_v51 (broadcastInDim S4096x4096 ![] bcast_S_S4096x4096 : (⟨S_, .f32⟩ : BufTy).Contents (Elt F) → (⟨S4096x4096, .f32⟩ : BufTy).Contents (Elt F)),
    binary main_v51 main_v50 main_v52 (Host.divf : (⟨S4096x4096, .f32⟩ : BufTy).Contents (Elt F) → (⟨S4096x4096, .f32⟩ : BufTy).Contents (Elt F) → (⟨S4096x4096, .f32⟩ : BufTy).Contents (Elt F)),
    unary main_v42 main_call13_v0 (fun x => extractStridedSlice S4096x4095 ![0, 1] x slices_S4096x4096_S4096x4095_0_1 : (⟨S4096x4096, .f32⟩ : BufTy).Contents (Elt F) → (⟨S4096x4095, .f32⟩ : BufTy).Contents (Elt F)),
    unary main_v42 main_call13_v1 (fun x => extractStridedSlice S4096x1 ![0, 0] x slices_S4096x4096_S4096x1_0_0 : (⟨S4096x4096, .f32⟩ : BufTy).Contents (Elt F) → (⟨S4096x1, .f32⟩ : BufTy).Contents (Elt F)),
    binary main_call13_v0 main_call13_v1 main_v53 (catColFirst : (⟨S4096x4095, .f32⟩ : BufTy).Contents (Elt F) → (⟨S4096x1, .f32⟩ : BufTy).Contents (Elt F) → (⟨S4096x4096, .f32⟩ : BufTy).Contents (Elt F)),
    binary main_v53 main_v42 main_v54 (subf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x3DCCCCCD#32),
    unary main_cst_9 main_v55 (broadcastInDim S4096x4096 ![] bcast_S_S4096x4096 : (⟨S_, .f32⟩ : BufTy).Contents (Elt F) → (⟨S4096x4096, .f32⟩ : BufTy).Contents (Elt F)),
    binary main_v54 main_v55 main_v56 (Host.divf : (⟨S4096x4096, .f32⟩ : BufTy).Contents (Elt F) → (⟨S4096x4096, .f32⟩ : BufTy).Contents (Elt F) → (⟨S4096x4096, .f32⟩ : BufTy).Contents (Elt F)),
    unary main_v56 main_v57 (Host.negf : (⟨S4096x4096, .f32⟩ : BufTy).Contents (Elt F) → (⟨S4096x4096, .f32⟩ : BufTy).Contents (Elt F)),
    unary main_v57 main_v58 (Host.exp : (⟨S4096x4096, .f32⟩ : BufTy).Contents (Elt F) → (⟨S4096x4096, .f32⟩ : BufTy).Contents (Elt F)),
    nullary main_cst_10 (constant S_ .f32 0x3F800000#32),
    unary main_cst_10 main_v59 (broadcastInDim S4096x4096 ![] bcast_S_S4096x4096 : (⟨S_, .f32⟩ : BufTy).Contents (Elt F) → (⟨S4096x4096, .f32⟩ : BufTy).Contents (Elt F)),
    binary main_v59 main_v58 main_v60 (addf : (⟨S4096x4096, .f32⟩ : BufTy).Contents (Elt F) → (⟨S4096x4096, .f32⟩ : BufTy).Contents (Elt F) → (⟨S4096x4096, .f32⟩ : BufTy).Contents (Elt F)),
    nullary main_cst_11 (constant S_ .f32 0x3F800000#32),
    unary main_cst_11 main_v61 (broadcastInDim S4096x4096 ![] bcast_S_S4096x4096 : (⟨S_, .f32⟩ : BufTy).Contents (Elt F) → (⟨S4096x4096, .f32⟩ : BufTy).Contents (Elt F)),
    binary main_v61 main_v60 main_v62 (Host.divf : (⟨S4096x4096, .f32⟩ : BufTy).Contents (Elt F) → (⟨S4096x4096, .f32⟩ : BufTy).Contents (Elt F) → (⟨S4096x4096, .f32⟩ : BufTy).Contents (Elt F)) ]

/-- Operations 105 … 138 of 208. The third and fourth weights, the row back (`main_v72`) and the row ahead (`main_v82`), and the four weights each given a leading unit axis (`main_v83` … `main_v86`). -/
abbrev opsE : List (HloOp τ sig (Elt F)) :=
  [ unary main_v42 main_call14_v0 (fun x => extractStridedSlice S1x4096 ![4095, 0] x slices_S4096x4096_S1x4096_4095_0 : (⟨S4096x4096, .f32⟩ : BufTy).Contents (Elt F) → (⟨S1x4096, .f32⟩ : BufTy).Contents (Elt F)),
    unary main_v42 main_call14_v1 (fun x => extractStridedSlice S4095x4096 ![0, 0] x slices_S4096x4096_S4095x4096_0_0 : (⟨S4096x4096, .f32⟩ : BufTy).Contents (Elt F) → (⟨S4095x4096, .f32⟩ : BufTy).Contents (Elt F)),
    binary main_call14_v0 main_call14_v1 main_v63 (catRowLast : (⟨S1x4096, .f32⟩ : BufTy).Contents (Elt F) → (⟨S4095x4096, .f32⟩ : BufTy).Contents (Elt F) → (⟨S4096x4096, .f32⟩ : BufTy).Contents (Elt F)),
    binary main_v63 main_v42 main_v64 (subf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3DCCCCCD#32),
    unary main_cst_12 main_v65 (broadcastInDim S4096x4096 ![] bcast_S_S4096x4096 : (⟨S_, .f32⟩ : BufTy).Contents (Elt F) → (⟨S4096x4096, .f32⟩ : BufTy).Contents (Elt F)),
    binary main_v64 main_v65 main_v66 (Host.divf : (⟨S4096x4096, .f32⟩ : BufTy).Contents (Elt F) → (⟨S4096x4096, .f32⟩ : BufTy).Contents (Elt F) → (⟨S4096x4096, .f32⟩ : BufTy).Contents (Elt F)),
    unary main_v66 main_v67 (Host.negf : (⟨S4096x4096, .f32⟩ : BufTy).Contents (Elt F) → (⟨S4096x4096, .f32⟩ : BufTy).Contents (Elt F)),
    unary main_v67 main_v68 (Host.exp : (⟨S4096x4096, .f32⟩ : BufTy).Contents (Elt F) → (⟨S4096x4096, .f32⟩ : BufTy).Contents (Elt F)),
    nullary main_cst_13 (constant S_ .f32 0x3F800000#32),
    unary main_cst_13 main_v69 (broadcastInDim S4096x4096 ![] bcast_S_S4096x4096 : (⟨S_, .f32⟩ : BufTy).Contents (Elt F) → (⟨S4096x4096, .f32⟩ : BufTy).Contents (Elt F)),
    binary main_v69 main_v68 main_v70 (addf : (⟨S4096x4096, .f32⟩ : BufTy).Contents (Elt F) → (⟨S4096x4096, .f32⟩ : BufTy).Contents (Elt F) → (⟨S4096x4096, .f32⟩ : BufTy).Contents (Elt F)),
    nullary main_cst_14 (constant S_ .f32 0x3F800000#32),
    unary main_cst_14 main_v71 (broadcastInDim S4096x4096 ![] bcast_S_S4096x4096 : (⟨S_, .f32⟩ : BufTy).Contents (Elt F) → (⟨S4096x4096, .f32⟩ : BufTy).Contents (Elt F)),
    binary main_v71 main_v70 main_v72 (Host.divf : (⟨S4096x4096, .f32⟩ : BufTy).Contents (Elt F) → (⟨S4096x4096, .f32⟩ : BufTy).Contents (Elt F) → (⟨S4096x4096, .f32⟩ : BufTy).Contents (Elt F)),
    unary main_v42 main_call15_v0 (fun x => extractStridedSlice S4095x4096 ![1, 0] x slices_S4096x4096_S4095x4096_1_0 : (⟨S4096x4096, .f32⟩ : BufTy).Contents (Elt F) → (⟨S4095x4096, .f32⟩ : BufTy).Contents (Elt F)),
    unary main_v42 main_call15_v1 (fun x => extractStridedSlice S1x4096 ![0, 0] x slices_S4096x4096_S1x4096_0_0 : (⟨S4096x4096, .f32⟩ : BufTy).Contents (Elt F) → (⟨S1x4096, .f32⟩ : BufTy).Contents (Elt F)),
    binary main_call15_v0 main_call15_v1 main_v73 (catRowFirst : (⟨S4095x4096, .f32⟩ : BufTy).Contents (Elt F) → (⟨S1x4096, .f32⟩ : BufTy).Contents (Elt F) → (⟨S4096x4096, .f32⟩ : BufTy).Contents (Elt F)),
    binary main_v73 main_v42 main_v74 (subf : (⟨S4096x4096, .f32⟩ : BufTy).Contents (Elt F) → (⟨S4096x4096, .f32⟩ : BufTy).Contents (Elt F) → (⟨S4096x4096, .f32⟩ : BufTy).Contents (Elt F)),
    nullary main_cst_15 (constant S_ .f32 0x3DCCCCCD#32),
    unary main_cst_15 main_v75 (broadcastInDim S4096x4096 ![] bcast_S_S4096x4096 : (⟨S_, .f32⟩ : BufTy).Contents (Elt F) → (⟨S4096x4096, .f32⟩ : BufTy).Contents (Elt F)),
    binary main_v74 main_v75 main_v76 (Host.divf : (⟨S4096x4096, .f32⟩ : BufTy).Contents (Elt F) → (⟨S4096x4096, .f32⟩ : BufTy).Contents (Elt F) → (⟨S4096x4096, .f32⟩ : BufTy).Contents (Elt F)),
    unary main_v76 main_v77 (Host.negf : (⟨S4096x4096, .f32⟩ : BufTy).Contents (Elt F) → (⟨S4096x4096, .f32⟩ : BufTy).Contents (Elt F)),
    unary main_v77 main_v78 (Host.exp : (⟨S4096x4096, .f32⟩ : BufTy).Contents (Elt F) → (⟨S4096x4096, .f32⟩ : BufTy).Contents (Elt F)),
    nullary main_cst_16 (constant S_ .f32 0x3F800000#32),
    unary main_cst_16 main_v79 (broadcastInDim S4096x4096 ![] bcast_S_S4096x4096 : (⟨S_, .f32⟩ : BufTy).Contents (Elt F) → (⟨S4096x4096, .f32⟩ : BufTy).Contents (Elt F)),
    binary main_v79 main_v78 main_v80 (addf : (⟨S4096x4096, .f32⟩ : BufTy).Contents (Elt F) → (⟨S4096x4096, .f32⟩ : BufTy).Contents (Elt F) → (⟨S4096x4096, .f32⟩ : BufTy).Contents (Elt F)),
    nullary main_cst_17 (constant S_ .f32 0x3F800000#32),
    unary main_cst_17 main_v81 (broadcastInDim S4096x4096 ![] bcast_S_S4096x4096 : (⟨S_, .f32⟩ : BufTy).Contents (Elt F) → (⟨S4096x4096, .f32⟩ : BufTy).Contents (Elt F)),
    binary main_v81 main_v80 main_v82 (Host.divf : (⟨S4096x4096, .f32⟩ : BufTy).Contents (Elt F) → (⟨S4096x4096, .f32⟩ : BufTy).Contents (Elt F) → (⟨S4096x4096, .f32⟩ : BufTy).Contents (Elt F)),
    unary main_v52 main_v83 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v62 main_v84 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v72 main_v85 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v82 main_v86 (broadcastInDim S1x4096x4096 ![1, 2] bcast_S4096x4096_S1x4096x4096_1_2 : (⟨S4096x4096, .f32⟩ : BufTy).Contents (Elt F) → (⟨S1x4096x4096, .f32⟩ : BufTy).Contents (Elt F)) ]

/-- Operations 139 … 155 of 208. The four weights stacked (`main_v87`); the four neighbours' types, each a roll of the type field by one step (`main_v88` … `main_v91`), each given a leading unit axis (`main_v92` … `main_v95`). -/
abbrev opsF : List (HloOp τ sig (Elt F)) :=
  [ nary ![main_v83, main_v84, main_v85, main_v86] main_v87 (fun u => concatenate S4x4096x4096 0 [⟨S1x4096x4096, u 0⟩, ⟨S1x4096x4096, u 1⟩, ⟨S1x4096x4096, u 2⟩, ⟨S1x4096x4096, u 3⟩] concatenates_S1x4096x4096_S1x4096x4096_S1x4096x4096_S1x4096x4096_S4x4096x4096_d0),
    unary main_arg0 main_call16_v0 (fun x => extractStridedSlice S4096x1 ![0, 4095] x slices_S4096x4096_S4096x1_0_4095 : (⟨S4096x4096, .f32⟩ : BufTy).Contents (Elt F) → (⟨S4096x1, .f32⟩ : BufTy).Contents (Elt F)),
    unary main_arg0 main_call16_v1 (fun x => extractStridedSlice S4096x4095 ![0, 0] x slices_S4096x4096_S4096x4095_0_0 : (⟨S4096x4096, .f32⟩ : BufTy).Contents (Elt F) → (⟨S4096x4095, .f32⟩ : BufTy).Contents (Elt F)),
    binary main_call16_v0 main_call16_v1 main_v88 (catColLast : (⟨S4096x1, .f32⟩ : BufTy).Contents (Elt F) → (⟨S4096x4095, .f32⟩ : BufTy).Contents (Elt F) → (⟨S4096x4096, .f32⟩ : BufTy).Contents (Elt F)),
    unary main_arg0 main_call17_v0 (fun x => extractStridedSlice S4096x4095 ![0, 1] x slices_S4096x4096_S4096x4095_0_1 : (⟨S4096x4096, .f32⟩ : BufTy).Contents (Elt F) → (⟨S4096x4095, .f32⟩ : BufTy).Contents (Elt F)),
    unary main_arg0 main_call17_v1 (fun x => extractStridedSlice S4096x1 ![0, 0] x slices_S4096x4096_S4096x1_0_0 : (⟨S4096x4096, .f32⟩ : BufTy).Contents (Elt F) → (⟨S4096x1, .f32⟩ : BufTy).Contents (Elt F)),
    binary main_call17_v0 main_call17_v1 main_v89 (catColFirst : (⟨S4096x4095, .f32⟩ : BufTy).Contents (Elt F) → (⟨S4096x1, .f32⟩ : BufTy).Contents (Elt F) → (⟨S4096x4096, .f32⟩ : BufTy).Contents (Elt F)),
    unary main_arg0 main_call18_v0 (fun x => extractStridedSlice S1x4096 ![4095, 0] x slices_S4096x4096_S1x4096_4095_0 : (⟨S4096x4096, .f32⟩ : BufTy).Contents (Elt F) → (⟨S1x4096, .f32⟩ : BufTy).Contents (Elt F)),
    unary main_arg0 main_call18_v1 (fun x => extractStridedSlice S4095x4096 ![0, 0] x slices_S4096x4096_S4095x4096_0_0 : (⟨S4096x4096, .f32⟩ : BufTy).Contents (Elt F) → (⟨S4095x4096, .f32⟩ : BufTy).Contents (Elt F)),
    binary main_call18_v0 main_call18_v1 main_v90 (catRowLast : (⟨S1x4096, .f32⟩ : BufTy).Contents (Elt F) → (⟨S4095x4096, .f32⟩ : BufTy).Contents (Elt F) → (⟨S4096x4096, .f32⟩ : BufTy).Contents (Elt F)),
    unary main_arg0 main_call19_v0 (fun x => extractStridedSlice S4095x4096 ![1, 0] x slices_S4096x4096_S4095x4096_1_0 : (⟨S4096x4096, .f32⟩ : BufTy).Contents (Elt F) → (⟨S4095x4096, .f32⟩ : BufTy).Contents (Elt F)),
    unary main_arg0 main_call19_v1 (fun x => extractStridedSlice S1x4096 ![0, 0] x slices_S4096x4096_S1x4096_0_0 : (⟨S4096x4096, .f32⟩ : BufTy).Contents (Elt F) → (⟨S1x4096, .f32⟩ : BufTy).Contents (Elt F)),
    binary main_call19_v0 main_call19_v1 main_v91 (catRowFirst : (⟨S4095x4096, .f32⟩ : BufTy).Contents (Elt F) → (⟨S1x4096, .f32⟩ : BufTy).Contents (Elt F) → (⟨S4096x4096, .f32⟩ : BufTy).Contents (Elt F)),
    unary main_v88 main_v92 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v89 main_v93 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v90 main_v94 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v91 main_v95 (broadcastInDim S1x4096x4096 ![1, 2] bcast_S4096x4096_S1x4096x4096_1_2 : (⟨S4096x4096, .f32⟩ : BufTy).Contents (Elt F) → (⟨S1x4096x4096, .f32⟩ : BufTy).Contents (Elt F)) ]

/-- Operations 156 … 180 of 208. The four neighbours' types stacked (`main_v96`), the direction words with a leading unit axis (`main_v97`), and the weight picked by direction (`main_v99`): the index normalised and range-checked, the gather, the guard. -/
abbrev opsG : List (HloOp τ sig (Elt F)) :=
  [ nary ![main_v92, main_v93, main_v94, main_v95] main_v96 (fun u => concatenate S4x4096x4096 0 [⟨S1x4096x4096, u 0⟩, ⟨S1x4096x4096, u 1⟩, ⟨S1x4096x4096, u 2⟩, ⟨S1x4096x4096, u 3⟩] concatenates_S1x4096x4096_S1x4096x4096_S1x4096x4096_S1x4096x4096_S4x4096x4096_d0),
    unary main_arg1 main_v97 (broadcastInDim S1x4096x4096 ![1, 2] bcast_S4096x4096_S1x4096x4096_1_2 : (⟨S4096x4096, .i32⟩ : BufTy).Contents (Elt F) → (⟨S1x4096x4096, .i32⟩ : BufTy).Contents (Elt F)),
    nullary main_call20_c (constantI S_ 32 0#32 : (⟨S_, .i32⟩ : BufTy).Contents (Elt F)),
    unary main_call20_c main_call20_v0 (broadcastInDim S1x4096x4096 ![] bcast_S_S1x4096x4096 : (⟨S_, .i32⟩ : BufTy).Contents (Elt F) → (⟨S1x4096x4096, .i32⟩ : BufTy).Contents (Elt F)),
    binary main_v97 main_call20_v0 main_call20_v1 (cmpi .slt : (⟨S1x4096x4096, .i32⟩ : BufTy).Contents (Elt F) → (⟨S1x4096x4096, .i32⟩ : BufTy).Contents (Elt F) → (⟨S1x4096x4096, .i1⟩ : BufTy).Contents (Elt F)),
    nullary main_call20_c_0 (constantI S_ 32 4#32 : (⟨S_, .i32⟩ : BufTy).Contents (Elt F)),
    unary main_call20_c_0 main_call20_v2 (broadcastInDim S1x4096x4096 ![] bcast_S_S1x4096x4096 : (⟨S_, .i32⟩ : BufTy).Contents (Elt F) → (⟨S1x4096x4096, .i32⟩ : BufTy).Contents (Elt F)),
    binary main_v97 main_call20_v2 main_call20_v3 (addi : (⟨S1x4096x4096, .i32⟩ : BufTy).Contents (Elt F) → (⟨S1x4096x4096, .i32⟩ : BufTy).Contents (Elt F) → (⟨S1x4096x4096, .i32⟩ : BufTy).Contents (Elt F)),
    ternary main_call20_v1 main_call20_v3 main_v97 main_call20_v4 (select : (⟨S1x4096x4096, .i1⟩ : BufTy).Contents (Elt F) → (⟨S1x4096x4096, .i32⟩ : BufTy).Contents (Elt F) → (⟨S1x4096x4096, .i32⟩ : BufTy).Contents (Elt F) → (⟨S1x4096x4096, .i32⟩ : BufTy).Contents (Elt F)),
    reshape main_call20_v4 main_call20_v5 rfl shapeCasts_S1x4096x4096_S1x4096x4096x1,
    nullary main_call20_c_1 (constantI S1 32 3#32 : (⟨S1, .i32⟩ : BufTy).Contents (Elt F)),
    nullary main_call20_c_2 (constantI S_ 32 0#32 : (⟨S_, .i32⟩ : BufTy).Contents (Elt F)),
    unary main_call20_c_2 main_call20_v6 (broadcastInDim S1x4096x4096x1 ![] bcast_S_S1x4096x4096x1 : (⟨S_, .i32⟩ : BufTy).Contents (Elt F) → (⟨S1x4096x4096x1, .i32⟩ : BufTy).Contents (Elt F)),
    binary main_call20_v5 main_call20_v6 main_call20_v7 (cmpi .sge : (⟨S1x4096x4096x1, .i32⟩ : BufTy).Contents (Elt F) → (⟨S1x4096x4096x1, .i32⟩ : BufTy).Contents (Elt F) → (⟨S1x4096x4096x1, .i1⟩ : BufTy).Contents (Elt F)),
    unary main_call20_c_1 main_call20_v8 (broadcastInDim S1x1x1x1 ![3] bcast_S1_S1x1x1x1_3 : (⟨S1, .i32⟩ : BufTy).Contents (Elt F) → (⟨S1x1x1x1, .i32⟩ : BufTy).Contents (Elt F)),
    unary main_call20_v8 main_call20_v9 (broadcastInDim S1x4096x4096x1 ![0, 1, 2, 3] bcast_S1x1x1x1_S1x4096x4096x1_0_1_2_3 : (⟨S1x1x1x1, .i32⟩ : BufTy).Contents (Elt F) → (⟨S1x4096x4096x1, .i32⟩ : BufTy).Contents (Elt F)),
    binary main_call20_v5 main_call20_v9 main_call20_v10 (cmpi .sle : (⟨S1x4096x4096x1, .i32⟩ : BufTy).Contents (Elt F) → (⟨S1x4096x4096x1, .i32⟩ : BufTy).Contents (Elt F) → (⟨S1x4096x4096x1, .i1⟩ : BufTy).Contents (Elt F)),
    binary main_call20_v7 main_call20_v10 main_call20_v11 (andi : (⟨S1x4096x4096x1, .i1⟩ : BufTy).Contents (Elt F) → (⟨S1x4096x4096x1, .i1⟩ : BufTy).Contents (Elt F) → (⟨S1x4096x4096x1, .i1⟩ : BufTy).Contents (Elt F)),
    nullary main_call20_c_3 (constantI S_ 1 1#1 : (⟨S_, .i1⟩ : BufTy).Contents (Elt F)),
    binary main_call20_v11 main_call20_c_3 main_call20_v12 (fun x v => Host.reduce IntOp.andi x v reducesTo_S1x4096x4096x1_S1x4096x4096_d3 h_S_ : (⟨S1x4096x4096x1, .i1⟩ : BufTy).Contents (Elt F) → (⟨S_, .i1⟩ : BufTy).Contents (Elt F) → (⟨S1x4096x4096, .i1⟩ : BufTy).Contents (Elt F)),
    binary main_v87 main_call20_v5 main_call20_v13 (fun x i => Host.gather gather_S4x4096x4096_S1x4096x4096x1_S1x4096x4096_n_0_12_12_0_3_111 x i : (⟨S4x4096x4096, .f32⟩ : BufTy).Contents (Elt F) → (⟨S1x4096x4096x1, .i32⟩ : BufTy).Contents (Elt F) → (⟨S1x4096x4096, .f32⟩ : BufTy).Contents (Elt F)),
    nullary main_call20_cst (constant S_ .f32 0x7FC00000#32 : (⟨S_, .f32⟩ : BufTy).Contents (Elt F)),
    unary main_call20_cst main_call20_v14 (broadcastInDim S1x4096x4096 ![] bcast_S_S1x4096x4096 : (⟨S_, .f32⟩ : BufTy).Contents (Elt F) → (⟨S1x4096x4096, .f32⟩ : BufTy).Contents (Elt F)),
    ternary main_call20_v12 main_call20_v13 main_call20_v14 main_v98 (select : (⟨S1x4096x4096, .i1⟩ : BufTy).Contents (Elt F) → (⟨S1x4096x4096, .f32⟩ : BufTy).Contents (Elt F) → (⟨S1x4096x4096, .f32⟩ : BufTy).Contents (Elt F) → (⟨S1x4096x4096, .f32⟩ : BufTy).Contents (Elt F)),
    reshape main_v98 main_v99 rfl shapeCasts_S1x4096x4096_S4096x4096 ]

/-- Operations 181 … 202 of 208. The neighbour's type picked by direction, before its leading axis is dropped (`main_v100`). -/
abbrev opsH : List (HloOp τ sig (Elt F)) :=
  [ nullary main_call21_c (constantI S_ 32 0#32 : (⟨S_, .i32⟩ : BufTy).Contents (Elt F)),
    unary main_call21_c main_call21_v0 (broadcastInDim S1x4096x4096 ![] bcast_S_S1x4096x4096 : (⟨S_, .i32⟩ : BufTy).Contents (Elt F) → (⟨S1x4096x4096, .i32⟩ : BufTy).Contents (Elt F)),
    binary main_v97 main_call21_v0 main_call21_v1 (cmpi .slt : (⟨S1x4096x4096, .i32⟩ : BufTy).Contents (Elt F) → (⟨S1x4096x4096, .i32⟩ : BufTy).Contents (Elt F) → (⟨S1x4096x4096, .i1⟩ : BufTy).Contents (Elt F)),
    nullary main_call21_c_0 (constantI S_ 32 4#32 : (⟨S_, .i32⟩ : BufTy).Contents (Elt F)),
    unary main_call21_c_0 main_call21_v2 (broadcastInDim S1x4096x4096 ![] bcast_S_S1x4096x4096 : (⟨S_, .i32⟩ : BufTy).Contents (Elt F) → (⟨S1x4096x4096, .i32⟩ : BufTy).Contents (Elt F)),
    binary main_v97 main_call21_v2 main_call21_v3 (addi : (⟨S1x4096x4096, .i32⟩ : BufTy).Contents (Elt F) → (⟨S1x4096x4096, .i32⟩ : BufTy).Contents (Elt F) → (⟨S1x4096x4096, .i32⟩ : BufTy).Contents (Elt F)),
    ternary main_call21_v1 main_call21_v3 main_v97 main_call21_v4 (select : (⟨S1x4096x4096, .i1⟩ : BufTy).Contents (Elt F) → (⟨S1x4096x4096, .i32⟩ : BufTy).Contents (Elt F) → (⟨S1x4096x4096, .i32⟩ : BufTy).Contents (Elt F) → (⟨S1x4096x4096, .i32⟩ : BufTy).Contents (Elt F)),
    reshape main_call21_v4 main_call21_v5 rfl shapeCasts_S1x4096x4096_S1x4096x4096x1,
    nullary main_call21_c_1 (constantI S1 32 3#32 : (⟨S1, .i32⟩ : BufTy).Contents (Elt F)),
    nullary main_call21_c_2 (constantI S_ 32 0#32 : (⟨S_, .i32⟩ : BufTy).Contents (Elt F)),
    unary main_call21_c_2 main_call21_v6 (broadcastInDim S1x4096x4096x1 ![] bcast_S_S1x4096x4096x1 : (⟨S_, .i32⟩ : BufTy).Contents (Elt F) → (⟨S1x4096x4096x1, .i32⟩ : BufTy).Contents (Elt F)),
    binary main_call21_v5 main_call21_v6 main_call21_v7 (cmpi .sge : (⟨S1x4096x4096x1, .i32⟩ : BufTy).Contents (Elt F) → (⟨S1x4096x4096x1, .i32⟩ : BufTy).Contents (Elt F) → (⟨S1x4096x4096x1, .i1⟩ : BufTy).Contents (Elt F)),
    unary main_call21_c_1 main_call21_v8 (broadcastInDim S1x1x1x1 ![3] bcast_S1_S1x1x1x1_3 : (⟨S1, .i32⟩ : BufTy).Contents (Elt F) → (⟨S1x1x1x1, .i32⟩ : BufTy).Contents (Elt F)),
    unary main_call21_v8 main_call21_v9 (broadcastInDim S1x4096x4096x1 ![0, 1, 2, 3] bcast_S1x1x1x1_S1x4096x4096x1_0_1_2_3 : (⟨S1x1x1x1, .i32⟩ : BufTy).Contents (Elt F) → (⟨S1x4096x4096x1, .i32⟩ : BufTy).Contents (Elt F)),
    binary main_call21_v5 main_call21_v9 main_call21_v10 (cmpi .sle : (⟨S1x4096x4096x1, .i32⟩ : BufTy).Contents (Elt F) → (⟨S1x4096x4096x1, .i32⟩ : BufTy).Contents (Elt F) → (⟨S1x4096x4096x1, .i1⟩ : BufTy).Contents (Elt F)),
    binary main_call21_v7 main_call21_v10 main_call21_v11 (andi : (⟨S1x4096x4096x1, .i1⟩ : BufTy).Contents (Elt F) → (⟨S1x4096x4096x1, .i1⟩ : BufTy).Contents (Elt F) → (⟨S1x4096x4096x1, .i1⟩ : BufTy).Contents (Elt F)),
    nullary main_call21_c_3 (constantI S_ 1 1#1 : (⟨S_, .i1⟩ : BufTy).Contents (Elt F)),
    binary main_call21_v11 main_call21_c_3 main_call21_v12 (fun x v => Host.reduce IntOp.andi x v reducesTo_S1x4096x4096x1_S1x4096x4096_d3 h_S_ : (⟨S1x4096x4096x1, .i1⟩ : BufTy).Contents (Elt F) → (⟨S_, .i1⟩ : BufTy).Contents (Elt F) → (⟨S1x4096x4096, .i1⟩ : BufTy).Contents (Elt F)),
    binary main_v96 main_call21_v5 main_call21_v13 (fun x i => Host.gather gather_S4x4096x4096_S1x4096x4096x1_S1x4096x4096_n_0_12_12_0_3_111 x i : (⟨S4x4096x4096, .f32⟩ : BufTy).Contents (Elt F) → (⟨S1x4096x4096x1, .i32⟩ : BufTy).Contents (Elt F) → (⟨S1x4096x4096, .f32⟩ : BufTy).Contents (Elt F)),
    nullary main_call21_cst (constant S_ .f32 0x7FC00000#32 : (⟨S_, .f32⟩ : BufTy).Contents (Elt F)),
    unary main_call21_cst main_call21_v14 (broadcastInDim S1x4096x4096 ![] bcast_S_S1x4096x4096 : (⟨S_, .f32⟩ : BufTy).Contents (Elt F) → (⟨S1x4096x4096, .f32⟩ : BufTy).Contents (Elt F)),
    ternary main_call21_v12 main_call21_v13 main_call21_v14 main_v100 (select : (⟨S1x4096x4096, .i1⟩ : BufTy).Contents (Elt F) → (⟨S1x4096x4096, .f32⟩ : BufTy).Contents (Elt F) → (⟨S1x4096x4096, .f32⟩ : BufTy).Contents (Elt F) → (⟨S1x4096x4096, .f32⟩ : BufTy).Contents (Elt F)) ]

/-- Operations 203 … 208 of 208. The picked type with its axis dropped, the comparison of the probability with the picked weight, the choice between the neighbour's type and the site's own, and the result: the new types stacked over the profits (`main_v106`). -/
abbrev opsI : List (HloOp τ sig (Elt F)) :=
  [ reshape main_v100 main_v101 rfl shapeCasts_S1x4096x4096_S4096x4096,
    binary main_arg2 main_v99 main_v102 (cmpf .ole : (⟨S4096x4096, .f32⟩ : BufTy).Contents (Elt F) → (⟨S4096x4096, .f32⟩ : BufTy).Contents (Elt F) → (⟨S4096x4096, .i1⟩ : BufTy).Contents (Elt F)),
    ternary main_v102 main_v101 main_arg0 main_v103 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v103 main_v104 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v42 main_v105 (broadcastInDim S1x4096x4096 ![1, 2] bcast_S4096x4096_S1x4096x4096_1_2 : (⟨S4096x4096, .f32⟩ : BufTy).Contents (Elt F) → (⟨S1x4096x4096, .f32⟩ : BufTy).Contents (Elt F)),
    binary main_v104 main_v105 main_v106 catPlanes ]

/-- @main's 208 operations in order: the stretches end to end. -/
abbrev ops : List (HloOp τ sig (Elt F)) :=
  opsA ++ (opsB ++ (opsC ++ (opsD ++ (opsE ++ (opsF ++ (opsG ++ (opsH ++ opsI)))))))

/-! ## The program is the list

@main is printed in three windows; each is its stretches run in order, by unfolding alone (a called function's body
stands at its call, spelt over the call's buffers at their own types, and the named joins open to the printed ones). -/

theorem part0_eq (c : Dev nD) : main_part0 (F := F) c = seq (opsA ++ (opsB ++ opsC)) := by chain_rfl
theorem part1_eq (c : Dev nD) : main_part1 (F := F) c = seq (opsD ++ (opsE ++ (opsF ++ (opsG ++ opsH)))) := by chain_rfl
theorem part2_eq (c : Dev nD) : main_part2 (F := F) c = seq opsI := by chain_rfl

theorem main_eq (c : Dev nD) : main (F := F) c = seq ops := by
  have e : (ops : List (HloOp τ sig (Elt F)))
      = (opsA ++ (opsB ++ opsC)) ++ ((opsD ++ (opsE ++ (opsF ++ (opsG ++ opsH)))) ++ opsI) := by
    simp only [List.append_assoc]
  rw [e, seq_append (opsA ++ (opsB ++ opsC)), seq_append (opsD ++ (opsE ++ (opsF ++ (opsG ++ opsH)))) opsI,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

/-- A property of every element of two lists holds of every element of their concatenation. -/
theorem forall_append' {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem subA : (opsA : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., unary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub ..⟩
theorem subB : (opsB : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub .., binary_bufs_sub .., binary_bufs_sub .., binary_bufs_sub .., binary_bufs_sub ..⟩
theorem subC : (opsC : List (HloOp τ sig (Elt F))).Forall fun op => op.bufs ⊆ tcRefs τ sig :=
  ⟨unary_bufs_sub .., unary_bufs_sub .., binary_bufs_sub .., binary_bufs_sub .., nullary_bufs_sub .., unary_bufs_sub ..,
    binary_bufs_sub .., unary_bufs_sub .., unary_bufs_sub .., nullary_bufs_sub .., unary_bufs_sub .., binary_bufs_sub ..⟩
theorem subD : (opsD : List (HloOp τ sig (Elt F))).Forall fun op => op.bufs ⊆ tcRefs τ sig :=
  ⟨nullary_bufs_sub .., unary_bufs_sub .., binary_bufs_sub .., unary_bufs_sub .., unary_bufs_sub .., binary_bufs_sub ..,
    binary_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩
theorem subE : (opsE : List (HloOp τ sig (Elt F))).Forall fun op => op.bufs ⊆ tcRefs τ sig :=
  ⟨unary_bufs_sub .., unary_bufs_sub .., binary_bufs_sub .., binary_bufs_sub .., nullary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., unary_bufs_sub .., unary_bufs_sub ..⟩
theorem subF : (opsF : List (HloOp τ sig (Elt F))).Forall fun op => op.bufs ⊆ tcRefs τ sig :=
  ⟨nary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., unary_bufs_sub .., unary_bufs_sub ..⟩
theorem subG : (opsG : List (HloOp τ sig (Elt F))).Forall fun op => op.bufs ⊆ tcRefs τ sig :=
  ⟨nary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub ..⟩
theorem subH : (opsH : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩
theorem subI : (opsI : List (HloOp τ sig (Elt F))).Forall fun op => op.bufs ⊆ tcRefs τ sig :=
  ⟨reshape_bufs_sub .., binary_bufs_sub .., ternary_bufs_sub .., unary_bufs_sub .., unary_bufs_sub .., binary_bufs_sub ..⟩

theorem ops_sub : (ops : List (HloOp τ sig (Elt F))).Forall fun op => op.bufs ⊆ tcRefs τ sig :=
  forall_append' subA (forall_append' subB (forall_append' subC (forall_append' subD (forall_append' subE
    (forall_append' subF (forall_append' subG (forall_append' subH subI)))))))

theorem freshA : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩
theorem freshB : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
theorem freshC : (opsC : List (HloOp τ sig (Elt F))).Forall fun op => op.fresh = ∅ :=
  ⟨rfl, rfl, rfl, rfl, rfl, rfl, rfl, rfl, rfl, rfl, rfl, rfl⟩
theorem freshD : (opsD : List (HloOp τ sig (Elt F))).Forall fun op => op.fresh = ∅ :=
  ⟨rfl, rfl, rfl, rfl, rfl, rfl, rfl, rfl, rfl, rfl, rfl, rfl, rfl, rfl, rfl, rfl, rfl, rfl⟩
theorem freshE : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem freshF : (opsF : List (HloOp τ sig (Elt F))).Forall fun op => op.fresh = ∅ :=
  ⟨rfl, rfl, rfl, rfl, rfl, rfl, rfl, rfl, rfl, rfl, rfl, rfl, rfl, rfl, rfl, rfl, rfl⟩
theorem freshG : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩
theorem freshH : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩
theorem freshI : (opsI : List (HloOp τ sig (Elt F))).Forall fun op => op.fresh = ∅ :=
  ⟨rfl, rfl, rfl, rfl, rfl, rfl⟩

theorem ops_fresh : ∀ op ∈ (ops : List (HloOp τ sig (Elt F))), op.fresh = ∅ :=
  List.forall_iff_forall_mem.1 (forall_append' freshA (forall_append' freshB (forall_append' freshC (forall_append' freshD
    (forall_append' freshE (forall_append' freshF (forall_append' freshG (forall_append' freshH freshI))))))))

/-! ## What a valuation holds at a cut point -/

/-- The three argument arrays: the types, the direction words, the probabilities. -/
structure Args (x0 : (⟨S4096x4096, .f32⟩ : BufTy).Contents (Elt F)) (x1 : (⟨S4096x4096, .i32⟩ : BufTy).Contents (Elt F)) (x2 : (⟨S4096x4096, .f32⟩ : BufTy).Contents (Elt F)) (W : Valuation τ sig (Elt F)) : Prop where
  a0 : W (Proc.devRef .tc main_arg0) = x0
  a1 : W (Proc.devRef .tc main_arg1) = x1
  a2 : W (Proc.devRef .tc main_arg2) = x2

/-- After the first stretch: the two indicators and the two shares. -/
structure Cut1 (x0 : (⟨S4096x4096, .f32⟩ : BufTy).Contents (Elt F)) (W : Valuation τ sig (Elt F)) : Prop where
  v2 : W (Proc.devRef .tc main_v2) = ReadP.val_main_v2 (F := F) x0
  v5 : W (Proc.devRef .tc main_v5) = ReadP.val_main_v5 (F := F) x0
  v19 : W (Proc.devRef .tc main_v19) = ReadP.val_main_v19 (F := F) x0
  v23 : W (Proc.devRef .tc main_v23) = ReadP.val_main_v23 (F := F) x0

/-- After the second: the profit, which every later stretch but one reads. -/
structure Cut2 (x0 : (⟨S4096x4096, .f32⟩ : BufTy).Contents (Elt F)) (W : Valuation τ sig (Elt F)) : Prop where
  v42 : W (Proc.devRef .tc main_v42) = ReadP.val_main_v42 (F := F) x0

/-- After the third: with it the first weight's denominator. -/
structure Cut3 (x0 : (⟨S4096x4096, .f32⟩ : BufTy).Contents (Elt F)) (W : Valuation τ sig (Elt F)) : Prop where
  v42 : W (Proc.devRef .tc main_v42) = ReadP.val_main_v42 (F := F) x0
  v50 : W (Proc.devRef .tc main_v50) = ReadP.val_main_v50 (F := F) x0

/-- After the fourth: the first two weights. -/
structure Cut4 (x0 : (⟨S4096x4096, .f32⟩ : BufTy).Contents (Elt F)) (W : Valuation τ sig (Elt F)) : Prop where
  v42 : W (Proc.devRef .tc main_v42) = ReadP.val_main_v42 (F := F) x0
  v52 : W (Proc.devRef .tc main_v52) = ReadP.val_main_v52 (F := F) x0
  v62 : W (Proc.devRef .tc main_v62) = ReadP.val_main_v62 (F := F) x0

/-- After the fifth: the four weights, each with its leading unit axis. -/
structure Cut5 (x0 : (⟨S4096x4096, .f32⟩ : BufTy).Contents (Elt F)) (W : Valuation τ sig (Elt F)) : Prop where
  v42 : W (Proc.devRef .tc main_v42) = ReadP.val_main_v42 (F := F) x0
  v83 : W (Proc.devRef .tc main_v83) = ReadP.val_main_v83 (F := F) x0
  v84 : W (Proc.devRef .tc main_v84) = ReadP.val_main_v84 (F := F) x0
  v85 : W (Proc.devRef .tc main_v85) = ReadP.val_main_v85 (F := F) x0
  v86 : W (Proc.devRef .tc main_v86) = ReadP.val_main_v86 (F := F) x0

/-- After the sixth: the weights stacked, and the four neighbours' types. -/
structure Cut6 (x0 : (⟨S4096x4096, .f32⟩ : BufTy).Contents (Elt F)) (W : Valuation τ sig (Elt F)) : Prop where
  v42 : W (Proc.devRef .tc main_v42) = ReadP.val_main_v42 (F := F) x0
  v87 : W (Proc.devRef .tc main_v87) = ReadP.val_main_v87 (F := F) x0
  v92 : W (Proc.devRef .tc main_v92) = ReadP.val_main_v92 (F := F) x0
  v93 : W (Proc.devRef .tc main_v93) = ReadP.val_main_v93 (F := F) x0
  v94 : W (Proc.devRef .tc main_v94) = ReadP.val_main_v94 (F := F) x0
  v95 : W (Proc.devRef .tc main_v95) = ReadP.val_main_v95 (F := F) x0

/-- After the seventh: the neighbours' types stacked, the direction words, the picked weight. -/
structure Cut7 (x0 : (⟨S4096x4096, .f32⟩ : BufTy).Contents (Elt F)) (x1 : (⟨S4096x4096, .i32⟩ : BufTy).Contents (Elt F)) (W : Valuation τ sig (Elt F)) : Prop where
  v42 : W (Proc.devRef .tc main_v42) = ReadP.val_main_v42 (F := F) x0
  v96 : W (Proc.devRef .tc main_v96) = ReadP.val_main_v96 (F := F) x0
  v97 : W (Proc.devRef .tc main_v97) = ReadP.val_main_v97 (F := F) x1
  v99 : W (Proc.devRef .tc main_v99) = ReadP.val_main_v99 (F := F) x0 x1

/-- After the eighth: the picked weight and the picked neighbour's type. -/
structure Cut8 (x0 : (⟨S4096x4096, .f32⟩ : BufTy).Contents (Elt F)) (x1 : (⟨S4096x4096, .i32⟩ : BufTy).Contents (Elt F)) (W : Valuation τ sig (Elt F)) : Prop where
  v42 : W (Proc.devRef .tc main_v42) = ReadP.val_main_v42 (F := F) x0
  v99 : W (Proc.devRef .tc main_v99) = ReadP.val_main_v99 (F := F) x0 x1
  v100 : W (Proc.devRef .tc main_v100) = ReadP.val_main_v100 (F := F) x0 x1

/-! ## One stage's goal

`after stretch W` at a buffer the stretch writes is that operation's function of what its operands hold, and so on
down to the buffers the stretch only reads, where it is `W`; at a buffer it does not write it is `W` there. Once
`W` at the buffers read is replaced by the stage values the cut point before gives, what is left is the definition
of the stage value claimed. -/

open Lean in
/-- `stage [h₁, …, hₙ]`: the run of a stretch at one buffer, the hypotheses `hᵢ : W ‹buffer› = ‹its stage value›`
    put in wherever that buffer is read. -/
macro "stage" "[" hs:term,* "]" : tactic => do
  let ts ← hs.getElems.mapM fun h => `(tactic| try rw [$h:term])
  `(tactic| (after_results_simp; $[$ts:tactic];*; all_goals (first | rfl | assumption)))

open Lean in
/-- `stage_stack [h₁, h₂, h₃, h₄]`: the same at the result of a stretch's FIRST operation when that is a stack of four
    buffers: its operands are what `W` holds at the four, each put in, and the four-piece join is then the stage
    value's by definition. -/
macro "stage_stack" "[" hs:term,* "]" : tactic => do
  let ts ← hs.getElems.mapM fun h => `(tactic| rw [$h:term])
  `(tactic| (simp (disch := decide) only [after_cons, after_nil, nary4_result', nullary_result_ne', unary_result_ne',
               binary_result_ne', ternary_result_ne', reshape_result_ne', nary_result_ne'];
             $[$ts:tactic];*; rfl))

end Cert.ReferenceIdeal.HandRun

end
-- ==== Proof.RefRunA.lean ====
/-
  The reference's run, stretches one to three: from the argument arrays to the profit and the first Fermi weight's
  denominator. Each lemma takes what the cut point before says of a valuation `W` and gives what the next says of
  `after ‹stretch› W`: at a buffer the stretch writes, the operations' functions of what they read, which is the stage
  value by definition once the values read are the earlier stage values; at a buffer it only passes, `W` there.
-/
import proofs.«410334_j7902739824972_3_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S4096x4096, .f32⟩ : BufTy).Contents (Elt F)} {x1 : (⟨S4096x4096, .i32⟩ : BufTy).Contents (Elt F)} {x2 : (⟨S4096x4096, .f32⟩ : BufTy).Contents (Elt F)} {W : Valuation τ sig (Elt F)}

/-- No operation of the stretch writes an argument array. -/
theorem argsA (a : Args x0 x1 x2 W) : Args x0 x1 x2 (after opsA W) := by
  obtain ⟨a0, a1, a2⟩ := a
  constructor <;> stage [a0, a1, a2]

/-- The indicators compare the types with the words `1.0` and `0.0`; the cooperators' five-point sum adds to the
    indicator its four rolls, one join each; the shares divide the sum by `5.0` and multiply by `r`, the
    cooperator's then less `1.0`. -/
theorem stepA (a : Args x0 x1 x2 W) : Cut1 x0 (after opsA W) := by
  obtain ⟨a0, a1, a2⟩ := a
  constructor <;> stage [a0]

/-- No operation of the stretch writes an argument array. -/
theorem argsB (a : Args x0 x1 x2 W) : Args x0 x1 x2 (after opsB W) := by
  obtain ⟨a0, a1, a2⟩ := a
  constructor <;> stage [a0, a1, a2]

/-- Each share's five-point sum is again the share plus its four rolls; the profit is the cooperator's sum times the
    cooperators plus the defector's sum times the defectors. -/
theorem stepB (h : Cut1 x0 W) : Cut2 x0 (after opsB W) := by
  obtain ⟨v2, v5, v19, v23⟩ := h
  constructor <;> stage [v2, v5, v19, v23]

/-- No operation of the stretch writes an argument array. -/
theorem argsC (a : Args x0 x1 x2 W) : Args x0 x1 x2 (after opsC W) := by
  obtain ⟨a0, a1, a2⟩ := a
  constructor <;> stage [a0, a1, a2]

/-- The profit rolled one column back, less the profit, over the temperature, negated, exponentiated, plus one. -/
theorem stepC (h : Cut2 x0 W) : Cut3 x0 (after opsC W) := by
  obtain ⟨v42⟩ := h
  constructor <;> stage [v42]

end Cert.ReferenceIdeal.HandRun

end
-- ==== Proof.RefRunB.lean ====
/-
  The reference's run, stretches four and five: the four Fermi weights, each `1 / (1 + exp (-(Δ / 0.1)))` of the
  profit rolled one step less the profit, and their leading unit axes.
-/
import proofs.«410334_j7902739824972_3_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S4096x4096, .f32⟩ : BufTy).Contents (Elt F)} {x1 : (⟨S4096x4096, .i32⟩ : BufTy).Contents (Elt F)} {x2 : (⟨S4096x4096, .f32⟩ : BufTy).Contents (Elt F)} {W : Valuation τ sig (Elt F)}

/-- No operation of the stretch writes an argument array. -/
theorem argsD (a : Args x0 x1 x2 W) : Args x0 x1 x2 (after opsD W) := by
  obtain ⟨a0, a1, a2⟩ := a
  constructor <;> stage [a0, a1, a2]

/-- The first weight is one over the denominator the cut point holds; the second repeats the chain on the profit
    rolled one column ahead. -/
theorem stepD (h : Cut3 x0 W) : Cut4 x0 (after opsD W) := by
  obtain ⟨v42, v50⟩ := h
  constructor <;> stage [v42, v50]

/-- No operation of the stretch writes an argument array. -/
theorem argsE (a : Args x0 x1 x2 W) : Args x0 x1 x2 (after opsE W) := by
  obtain ⟨a0, a1, a2⟩ := a
  constructor <;> stage [a0, a1, a2]

/-- The third and fourth weights repeat the chain on the profit rolled one row back and one row ahead; then each of
    the four weights is broadcast to a leading unit axis. -/
theorem stepE (h : Cut4 x0 W) : Cut5 x0 (after opsE W) := by
  obtain ⟨v42, v52, v62⟩ := h
  constructor <;> stage [v42, v52, v62]

end Cert.ReferenceIdeal.HandRun

end
-- ==== Proof.RefRunC.lean ====
/-
  The reference's run, stretches six to nine: the weights and the neighbours' types stacked, the pick by the direction
  word (twice: the weight, the type), and the update with the stacked result.
-/
import proofs.«410334_j7902739824972_3_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S4096x4096, .f32⟩ : BufTy).Contents (Elt F)} {x1 : (⟨S4096x4096, .i32⟩ : BufTy).Contents (Elt F)} {x2 : (⟨S4096x4096, .f32⟩ : BufTy).Contents (Elt F)} {W : Valuation τ sig (Elt F)}

/-- No operation of the stretch writes an argument array. -/
theorem argsF (a : Args x0 x1 x2 W) : Args x0 x1 x2 (after opsF W) := by
  obtain ⟨a0, a1, a2⟩ := a
  constructor <;> stage [a0, a1, a2]

/-- The four weights are stacked along the new axis; the type field is rolled one step each way along each axis, and
    each roll given its leading unit axis. -/
theorem stepF (a : Args x0 x1 x2 W) (h : Cut5 x0 W) : Cut6 x0 (after opsF W) := by
  obtain ⟨a0, a1, a2⟩ := a
  obtain ⟨v42, v83, v84, v85, v86⟩ := h
  constructor
  case v87 => stage_stack [v83, v84, v85, v86]
  all_goals stage [a0, v42]

/-- No operation of the stretch writes an argument array. -/
theorem argsG (a : Args x0 x1 x2 W) : Args x0 x1 x2 (after opsG W) := by
  obtain ⟨a0, a1, a2⟩ := a
  constructor <;> stage [a0, a1, a2]

/-- The neighbours' types are stacked; the direction words get their unit axis; the pick normalises a negative index
    by adding four, checks it lies in `0 … 3`, gathers along the stacked axis and guards the result by the check;
    the picked weight then drops its unit axis. -/
theorem stepG (a : Args x0 x1 x2 W) (h : Cut6 x0 W) : Cut7 x0 x1 (after opsG W) := by
  obtain ⟨a0, a1, a2⟩ := a
  obtain ⟨v42, v87, v92, v93, v94, v95⟩ := h
  constructor
  case v96 => stage_stack [v92, v93, v94, v95]
  all_goals stage [a1, v42, v87]

/-- No operation of the stretch writes an argument array. -/
theorem argsH (a : Args x0 x1 x2 W) : Args x0 x1 x2 (after opsH W) := by
  obtain ⟨a0, a1, a2⟩ := a
  constructor <;> stage [a0, a1, a2]

/-- The same pick among the neighbours' types. -/
theorem stepH (h : Cut7 x0 x1 W) : Cut8 x0 x1 (after opsH W) := by
  obtain ⟨v42, v96, v97, v99⟩ := h
  constructor <;> stage [v42, v96, v97, v99]

/-- No operation of the stretch writes an argument array. -/
theorem argsI (a : Args x0 x1 x2 W) : Args x0 x1 x2 (after opsI W) := by
  obtain ⟨a0, a1, a2⟩ := a
  constructor <;> stage [a0, a1, a2]

/-- A site takes the picked neighbour's type where its probability is at most the picked weight and keeps its own
    otherwise; the result stacks the new types over the profits. -/
theorem stepI (a : Args x0 x1 x2 W) (h : Cut8 x0 x1 W) :
    after opsI W (Proc.devRef .tc main_v106) = ReadP.val_main_v106 (F := F) x0 x1 x2 := by
  obtain ⟨a0, a1, a2⟩ := a
  obtain ⟨v42, v99, v100⟩ := h
  stage [a0, a2, v42, v99, v100]

end Cert.ReferenceIdeal.HandRun

end
-- ==== Proof.RefRun.lean ====
/-
  The reference program's run: every weakly fair execution ends with the result buffer at the last stage's value of the
  argument arrays, and the arguments as they were.

  The program is a straight line of 208 host operations (RefRunOps.lean), so its run from the launch contents is the
  fold of the operations' results. The fold over the whole line is the fold over its nine stretches in turn; each
  stretch carries the stage values at one cut point to those at the next (RefRunA.lean, RefRunB.lean, RefRunC.lean),
  and the last leaves the result buffer at `ReadP.val_main_v106` of the three argument arrays.
-/
import proofs.«410334_j7902739824972_3_alg».proof.Proof.RefRunA
import proofs.«410334_j7902739824972_3_alg».proof.Proof.RefRunB
import proofs.«410334_j7902739824972_3_alg».proof.Proof.RefRunC

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The nine stretches in a row: from a valuation that holds the argument arrays, the fold of all 208 operations
    holds them still, and holds the last stage's value at the result buffer. -/
theorem after_ops {x0 : (⟨S4096x4096, .f32⟩ : BufTy).Contents (Elt F)} {x1 : (⟨S4096x4096, .i32⟩ : BufTy).Contents (Elt F)} {x2 : (⟨S4096x4096, .f32⟩ : BufTy).Contents (Elt F)} {V : Valuation τ sig (Elt F)} (a : Args x0 x1 x2 V) :
    Args x0 x1 x2 (after ops V)
      ∧ after ops V (Proc.devRef .tc main_v106) = ReadP.val_main_v106 (F := F) x0 x1 x2 := by
  have e : after (ops : List (HloOp τ sig (Elt F))) V
      = after opsI (after opsH (after opsG (after opsF (after opsE (after opsD (after opsC (after opsB (after opsA V)))))))) := by
    simp only [ops, StableHlo.after_append]
  have aA := argsA a
  have cA := stepA a
  have aB := argsB aA
  have cB := stepB cA
  have aC := argsC aB
  have cC := stepC cB
  have aD := argsD aC
  have cD := stepD cC
  have aE := argsE aD
  have cE := stepE cD
  have aF := argsF aE
  have cF := stepF aE cE
  have aG := argsG aF
  have cG := stepG aF cF
  have aH := argsH aG
  have cH := stepH cG
  rw [e]
  exact ⟨argsI aH, stepI aH cH⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106)
        = ReadP.val_main_v106 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- every final state has each buffer at the fold of the 208 operations over the launch contents; the launch contents
  -- hold the argument arrays (that is what they are), so the fold ends as `after_ops` says
  (θ_run defs _ _).mono
    (fun _ h c => by
      have a : Args (F := F) (m ((c.tc : Thread nD τ).loc main_arg0)) (m ((c.tc : Thread nD τ).loc main_arg1))
          (m ((c.tc : Thread nD τ).loc main_arg2)) (launchContents m c) := ⟨rfl, rfl, rfl⟩
      obtain ⟨⟨a0, a1, a2⟩, r⟩ := after_ops a
      exact ⟨(h c main_v106).trans r, (h c main_arg0).trans a0, (h c main_arg1).trans a1, (h c main_arg2).trans a2⟩)
    (run_seq scopedRefs_eq scopedSems_eq defs main (fun _ => ops) main_eq (fun _ => ops_sub) m ρ (fun _ => ops_fresh))

end Cert.ReferenceIdeal.HandRun

end
-- ==== Proof.RefRolls.lean ====
/-
  The four ring rolls the reference forms, read at a site. A roll by one along an axis is printed as two slices of
  the array joined back in the other order: the band of extent one that wraps round, and the band of extent 4095
  that merely shifts. At a site the joined array therefore reads the original one step down the ring on that axis
  (the wrapped band first) or one step up (the wrapped band last). Each lemma splits on whether the site's
  coordinate on the rolled axis falls in the wrapped band.
-/
import proofs.«410334_j7902739824972_3_alg».proof.Proof.Gen.ReferenceIdeal
import proofs.«410334_j7902739824972_3_alg».proof.Proof.Lattice
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx Cert.Lattice

variable {α : Type}

/-- Rows rolled down by one: row 0 takes row 4095, every other row the row before it. -/
theorem roll_rowPrv (y : S4096x4096.Idx → α) (p q : Fin 4096) :
    concatenate S4096x4096 0
      [⟨S1x4096, extractStridedSlice S1x4096 ![4095, 0] y slices_S4096x4096_S1x4096_4095_0⟩,
       ⟨S4095x4096, extractStridedSlice S4095x4096 ![0, 0] y slices_S4096x4096_S4095x4096_0_0⟩]
      concatenates_S1x4096_S4095x4096_S4096x4096_d0 (ix2 p q) = y (ix2 (prv p) q) := by
  have hp := p.isLt
  by_cases h0 : p.val = 0
  · -- the wrapped band: row 0 of the joined array is row 4095
    refine (concatenate_pair_apply_left (s₁ := S1x4096) (s₂ := S4095x4096) 0 _ _ _ (ix2 p q) rfl (ix2 (0 : Fin 1) q) (fun b => ?_)).trans ?_
    · match b with
      | ⟨0, _⟩ => show (0 : Nat) = p.val; omega
      | ⟨1, _⟩ => rfl
    · refine extractStridedSlice_apply _ _ _ _ (ix2 (prv p) q) (fun a => ?_)
      match a with
      | ⟨0, _⟩ => show (p.val + 4095) % 4096 = 4095 + 0; omega
      | ⟨1, _⟩ => show q.val = 0 + q.val; omega
  · -- the shifted band: row p of the joined array is row p - 1
    refine (concatenate_pair_apply_right (s₁ := S1x4096) (s₂ := S4095x4096) 0 _ _ _ (ix2 p q) rfl rfl
      (ix2 (⟨p.val - 1, by omega⟩ : Fin 4095) q) (fun b hb => ?_) ?_).trans ?_
    · match b, hb with
      | ⟨0, _⟩, hb => exact absurd rfl hb
      | ⟨1, _⟩, _ => rfl
    · show p.val - 1 + 1 = p.val; omega
    · refine extractStridedSlice_apply _ _ _ _ (ix2 (prv p) q) (fun a => ?_)
      match a with
      | ⟨0, _⟩ => show (p.val + 4095) % 4096 = 0 + (p.val - 1); omega
      | ⟨1, _⟩ => show q.val = 0 + q.val; omega

/-- Rows rolled up by one: row 4095 takes row 0, every other row the row after it. -/
theorem roll_rowNxt (y : S4096x4096.Idx → α) (p q : Fin 4096) :
    concatenate S4096x4096 0
      [⟨S4095x4096, extractStridedSlice S4095x4096 ![1, 0] y slices_S4096x4096_S4095x4096_1_0⟩,
       ⟨S1x4096, extractStridedSlice S1x4096 ![0, 0] y slices_S4096x4096_S1x4096_0_0⟩]
      concatenates_S4095x4096_S1x4096_S4096x4096_d0 (ix2 p q) = y (ix2 (nxt p) q) := by
  have hp := p.isLt
  by_cases h0 : p.val = 4095
  · -- the wrapped band: row 4095 of the joined array is row 0
    refine (concatenate_pair_apply_right (s₁ := S4095x4096) (s₂ := S1x4096) 0 _ _ _ (ix2 p q) rfl rfl
      (ix2 (0 : Fin 1) q) (fun b hb => ?_) ?_).trans ?_
    · match b, hb with
      | ⟨0, _⟩, hb => exact absurd rfl hb
      | ⟨1, _⟩, _ => rfl
    · show 0 + 4095 = p.val; omega
    · refine extractStridedSlice_apply _ _ _ _ (ix2 (nxt p) q) (fun a => ?_)
      match a with
      | ⟨0, _⟩ => show (p.val + 1) % 4096 = 0 + 0; omega
      | ⟨1, _⟩ => show q.val = 0 + q.val; omega
  · -- the shifted band: row p of the joined array is row p + 1
    refine (concatenate_pair_apply_left (s₁ := S4095x4096) (s₂ := S1x4096) 0 _ _ _ (ix2 p q) rfl
      (ix2 (⟨p.val, by omega⟩ : Fin 4095) q) (fun b => ?_)).trans ?_
    · match b with
      | ⟨0, _⟩ => rfl
      | ⟨1, _⟩ => rfl
    · refine extractStridedSlice_apply _ _ _ _ (ix2 (nxt p) q) (fun a => ?_)
      match a with
      | ⟨0, _⟩ => show (p.val + 1) % 4096 = 1 + p.val; omega
      | ⟨1, _⟩ => show q.val = 0 + q.val; omega

/-- Columns rolled down by one: column 0 takes column 4095, every other column the column before it. -/
theorem roll_colPrv (y : S4096x4096.Idx → α) (p q : Fin 4096) :
    concatenate S4096x4096 1
      [⟨S4096x1, extractStridedSlice S4096x1 ![0, 4095] y slices_S4096x4096_S4096x1_0_4095⟩,
       ⟨S4096x4095, extractStridedSlice S4096x4095 ![0, 0] y slices_S4096x4096_S4096x4095_0_0⟩]
      concatenates_S4096x1_S4096x4095_S4096x4096_d1 (ix2 p q) = y (ix2 p (prv q)) := by
  have hq := q.isLt
  by_cases h0 : q.val = 0
  · -- the wrapped band: column 0 of the joined array is column 4095
    refine (concatenate_pair_apply_left (s₁ := S4096x1) (s₂ := S4096x4095) 1 _ _ _ (ix2 p q) rfl (ix2 p (0 : Fin 1)) (fun b => ?_)).trans ?_
    · match b with
      | ⟨0, _⟩ => rfl
      | ⟨1, _⟩ => show (0 : Nat) = q.val; omega
    · refine extractStridedSlice_apply _ _ _ _ (ix2 p (prv q)) (fun a => ?_)
      match a with
      | ⟨0, _⟩ => show p.val = 0 + p.val; omega
      | ⟨1, _⟩ => show (q.val + 4095) % 4096 = 4095 + 0; omega
  · -- the shifted band: column q of the joined array is column q - 1
    refine (concatenate_pair_apply_right (s₁ := S4096x1) (s₂ := S4096x4095) 1 _ _ _ (ix2 p q) rfl rfl
      (ix2 p (⟨q.val - 1, by omega⟩ : Fin 4095)) (fun b hb => ?_) ?_).trans ?_
    · match b, hb with
      | ⟨0, _⟩, _ => rfl
      | ⟨1, _⟩, hb => exact absurd rfl hb
    · show q.val - 1 + 1 = q.val; omega
    · refine extractStridedSlice_apply _ _ _ _ (ix2 p (prv q)) (fun a => ?_)
      match a with
      | ⟨0, _⟩ => show p.val = 0 + p.val; omega
      | ⟨1, _⟩ => show (q.val + 4095) % 4096 = 0 + (q.val - 1); omega

/-- Columns rolled up by one: column 4095 takes column 0, every other column the column after it. -/
theorem roll_colNxt (y : S4096x4096.Idx → α) (p q : Fin 4096) :
    concatenate S4096x4096 1
      [⟨S4096x4095, extractStridedSlice S4096x4095 ![0, 1] y slices_S4096x4096_S4096x4095_0_1⟩,
       ⟨S4096x1, extractStridedSlice S4096x1 ![0, 0] y slices_S4096x4096_S4096x1_0_0⟩]
      concatenates_S4096x4095_S4096x1_S4096x4096_d1 (ix2 p q) = y (ix2 p (nxt q)) := by
  have hq := q.isLt
  by_cases h0 : q.val = 4095
  · -- the wrapped band: column 4095 of the joined array is column 0
    refine (concatenate_pair_apply_right (s₁ := S4096x4095) (s₂ := S4096x1) 1 _ _ _ (ix2 p q) rfl rfl
      (ix2 p (0 : Fin 1)) (fun b hb => ?_) ?_).trans ?_
    · match b, hb with
      | ⟨0, _⟩, _ => rfl
      | ⟨1, _⟩, hb => exact absurd rfl hb
    · show 0 + 4095 = q.val; omega
    · refine extractStridedSlice_apply _ _ _ _ (ix2 p (nxt q)) (fun a => ?_)
      match a with
      | ⟨0, _⟩ => show p.val = 0 + p.val; omega
      | ⟨1, _⟩ => show (q.val + 1) % 4096 = 0 + 0; omega
  · -- the shifted band: column q of the joined array is column q + 1
    refine (concatenate_pair_apply_left (s₁ := S4096x4095) (s₂ := S4096x1) 1 _ _ _ (ix2 p q) rfl
      (ix2 p (⟨q.val, by omega⟩ : Fin 4095)) (fun b => ?_)).trans ?_
    · match b with
      | ⟨0, _⟩ => rfl
      | ⟨1, _⟩ => rfl
    · refine extractStridedSlice_apply _ _ _ _ (ix2 p (nxt q)) (fun a => ?_)
      match a with
      | ⟨0, _⟩ => show p.val = 0 + p.val; omega
      | ⟨1, _⟩ => show (q.val + 1) % 4096 = 1 + q.val; omega

end Cert.ReferenceIdeal.RefValue

end
-- ==== Proof.RefProfit.lean ====
/-
  The reference's profit stage read at an index: it is the lattice's profit in the reference's form.

  The stages, in the program's order. The type field compared with the word `1.0` (resp. `0.0`) and converted
  back to a float is the cooperator (resp. defector) indicator. Adding to a field its four ring rolls, in the order
  row before, row after, column before, column after, is the five-point sum `plus5` of that field. The five-point
  sum of the cooperators, divided by the word `5.0` and multiplied by the word for `r`, is a group's share; the
  cooperator's share is one less. The profit is the five-point sum of the cooperator's shares times the cooperator
  indicator, plus the five-point sum of the plain shares times the defector indicator.
-/
import proofs.«410334_j7902739824972_3_alg».proof.Proof.RefRead
import proofs.«410334_j7902739824972_3_alg».proof.Proof.Lattice
import proofs.«410334_j7902739824972_3_alg».proof.Proof.RefRolls

noncomputable section

namespace Cert.ReferenceIdeal.RefValue

open Cert.ReferenceIdeal Cert.ReferenceIdeal.Gen Idealize.ShloMosaic Idealize.ShloMosaic.ValueIdx Cert.Lattice

/-- An equality test converted to a float is the indicator: the one-bit answer read as a natural number is 1 or 0. -/
theorem uitofp_oeq (x w : EReal) :
    FloatOps.uitofp (F := Ideal) .f32 (FloatOps.cmpf (F := Ideal) (φ := .f32) .oeq x w) = ind x w := by
  show (((Ideal.cmp .oeq x w).toNat : ℝ) : EReal) = ind x w
  unfold Ideal.cmp ind
  by_cases h : x = w <;> simp [h]

/-- A field plus its four rolls, added in the program's order, is the five-point sum. -/
theorem plus5_read (f : Field) (p q : Fin 4096) :
    FloatOps.addf (F := Ideal) (φ := .f32) (FloatOps.addf (F := Ideal) (φ := .f32) (FloatOps.addf (F := Ideal) (φ := .f32)
      (FloatOps.addf (F := Ideal) (φ := .f32) (f p q) (f (prv p) q)) (f (nxt p) q)) (f p (prv q))) (f p (nxt q))
      = plus5 f p q := rfl

variable (X : (⟨S4096x4096, .f32⟩ : BufTy).Contents (Elt Ideal))

/-! ### The two indicators -/

theorem coop_at (p q : Fin 4096) : ReadP.val_main_v2 (F := Ideal) X (ix2 p q) = coop X p q := by
  rw [ReadP.val_main_v2_apply, ReadP.val_main_v1_apply, ReadP.val_main_v0_apply, ReadP.val_main_cst_apply]
  exact uitofp_oeq _ _

theorem defect_at (p q : Fin 4096) : ReadP.val_main_v5 (F := Ideal) X (ix2 p q) = defect X p q := by
  rw [ReadP.val_main_v5_apply, ReadP.val_main_v4_apply, ReadP.val_main_v3_apply, ReadP.val_main_cst_0_apply]
  exact uitofp_oeq _ _

/-! ### The cooperators' five-point sum -/

theorem v6_at (p q : Fin 4096) :
    ReadP.val_main_v6 (F := Ideal) X (ix2 p q) = ReadP.val_main_v2 (F := Ideal) X (ix2 (prv p) q) := roll_rowPrv _ p q
theorem v8_at (p q : Fin 4096) :
    ReadP.val_main_v8 (F := Ideal) X (ix2 p q) = ReadP.val_main_v2 (F := Ideal) X (ix2 (nxt p) q) := roll_rowNxt _ p q
theorem v10_at (p q : Fin 4096) :
    ReadP.val_main_v10 (F := Ideal) X (ix2 p q) = ReadP.val_main_v2 (F := Ideal) X (ix2 p (prv q)) := roll_colPrv _ p q
theorem v12_at (p q : Fin 4096) :
    ReadP.val_main_v12 (F := Ideal) X (ix2 p q) = ReadP.val_main_v2 (F := Ideal) X (ix2 p (nxt q)) := roll_colNxt _ p q

theorem count_at (p q : Fin 4096) : ReadP.val_main_v13 (F := Ideal) X (ix2 p q) = plus5 (coop X) p q := by
  rw [ReadP.val_main_v13_apply, ReadP.val_main_v11_apply, ReadP.val_main_v9_apply, ReadP.val_main_v7_apply,
    v6_at, v8_at, v10_at, v12_at]
  simp only [coop_at]
  exact plus5_read (coop X) p q

/-! ### A group's share, plain and the cooperator's -/

theorem share_at (p q : Fin 4096) : ReadP.val_main_v23 (F := Ideal) X (ix2 p q) = shareR X p q := by
  rw [ReadP.val_main_v23_apply, ReadP.val_main_v21_apply, ReadP.val_main_v22_apply, ReadP.val_main_cst_5_apply,
    ReadP.val_main_v20_apply, ReadP.val_main_cst_4_apply, count_at]
  rfl

theorem cshare_at (p q : Fin 4096) : ReadP.val_main_v19 (F := Ideal) X (ix2 p q) = shareR X p q - one := by
  rw [ReadP.val_main_v19_apply, ReadP.val_main_v17_apply, ReadP.val_main_v15_apply, ReadP.val_main_v14_apply,
    ReadP.val_main_cst_1_apply, ReadP.val_main_v16_apply, ReadP.val_main_cst_2_apply, ReadP.val_main_v18_apply,
    ReadP.val_main_cst_3_apply, count_at]
  rfl

/-! ### The cooperator's five-group sum -/

theorem v24_at (p q : Fin 4096) :
    ReadP.val_main_v24 (F := Ideal) X (ix2 p q) = ReadP.val_main_v19 (F := Ideal) X (ix2 (prv p) q) := roll_rowPrv _ p q
theorem v26_at (p q : Fin 4096) :
    ReadP.val_main_v26 (F := Ideal) X (ix2 p q) = ReadP.val_main_v19 (F := Ideal) X (ix2 (nxt p) q) := roll_rowNxt _ p q
theorem v28_at (p q : Fin 4096) :
    ReadP.val_main_v28 (F := Ideal) X (ix2 p q) = ReadP.val_main_v19 (F := Ideal) X (ix2 p (prv q)) := roll_colPrv _ p q
theorem v30_at (p q : Fin 4096) :
    ReadP.val_main_v30 (F := Ideal) X (ix2 p q) = ReadP.val_main_v19 (F := Ideal) X (ix2 p (nxt q)) := roll_colNxt _ p q

theorem csum_at (p q : Fin 4096) :
    ReadP.val_main_v31 (F := Ideal) X (ix2 p q) = plus5 (fun a b => shareR X a b - one) p q := by
  rw [ReadP.val_main_v31_apply, ReadP.val_main_v29_apply, ReadP.val_main_v27_apply, ReadP.val_main_v25_apply,
    v24_at, v26_at, v28_at, v30_at]
  simp only [cshare_at]
  exact plus5_read (fun a b => shareR X a b - one) p q

/-! ### The defector's five-group sum -/

theorem v32_at (p q : Fin 4096) :
    ReadP.val_main_v32 (F := Ideal) X (ix2 p q) = ReadP.val_main_v23 (F := Ideal) X (ix2 (prv p) q) := roll_rowPrv _ p q
theorem v34_at (p q : Fin 4096) :
    ReadP.val_main_v34 (F := Ideal) X (ix2 p q) = ReadP.val_main_v23 (F := Ideal) X (ix2 (nxt p) q) := roll_rowNxt _ p q
theorem v36_at (p q : Fin 4096) :
    ReadP.val_main_v36 (F := Ideal) X (ix2 p q) = ReadP.val_main_v23 (F := Ideal) X (ix2 p (prv q)) := roll_colPrv _ p q
theorem v38_at (p q : Fin 4096) :
    ReadP.val_main_v38 (F := Ideal) X (ix2 p q) = ReadP.val_main_v23 (F := Ideal) X (ix2 p (nxt q)) := roll_colNxt _ p q

theorem dsum_at (p q : Fin 4096) : ReadP.val_main_v39 (F := Ideal) X (ix2 p q) = plus5 (shareR X) p q := by
  rw [ReadP.val_main_v39_apply, ReadP.val_main_v37_apply, ReadP.val_main_v35_apply, ReadP.val_main_v33_apply,
    v32_at, v34_at, v36_at, v38_at]
  simp only [share_at]
  exact plus5_read (shareR X) p q

/-! ### The profit -/

/-- The stage that holds the profit, at a site. -/
theorem profit_at (X : (⟨S4096x4096, .f32⟩ : BufTy).Contents (Elt Ideal)) (p q : Fin 4096) :
    ReadP.val_main_v42 (F := Ideal) X (ix2 p q) = profitR X p q := by
  rw [ReadP.val_main_v42_apply, ReadP.val_main_v40_apply, ReadP.val_main_v41_apply, csum_at, dsum_at, coop_at,
    defect_at]
  rfl

end Cert.ReferenceIdeal.RefValue

end
-- ==== Proof.RefUpdate.lean ====
/-
  The reference's result read at an index: plane 0 the update, plane 1 the profit, in the reference's form.

  After the profit the reference forms four Fermi weights, one for each neighbour on the ring (the column before, the
  column after, the row before, the row after), each the logistic of the neighbour's profit less the site's own over the
  temperature, spelt as a quotient of one by one plus an exponential. It stacks the four weights, and likewise the four
  rolled copies of the type field, on a new leading axis, and takes from each stack the plane the site's direction word
  names. That take tests the word against the stack's extent and reads through a gather that clamps; where every word
  is one of 0 … 3 the test holds everywhere and the clamp is idle, so the take is the plain choice among four. The site
  then adopts the chosen neighbour's type when its probability is at most the chosen weight.
-/
import proofs.«410334_j7902739824972_3_alg».proof.Proof.RefProfit
import proofs.«410334_j7902739824972_3_alg».proof.Proof.RefRolls
import Idealize.ShloMosaic.PureOps.Reduce

noncomputable section

namespace Cert.ReferenceIdeal.RefValue

open Cert.ReferenceIdeal Cert.ReferenceIdeal.Gen Idealize.ShloMosaic Idealize.ShloMosaic.ValueIdx Cert.Lattice

/-! The stages on the way, kept in a namespace of their own. -/
namespace Update

/-! ### Words -/

/-- A 32-bit word whose signed value lies in [0, 4) is one of the four words 0, 1, 2, 3. -/
theorem dir_cases (d : BitVec 32) (h : 0 ≤ d.toInt ∧ d.toInt < 4) : d = 0#32 ∨ d = 1#32 ∨ d = 2#32 ∨ d = 3#32 := by
  have h0 := h.1
  have h1 := h.2
  have hc : d.toInt = 0 ∨ d.toInt = 1 ∨ d.toInt = 2 ∨ d.toInt = 3 := by omega
  rcases hc with e | e | e | e
  · exact Or.inl (BitVec.eq_of_toInt_eq (e.trans (by decide)))
  · exact Or.inr (Or.inl (BitVec.eq_of_toInt_eq (e.trans (by decide))))
  · exact Or.inr (Or.inr (Or.inl (BitVec.eq_of_toInt_eq (e.trans (by decide)))))
  · exact Or.inr (Or.inr (Or.inr (BitVec.eq_of_toInt_eq (e.trans (by decide)))))

/-- A fold by "and" from the bit 1 over bits that are all 1 is 1. -/
theorem foldl_and_ones {ι : Type} (f : ι → BitVec 1) (hf : ∀ i, f i = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_and_ones f hf l

/-- A reduction by "and" from 1 of an array of bits that are all 1 is 1 at every index. -/
theorem reduce_and_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_and_ones x hx _

/-- The choice a one-bit comparison "at most" makes is the choice the order makes. -/
theorem select_ole {α : Type} (a b : Ideal .f32) (u v : α) :
    Scalar.select (FloatOps.cmpf (F := Ideal) .ole a b) u v = if a ≤ b then u else v := by
  show (if BitVec.ofBool (decide (a ≤ b)) = 1 then u else v) = _
  by_cases h : a ≤ b <;> simp [h]

/-! ### The stack of four planes and the take from it -/

/-- A stack of four planes on a new leading axis, read at one of its planes: that plane. -/
theorem stack4_at {α : Type} (x0 x1 x2 x3 : S1x4096x4096.Idx → α) (p q : Fin 4096) :
    let C := concatenate S4x4096x4096 0
      [⟨S1x4096x4096, x0⟩, ⟨S1x4096x4096, x1⟩, ⟨S1x4096x4096, x2⟩, ⟨S1x4096x4096, x3⟩]
      concatenates_S1x4096x4096_S1x4096x4096_S1x4096x4096_S1x4096x4096_S4x4096x4096_d0
    C (ix3 (0 : Fin 4) p q) = x0 (ix3 (0 : Fin 1) p q) ∧ C (ix3 (1 : Fin 4) p q) = x1 (ix3 (0 : Fin 1) p q) ∧
    C (ix3 (2 : Fin 4) p q) = x2 (ix3 (0 : Fin 1) p q) ∧ C (ix3 (3 : Fin 4) p q) = x3 (ix3 (0 : Fin 1) p q) := by
  intro C
  have off : ∀ (k : Fin 4) (b : Fin S1x4096x4096.rank), b.cast (rfl : S1x4096x4096.rank = S4x4096x4096.rank) ≠ 0 →
      ((ix3 (0 : Fin 1) p q) b).val = ((ix3 k p q) (b.cast rfl)).val := fun k b hb =>
    match b, hb with
    | ⟨0, _⟩, hb => absurd rfl hb
    | ⟨1, _⟩, _ => rfl
    | ⟨2, _⟩, _ => rfl
  refine ⟨?_, ?_, ?_, ?_⟩
  · exact concatenate_apply_piece 0 _ _ (ix3 (0 : Fin 4) p q) 0 (by show (0 : Nat) < 4; omega) S1x4096x4096 x0 rfl rfl 0 (by rfl)
      (ix3 (0 : Fin 1) p q) (off 0) (by rfl)
  · exact concatenate_apply_piece 0 _ _ (ix3 (1 : Fin 4) p q) 1 (by show (1 : Nat) < 4; omega) S1x4096x4096 x1 rfl rfl 1 (by rfl)
      (ix3 (0 : Fin 1) p q) (off 1) (by rfl)
  · exact concatenate_apply_piece 0 _ _ (ix3 (2 : Fin 4) p q) 2 (by show (2 : Nat) < 4; omega) S1x4096x4096 x2 rfl rfl 2 (by rfl)
      (ix3 (0 : Fin 1) p q) (off 2) (by rfl)
  · exact concatenate_apply_piece 0 _ _ (ix3 (3 : Fin 4) p q) 3 (by show (3 : Nat) < 4; omega) S1x4096x4096 x3 rfl rfl 3 (by rfl)
      (ix3 (0 : Fin 1) p q) (off 3) (by rfl)

local notation "gDims" => gather_S4x4096x4096_S1x4096x4096x1_S1x4096x4096_n_0_12_12_0_3_111

/-- The gather along the leading axis at a site: the stack's plane named by the site's start index, read signed and
    clamped into the stack's extent, at that site. -/
theorem gather_at {α : Type} (x : S4x4096x4096.Idx → α) (idx : IVec S1x4096x4096x1 32) (p q : Fin 4096) (k : Fin 4)
    (hk : k.val = min (idx (ix4 (0 : Fin 1) p q (0 : Fin 1))).toInt.toNat 3) :
    Host.gather gDims x idx (ix3 (0 : Fin 1) p q) = x (ix3 k p q) := by
  unfold Host.gather
  congr 1
  funext a
  refine Fin.ext ?_
  match a with
  | ⟨0, _⟩ =>
    show GatherDims.start gDims (ix3 (0 : Fin 1) p q) idx 0 + GatherDims.batchCoord gDims (ix3 (0 : Fin 1) p q) 0
      + GatherDims.offCoord gDims (ix3 (0 : Fin 1) p q) 0 = k.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 3) ∈ (GatherDims.startIndexMap gDims) from List.mem_singleton.mpr rfl)]
    have hsi : GatherDims.siIdx gDims (ix3 (0 : Fin 1) p q) ⟨List.idxOf (0 : Fin 3) (GatherDims.startIndexMap gDims),
        List.idxOf_lt_length_iff.2 (List.mem_singleton.mpr rfl)⟩ = ix4 (0 : Fin 1) p q (0 : Fin 1) := by
      funext b; refine Fin.ext ?_
      match b with
      | ⟨0, _⟩ => rfl
      | ⟨1, _⟩ => rfl
      | ⟨2, _⟩ => rfl
      | ⟨3, _⟩ => rfl
    rw [hsi, hk]
    rfl
  | ⟨1, _⟩ =>
    show GatherDims.start gDims (ix3 (0 : Fin 1) p q) idx 1 + GatherDims.batchCoord gDims (ix3 (0 : Fin 1) p q) 1
      + GatherDims.offCoord gDims (ix3 (0 : Fin 1) p q) 1 = p.val
    rw [GatherDims.start_batching _ _ _ _ (by decide),
      GatherDims.offCoord_eq_zero _ _ _ (fun h => ((GatherDims.mem_sKept _ _).mp h).2 (by decide))]
    simp only [Nat.add_zero, Nat.zero_add]
    rfl
  | ⟨2, _⟩ =>
    show GatherDims.start gDims (ix3 (0 : Fin 1) p q) idx 2 + GatherDims.batchCoord gDims (ix3 (0 : Fin 1) p q) 2
      + GatherDims.offCoord gDims (ix3 (0 : Fin 1) p q) 2 = q.val
    rw [GatherDims.start_batching _ _ _ _ (by decide),
      GatherDims.offCoord_eq_zero _ _ _ (fun h => ((GatherDims.mem_sKept _ _).mp h).2 (by decide))]
    simp only [Nat.add_zero, Nat.zero_add]
    rfl

/-! ### The reference's stages -/

section Stages

variable (X : (⟨S4096x4096, .f32⟩ : BufTy).Contents (Elt Ideal)) (D : (⟨S4096x4096, .i32⟩ : BufTy).Contents (Elt Ideal))
  (P : (⟨S4096x4096, .f32⟩ : BufTy).Contents (Elt Ideal))

/-- The weight toward the column before: the Fermi weight of that neighbour's profit less the site's own. -/
theorem weight_colPrv_at (p q : Fin 4096) :
    ReadP.val_main_v52 (F := Ideal) X (ix2 p q) = fermi (profitR X p (prv q) - profitR X p q) := by
  have hroll : ReadP.val_main_v43 (F := Ideal) X (ix2 p q) = ReadP.val_main_v42 (F := Ideal) X (ix2 p (prv q)) := by
    unfold ReadP.val_main_v43 ReadP.val_main_call12_v0 ReadP.val_main_call12_v1
    exact roll_colPrv _ p q
  rw [ReadP.val_main_v52_apply, ReadP.val_main_v51_apply, ReadP.val_main_cst_8_apply, ReadP.val_main_v50_apply,
    ReadP.val_main_v49_apply, ReadP.val_main_cst_7_apply, ReadP.val_main_v48_apply, ReadP.val_main_v47_apply,
    ReadP.val_main_v46_apply, ReadP.val_main_v45_apply, ReadP.val_main_cst_6_apply, ReadP.val_main_v44_apply,
    hroll, profit_at, profit_at]
  rfl

/-- The weight toward the column after. -/
theorem weight_colNxt_at (p q : Fin 4096) :
    ReadP.val_main_v62 (F := Ideal) X (ix2 p q) = fermi (profitR X p (nxt q) - profitR X p q) := by
  have hroll : ReadP.val_main_v53 (F := Ideal) X (ix2 p q) = ReadP.val_main_v42 (F := Ideal) X (ix2 p (nxt q)) := by
    unfold ReadP.val_main_v53 ReadP.val_main_call13_v0 ReadP.val_main_call13_v1
    exact roll_colNxt _ p q
  rw [ReadP.val_main_v62_apply, ReadP.val_main_v61_apply, ReadP.val_main_cst_11_apply, ReadP.val_main_v60_apply,
    ReadP.val_main_v59_apply, ReadP.val_main_cst_10_apply, ReadP.val_main_v58_apply, ReadP.val_main_v57_apply,
    ReadP.val_main_v56_apply, ReadP.val_main_v55_apply, ReadP.val_main_cst_9_apply, ReadP.val_main_v54_apply,
    hroll, profit_at, profit_at]
  rfl

/-- The weight toward the row before. -/
theorem weight_rowPrv_at (p q : Fin 4096) :
    ReadP.val_main_v72 (F := Ideal) X (ix2 p q) = fermi (profitR X (prv p) q - profitR X p q) := by
  have hroll : ReadP.val_main_v63 (F := Ideal) X (ix2 p q) = ReadP.val_main_v42 (F := Ideal) X (ix2 (prv p) q) := by
    unfold ReadP.val_main_v63 ReadP.val_main_call14_v0 ReadP.val_main_call14_v1
    exact roll_rowPrv _ p q
  rw [ReadP.val_main_v72_apply, ReadP.val_main_v71_apply, ReadP.val_main_cst_14_apply, ReadP.val_main_v70_apply,
    ReadP.val_main_v69_apply, ReadP.val_main_cst_13_apply, ReadP.val_main_v68_apply, ReadP.val_main_v67_apply,
    ReadP.val_main_v66_apply, ReadP.val_main_v65_apply, ReadP.val_main_cst_12_apply, ReadP.val_main_v64_apply,
    hroll, profit_at, profit_at]
  rfl

/-- The weight toward the row after. -/
theorem weight_rowNxt_at (p q : Fin 4096) :
    ReadP.val_main_v82 (F := Ideal) X (ix2 p q) = fermi (profitR X (nxt p) q - profitR X p q) := by
  have hroll : ReadP.val_main_v73 (F := Ideal) X (ix2 p q) = ReadP.val_main_v42 (F := Ideal) X (ix2 (nxt p) q) := by
    unfold ReadP.val_main_v73 ReadP.val_main_call15_v0 ReadP.val_main_call15_v1
    exact roll_rowNxt _ p q
  rw [ReadP.val_main_v82_apply, ReadP.val_main_v81_apply, ReadP.val_main_cst_17_apply, ReadP.val_main_v80_apply,
    ReadP.val_main_v79_apply, ReadP.val_main_cst_16_apply, ReadP.val_main_v78_apply, ReadP.val_main_v77_apply,
    ReadP.val_main_v76_apply, ReadP.val_main_v75_apply, ReadP.val_main_cst_15_apply, ReadP.val_main_v74_apply,
    hroll, profit_at, profit_at]
  rfl

/-- The four rolled copies of the type field, at a site: the four neighbours' types. -/
theorem neigh_colPrv_at (p q : Fin 4096) : ReadP.val_main_v88 (F := Ideal) X (ix2 p q) = X (ix2 p (prv q)) := by
  unfold ReadP.val_main_v88 ReadP.val_main_call16_v0 ReadP.val_main_call16_v1
  exact roll_colPrv X p q
theorem neigh_colNxt_at (p q : Fin 4096) : ReadP.val_main_v89 (F := Ideal) X (ix2 p q) = X (ix2 p (nxt q)) := by
  unfold ReadP.val_main_v89 ReadP.val_main_call17_v0 ReadP.val_main_call17_v1
  exact roll_colNxt X p q
theorem neigh_rowPrv_at (p q : Fin 4096) : ReadP.val_main_v90 (F := Ideal) X (ix2 p q) = X (ix2 (prv p) q) := by
  unfold ReadP.val_main_v90 ReadP.val_main_call18_v0 ReadP.val_main_call18_v1
  exact roll_rowPrv X p q
theorem neigh_rowNxt_at (p q : Fin 4096) : ReadP.val_main_v91 (F := Ideal) X (ix2 p q) = X (ix2 (nxt p) q) := by
  unfold ReadP.val_main_v91 ReadP.val_main_call19_v0 ReadP.val_main_call19_v1
  exact roll_rowNxt X p q

/-- The stack of the four weights, plane by plane. -/
theorem stackW_at (p q : Fin 4096) :
    ReadP.val_main_v87 (F := Ideal) X (ix3 (0 : Fin 4) p q) = fermi (profitR X p (prv q) - profitR X p q) ∧
    ReadP.val_main_v87 (F := Ideal) X (ix3 (1 : Fin 4) p q) = fermi (profitR X p (nxt q) - profitR X p q) ∧
    ReadP.val_main_v87 (F := Ideal) X (ix3 (2 : Fin 4) p q) = fermi (profitR X (prv p) q - profitR X p q) ∧
    ReadP.val_main_v87 (F := Ideal) X (ix3 (3 : Fin 4) p q) = fermi (profitR X (nxt p) q - profitR X p q) := by
  have hi83 : ReadP.idx_main_v83 (ix3 (0 : Fin 1) p q) = ix2 p q := by
    funext a; match a with | ⟨0, _⟩ => rfl | ⟨1, _⟩ => rfl
  have hi84 : ReadP.idx_main_v84 (ix3 (0 : Fin 1) p q) = ix2 p q := by
    funext a; match a with | ⟨0, _⟩ => rfl | ⟨1, _⟩ => rfl
  have hi85 : ReadP.idx_main_v85 (ix3 (0 : Fin 1) p q) = ix2 p q := by
    funext a; match a with | ⟨0, _⟩ => rfl | ⟨1, _⟩ => rfl
  have hi86 : ReadP.idx_main_v86 (ix3 (0 : Fin 1) p q) = ix2 p q := by
    funext a; match a with | ⟨0, _⟩ => rfl | ⟨1, _⟩ => rfl
  obtain ⟨h0, h1, h2, h3⟩ := stack4_at (ReadP.val_main_v83 (F := Ideal) X) (ReadP.val_main_v84 (F := Ideal) X)
    (ReadP.val_main_v85 (F := Ideal) X) (ReadP.val_main_v86 (F := Ideal) X) p q
  unfold ReadP.val_main_v87
  refine ⟨?_, ?_, ?_, ?_⟩
  · rw [h0, ReadP.val_main_v83_apply, hi83]; exact weight_colPrv_at X p q
  · rw [h1, ReadP.val_main_v84_apply, hi84]; exact weight_colNxt_at X p q
  · rw [h2, ReadP.val_main_v85_apply, hi85]; exact weight_rowPrv_at X p q
  · rw [h3, ReadP.val_main_v86_apply, hi86]; exact weight_rowNxt_at X p q

/-- The stack of the four rolled type fields, plane by plane. -/
theorem stackN_at (p q : Fin 4096) :
    ReadP.val_main_v96 (F := Ideal) X (ix3 (0 : Fin 4) p q) = X (ix2 p (prv q)) ∧
    ReadP.val_main_v96 (F := Ideal) X (ix3 (1 : Fin 4) p q) = X (ix2 p (nxt q)) ∧
    ReadP.val_main_v96 (F := Ideal) X (ix3 (2 : Fin 4) p q) = X (ix2 (prv p) q) ∧
    ReadP.val_main_v96 (F := Ideal) X (ix3 (3 : Fin 4) p q) = X (ix2 (nxt p) q) := by
  have hi92 : ReadP.idx_main_v92 (ix3 (0 : Fin 1) p q) = ix2 p q := by
    funext a; match a with | ⟨0, _⟩ => rfl | ⟨1, _⟩ => rfl
  have hi93 : ReadP.idx_main_v93 (ix3 (0 : Fin 1) p q) = ix2 p q := by
    funext a; match a with | ⟨0, _⟩ => rfl | ⟨1, _⟩ => rfl
  have hi94 : ReadP.idx_main_v94 (ix3 (0 : Fin 1) p q) = ix2 p q := by
    funext a; match a with | ⟨0, _⟩ => rfl | ⟨1, _⟩ => rfl
  have hi95 : ReadP.idx_main_v95 (ix3 (0 : Fin 1) p q) = ix2 p q := by
    funext a; match a with | ⟨0, _⟩ => rfl | ⟨1, _⟩ => rfl
  obtain ⟨h0, h1, h2, h3⟩ := stack4_at (ReadP.val_main_v92 (F := Ideal) X) (ReadP.val_main_v93 (F := Ideal) X)
    (ReadP.val_main_v94 (F := Ideal) X) (ReadP.val_main_v95 (F := Ideal) X) p q
  unfold ReadP.val_main_v96
  refine ⟨?_, ?_, ?_, ?_⟩
  · rw [h0, ReadP.val_main_v92_apply, hi92]; exact neigh_colPrv_at X p q
  · rw [h1, ReadP.val_main_v93_apply, hi93]; exact neigh_colNxt_at X p q
  · rw [h2, ReadP.val_main_v94_apply, hi94]; exact neigh_rowPrv_at X p q
  · rw [h3, ReadP.val_main_v95_apply, hi95]; exact neigh_rowNxt_at X p q

end Stages

/-! ### The take along the leading axis, where every direction word is one of 0 … 3 -/

section Take

variable (X : (⟨S4096x4096, .f32⟩ : BufTy).Contents (Elt Ideal)) (D : (⟨S4096x4096, .i32⟩ : BufTy).Contents (Elt Ideal))
  (P : (⟨S4096x4096, .f32⟩ : BufTy).Contents (Elt Ideal)) (hD : ∀ i, 0 ≤ (D i).toInt ∧ (D i).toInt < 4)

include hD

/-- The take's range test (the wrapped word is at least 0 and at most 3) holds at every index. -/
theorem inb_at (i : S1x4096x4096x1.Idx) : ReadP.val_main_call20_v11 (F := Ideal) D i = 1#1 := by
  rw [ReadP.val_main_call20_v11_apply, ReadP.val_main_call20_v7_apply, ReadP.val_main_call20_v10_apply,
    ReadP.val_main_call20_v6_apply, ReadP.val_main_call20_c_2_apply, ReadP.val_main_call20_v9_apply,
    ReadP.val_main_call20_v8_apply, ReadP.val_main_call20_c_1_apply, ReadP.val_main_call20_v5_apply,
    ReadP.val_main_call20_v4_apply, ReadP.val_main_call20_v1_apply, ReadP.val_main_call20_v3_apply,
    ReadP.val_main_call20_v0_apply, ReadP.val_main_call20_c_apply, ReadP.val_main_call20_v2_apply,
    ReadP.val_main_call20_c_0_apply, ReadP.val_main_v97_apply]
  have hd := hD (ReadP.idx_main_v97 (ReadP.idx_main_call20_v5 i))
  generalize D (ReadP.idx_main_v97 (ReadP.idx_main_call20_v5 i)) = d at hd ⊢
  rcases dir_cases d hd with rfl | rfl | rfl | rfl <;> decide

/-- The take's wrapped start index at a site is the site's direction word. -/
theorem widx_at (p q : Fin 4096) :
    ReadP.val_main_call20_v5 (F := Ideal) D (ix4 (0 : Fin 1) p q (0 : Fin 1)) = D (ix2 p q) := by
  have hi : ReadP.idx_main_v97 (ReadP.idx_main_call20_v5 (ix4 (0 : Fin 1) p q (0 : Fin 1))) = ix2 p q := by
    have hp := p.isLt
    have hq := q.isLt
    funext a
    match a with
    | ⟨0, _⟩ =>
      refine Fin.ext ?_
      show (((0 * 4096 + p.val) * 4096 + q.val) * 1 + 0) / 4096 % 4096 = p.val
      omega
    | ⟨1, _⟩ =>
      refine Fin.ext ?_
      show (((0 * 4096 + p.val) * 4096 + q.val) * 1 + 0) % 4096 = q.val
      omega
  rw [ReadP.val_main_call20_v5_apply, ReadP.val_main_call20_v4_apply, ReadP.val_main_call20_v1_apply,
    ReadP.val_main_call20_v3_apply, ReadP.val_main_call20_v0_apply, ReadP.val_main_call20_c_apply,
    ReadP.val_main_call20_v2_apply, ReadP.val_main_call20_c_0_apply, ReadP.val_main_v97_apply, hi]
  have hd := hD (ix2 p q)
  generalize D (ix2 p q) = d at hd ⊢
  rcases dir_cases d hd with rfl | rfl | rfl | rfl <;> decide

/-- The take from a stack of four planes at a site: the plane the site's direction word names. -/
theorem take_at {α : Type} (S : S4x4096x4096.Idx → α) (p q : Fin 4096) :
    Host.gather gDims S (ReadP.val_main_call20_v5 (F := Ideal) D) (ix3 (0 : Fin 1) p q)
      = pick (D (ix2 p q)) (S (ix3 (0 : Fin 4) p q)) (S (ix3 (1 : Fin 4) p q)) (S (ix3 (2 : Fin 4) p q))
          (S (ix3 (3 : Fin 4) p q)) := by
  have hw := widx_at D hD p q
  rcases dir_cases _ (hD (ix2 p q)) with e | e | e | e
  · rw [gather_at S _ p q (0 : Fin 4) (by rw [hw, e]; rfl), e]; rfl
  · rw [gather_at S _ p q (1 : Fin 4) (by rw [hw, e]; rfl), e]; rfl
  · rw [gather_at S _ p q (2 : Fin 4) (by rw [hw, e]; rfl), e]; rfl
  · rw [gather_at S _ p q (3 : Fin 4) (by rw [hw, e]; rfl), e]; rfl

/-- The take's range test, folded over its unit axis, holds at every site. -/
theorem test_at (j : S1x4096x4096.Idx) : ReadP.val_main_call20_v12 (F := Ideal) D j = 1#1 := by
  unfold ReadP.val_main_call20_v12
  exact reduce_and_ones _ _ _ _ j rfl (inb_at D hD)

omit hD in
/-- The second take's test and start indices are the first's: both are formed from the direction words alone. -/
theorem test21_eq : ReadP.val_main_call21_v12 (F := Ideal) D = ReadP.val_main_call20_v12 (F := Ideal) D := rfl
omit hD in
theorem widx21_eq : ReadP.val_main_call21_v5 (F := Ideal) D = ReadP.val_main_call20_v5 (F := Ideal) D := rfl

/-- The chosen weight at a site. -/
theorem pickW_at (p q : Fin 4096) :
    ReadP.val_main_v99 (F := Ideal) X D (ix2 p q)
      = pick (D (ix2 p q)) (fermi (profitR X p (prv q) - profitR X p q)) (fermi (profitR X p (nxt q) - profitR X p q))
          (fermi (profitR X (prv p) q - profitR X p q)) (fermi (profitR X (nxt p) q - profitR X p q)) := by
  have hi : ReadP.idx_main_v99 (ix2 p q) = ix3 (0 : Fin 1) p q := by
    have hp := p.isLt
    have hq := q.isLt
    funext a
    match a with
    | ⟨0, _⟩ => rfl
    | ⟨1, _⟩ => refine Fin.ext ?_; show (p.val * 4096 + q.val) / 4096 % 4096 = p.val; omega
    | ⟨2, _⟩ => refine Fin.ext ?_; show (p.val * 4096 + q.val) % 4096 = q.val; omega
  obtain ⟨h0, h1, h2, h3⟩ := stackW_at X p q
  rw [ReadP.val_main_v99_apply, hi, ReadP.val_main_v98_apply, test_at D hD, select_one]
  unfold ReadP.val_main_call20_v13
  rw [take_at D hD, h0, h1, h2, h3]

/-- The chosen neighbour's type at a site. -/
theorem pickN_at (p q : Fin 4096) :
    ReadP.val_main_v101 (F := Ideal) X D (ix2 p q) = neighbour X D p q := by
  have hi : ReadP.idx_main_v101 (ix2 p q) = ix3 (0 : Fin 1) p q := by
    have hp := p.isLt
    have hq := q.isLt
    funext a
    match a with
    | ⟨0, _⟩ => rfl
    | ⟨1, _⟩ => refine Fin.ext ?_; show (p.val * 4096 + q.val) / 4096 % 4096 = p.val; omega
    | ⟨2, _⟩ => refine Fin.ext ?_; show (p.val * 4096 + q.val) % 4096 = q.val; omega
  obtain ⟨h0, h1, h2, h3⟩ := stackN_at X p q
  rw [ReadP.val_main_v101_apply, hi, ReadP.val_main_v100_apply, test21_eq, test_at D hD, select_one]
  unfold ReadP.val_main_call21_v13
  rw [widx21_eq, take_at D hD, h0, h1, h2, h3]
  rfl

/-- The updated type at a site. -/
theorem newType_at (p q : Fin 4096) : ReadP.val_main_v103 (F := Ideal) X D P (ix2 p q) = newTypeR X D P p q := by
  rw [ReadP.val_main_v103_apply, ReadP.val_main_v102_apply, pickW_at X D hD, pickN_at X D hD, select_ole]
  rfl

end Take

end Update

open Update in
/-- Where every direction word is one of 0 … 3 the reference's result, coordinate by coordinate, is the lattice's in the
    reference's form. -/
theorem result_at (X : (⟨S4096x4096, .f32⟩ : BufTy).Contents (Elt Ideal)) (D : (⟨S4096x4096, .i32⟩ : BufTy).Contents (Elt Ideal))
    (P : (⟨S4096x4096, .f32⟩ : BufTy).Contents (Elt Ideal)) (hD : ∀ i, 0 ≤ (D i).toInt ∧ (D i).toInt < 4)
    (k : Fin 2) (p q : Fin 4096) :
    ReadP.val_main_v106 (F := Ideal) X D P (ix3 k p q) = outR X D P k p q := by
  unfold ReadP.val_main_v106
  match k with
  | ⟨0, _⟩ =>
    -- plane 0 of the joined result is the updated types
    have hi : ReadP.idx_main_v104 (ix3 (0 : Fin 1) p q) = ix2 p q := by
      funext a; match a with | ⟨0, _⟩ => rfl | ⟨1, _⟩ => rfl
    refine (concatenate_pair_apply_left (s₁ := S1x4096x4096) (s₂ := S1x4096x4096) 0 _ _ _ (ix3 (0 : Fin 2) p q) rfl
      (ix3 (0 : Fin 1) p q) (fun b => ?_)).trans ?_
    · match b with
      | ⟨0, _⟩ => rfl
      | ⟨1, _⟩ => rfl
      | ⟨2, _⟩ => rfl
    · rw [ReadP.val_main_v104_apply, hi, newType_at X D P hD]
      rfl
  | ⟨1, _⟩ =>
    -- plane 1 is the profits
    have hi : ReadP.idx_main_v105 (ix3 (0 : Fin 1) p q) = ix2 p q := by
      funext a; match a with | ⟨0, _⟩ => rfl | ⟨1, _⟩ => rfl
    refine (concatenate_pair_apply_right (s₁ := S1x4096x4096) (s₂ := S1x4096x4096) 0 _ _ _ (ix3 (1 : Fin 2) p q) rfl rfl
      (ix3 (0 : Fin 1) p q) (fun b hb => ?_) ?_).trans ?_
    · match b, hb with
      | ⟨0, _⟩, hb => exact absurd rfl hb
      | ⟨1, _⟩, _ => rfl
      | ⟨2, _⟩, _ => rfl
    · rfl
    · rw [ReadP.val_main_v105_apply, hi, profit_at]
      rfl

end Cert.ReferenceIdeal.RefValue

end
-- ==== Proof.Bridge.lean ====
/-
  The two spellings of the lattice's result agree wherever every type is the word 0.0 or the word 1.0.

  The road. The five float words that enter the comparison denote real numbers, read once each below; five times the
  folded word is exactly the reference's word. Under the hypothesis the cooperator indicator is the cast of a real
  number that is 0 or 1, so every five-point sum is the cast of a real five-point sum and the two share fields, then
  the two profit fields, are equal as real numbers. The Fermi weight is the logistic of the quotient by the temperature
  word, and picking one of four values commutes with applying a function to them.
-/
import proofs.«410334_j7902739824972_3_alg».proof.Proof.Lattice

noncomputable section

namespace Cert.Lattice

open Idealize.ShloMosaic Idealize.ShloMosaic.ValueIdx

namespace Bridge

/-! ### The words as real numbers -/

/-- The word `1.0` denotes one. -/
theorem one_eq : one = 1 := by
  simp [one, Ideal.ofBits, Ideal.ieee, -EReal.coe_mul]; norm_num

/-- The word `0.0` denotes zero. -/
theorem zero_eq : zero = 0 := by
  simp [zero, Ideal.ofBits, Ideal.ieee]

/-- The word `5.0` denotes five. -/
theorem five_eq : five = ((5 : ℝ) : EReal) := by
  simp [five, Ideal.ofBits, Ideal.ieee, -EReal.coe_mul]; norm_num

/-- The folded word: significand `2^23 + 8053064` at exponent `-24`. -/
theorem shareWord_eq : shareWord = ((16441672 / 2 ^ 24 : ℝ) : EReal) := by
  simp [shareWord, Ideal.ofBits, Ideal.ieee, -EReal.coe_mul]; norm_num

/-- The reference's word: significand `2^23 + 1887437` at exponent `-21`; it is five times the folded word, since
    `16441672 · 5 = 10276045 · 8`. -/
theorem rWord_eq : rWord = ((10276045 / 2 ^ 21 : ℝ) : EReal) := by
  simp [rWord, Ideal.ofBits, Ideal.ieee, -EReal.coe_mul]; norm_num

/-- The two type words are different values. -/
theorem one_ne_zero_word : one ≠ zero := by
  rw [one_eq, zero_eq]; exact one_ne_zero

/-! ### Five-point sums of real fields -/

/-- The five-point sum of a real field, in the same order. -/
def sum5 (f : Fin 4096 → Fin 4096 → ℝ) (p q : Fin 4096) : ℝ :=
  f p q + f (prv p) q + f (nxt p) q + f p (prv q) + f p (nxt q)

/-- The five-point sum of a cast field is the cast of the real five-point sum. -/
theorem plus5_coe (f : Fin 4096 → Fin 4096 → ℝ) (p q : Fin 4096) :
    plus5 (fun a b => ((f a b : ℝ) : EReal)) p q = ((sum5 f p q : ℝ) : EReal) := by
  simp only [plus5, sum5, EReal.coe_add]

/-- Taking one off every site takes five off the five-point sum. -/
theorem sum5_sub_one (f : Fin 4096 → Fin 4096 → ℝ) (p q : Fin 4096) :
    sum5 (fun a b => f a b - 1) p q = sum5 f p q - 5 := by
  unfold sum5; ring

section

variable (X : SLat.Idx → EReal)

/-! ### The cooperators and the shares as real fields -/

/-- The cooperator indicator as a real number. -/
def coopR (p q : Fin 4096) : ℝ := if X (ix2 p q) = one then 1 else 0

theorem coop_coe (p q : Fin 4096) : coop X p q = ((coopR X p q : ℝ) : EReal) := by
  unfold coop ind coopR; split_ifs <;> simp

theorem coop_fun : coop X = fun a b => ((coopR X a b : ℝ) : EReal) := by
  funext a b; exact coop_coe X a b

/-- The group share as a real number: the count times the folded word's value. -/
def shareRe (p q : Fin 4096) : ℝ := sum5 (coopR X) p q * (16441672 / 2 ^ 24)

theorem shareK_coe (p q : Fin 4096) : shareK X p q = ((shareRe X p q : ℝ) : EReal) := by
  unfold shareK shareRe
  rw [coop_fun, plus5_coe, shareWord_eq, ← EReal.coe_mul]

theorem shareK_fun : shareK X = fun a b => ((shareRe X a b : ℝ) : EReal) := by
  funext a b; exact shareK_coe X a b

/-- The reference's share is the same real number: a fifth of the count times five folded words. -/
theorem shareR_eq_shareK : shareR X = shareK X := by
  funext p q
  rw [shareK_coe]; unfold shareR shareRe
  rw [coop_fun, plus5_coe, five_eq, Ideal.div_coe (by norm_num), rWord_eq, ← EReal.coe_mul, ← EReal.coe_mul]
  congr 1; ring

/-! ### The profits -/

/-- The kernel's profit as a real number. -/
theorem profitK_coe (p q : Fin 4096) :
    profitK X p q = ((sum5 (shareRe X) p q - 5 * coopR X p q : ℝ) : EReal) := by
  unfold profitK
  rw [shareK_fun, plus5_coe, five_eq, coop_coe, ← EReal.coe_mul, ← EReal.coe_sub]

/-- With every site a defector or a cooperator the two indicators at a site are 0 and 1 in one order or the other, and
    the reference's recombination is the kernel's profit. -/
theorem profitR_eq_profitK (hX : ∀ i, X i = zero ∨ X i = one) : profitR X = profitK X := by
  funext p q
  rw [profitK_coe]; unfold profitR
  have h1 : (fun a b => shareR X a b - one) = fun a b => ((shareRe X a b - 1 : ℝ) : EReal) := by
    funext a b; rw [shareR_eq_shareK, shareK_coe, one_eq, ← EReal.coe_one, ← EReal.coe_sub]
  rw [h1, shareR_eq_shareK, shareK_fun, plus5_coe, plus5_coe, coop_coe, sum5_sub_one]
  rcases hX (ix2 p q) with h | h
  · have hc : coopR X p q = 0 := by
      unfold coopR; rw [if_neg]; rw [h]; exact one_ne_zero_word.symm
    have hd : defect X p q = 1 := by unfold defect ind; rw [if_pos h]
    rw [hc, hd]; simp
  · have hc : coopR X p q = 1 := by unfold coopR; rw [if_pos h]
    have hd : defect X p q = 0 := by
      unfold defect ind; rw [if_neg]; rw [h]; exact one_ne_zero_word
    rw [hc, hd]; simp

end

/-! ### The weight and the pick -/

/-- The reference's Fermi weight is the logistic of the quotient by the temperature word. -/
theorem fermi_eq (delta : EReal) : fermi delta = Ideal.logistic (Ideal.div delta tempWord) := by
  unfold fermi Ideal.logistic; rw [one_eq]

/-- Picking among the images is the image of the pick. -/
theorem pick_map {α β : Type} (f : α → β) (d : BitVec 32) (a0 a1 a2 a3 : α) :
    pick d (f a0) (f a1) (f a2) (f a3) = f (pick d a0 a1 a2 a3) := by
  unfold pick; split_ifs <;> rfl

end Bridge

open Bridge in
/-- Where every site is a defector or a cooperator the reference's result is the kernel's, coordinate by coordinate. -/
theorem outR_eq_outK (X : SLat.Idx → EReal) (D : SLat.Idx → BitVec 32) (P : SLat.Idx → EReal)
    (hX : ∀ i, X i = zero ∨ X i = one) (k : Fin 2) (p q : Fin 4096) :
    outR X D P k p q = outK X D P k p q := by
  unfold outR outK
  rw [profitR_eq_profitK X hX]
  split_ifs with hk
  · unfold newTypeR newTypeK
    simp only [profitR_eq_profitK X hX, fermi_eq]
    rw [pick_map (fun a => Ideal.logistic (Ideal.div (a - profitK X p q) tempWord))]
  · rfl

end Cert.Lattice

end
-- ==== Proof.PreFacts.lean ====
/-
  What the stated precondition says of the inputs, entry by entry: every type is the word 0.0 or the word 1.0, and every
  direction word is one of 0, 1, 2, 3.

  The printed precondition is a conjunction of four scalars, each the conjunction over all 4096 × 4096 entries of an
  entrywise test: the types finite, the probabilities finite, each type equal to the word 0.0 or to the word 1.0, and
  each direction word at least 0 and below 4, read signed. A conjunction of bits is 1 only where every bit is 1, so
  from the whole being 1 the third and the fourth test hold at every entry; over the extended reals the ordered
  equality test is 1 exactly on equal operands, and the signed comparisons are 1 exactly where the signed readings
  compare.
-/
import proofs.«410334_j7902739824972_3_alg».proof.Pre_finite_inputs
import proofs.«410334_j7902739824972_3_alg».proof.Proof.Gen.Pre_finite_inputs
import proofs.«410334_j7902739824972_3_alg».proof.Proof.Lattice
import Idealize.ShloMosaic.PureOps.Ideal
import Idealize.ShloMosaic.Lib.ReduceAll

noncomputable section

namespace Cert.PreFacts

open Idealize.ShloMosaic Cert.Pre_finite_inputs

variable [Cert.Pre_finite_inputs.Facts]

/-- The scalar shape has one index. -/
instance : Subsingleton S_.Idx := ⟨fun a b => funext fun d => d.elim0⟩

/-- A boolean's bit is 1 exactly when the boolean is true. -/
theorem ofBool_eq_one (b : Bool) : BitVec.ofBool b = 1#1 ↔ b = true := by cases b <;> decide

/-- Over the extended reals the ordered equality test is 1 exactly on equal operands. -/
theorem cmp_oeq_eq_one (x y : EReal) : Ideal.cmp .oeq x y = 1#1 ↔ x = y := by
  unfold Ideal.cmp
  simp only [ofBool_eq_one, decide_eq_true_eq]

/-- The third and the fourth conjunct of the precondition at one entry: the type passes one of the two equality
    tests, and the direction word passes both signed comparisons. -/
theorem entrywise (X : FVec Ideal S4096x4096 .f32) (D : IVec S4096x4096 32) (P : FVec Ideal S4096x4096 .f32)
    (h : Cert.Pre_finite_inputs.fn (F := Ideal) X D P = fun _ => 1#1) (i : S4096x4096.Idx) :
    (Ideal.cmp .oeq (X i) (Ideal.ofBits .f32 0x00000000#32) = 1#1 ∨ Ideal.cmp .oeq (X i) (Ideal.ofBits .f32 0x3F800000#32) = 1#1)
      ∧ (0#32 : BitVec 32).toInt ≤ (D i).toInt ∧ (D i).toInt < (4#32 : BitVec 32).toInt := by
  -- the one scalar the predicate returns, as the printed chain of operations
  have e := congrFun h ValueIdx.ix0
  dsimp only [Cert.Pre_finite_inputs.fn, Cert.Pre_finite_inputs.fn_part1] at e
  -- the outer conjunction: (finite ∧ finite ∧ types binary) ∧ directions in range
  change IntOp.andi _ _ = 1#1 at e
  obtain ⟨e15, e21⟩ := IntOp.andi_eq_one.1 e
  change IntOp.andi _ _ = 1#1 at e15
  obtain ⟨-, e14⟩ := IntOp.andi_eq_one.1 e15
  -- each conjunction over all entries, read at entry i
  have hx := Host.reduce_andi_all _ _ _ _ _ e14 i
  have hd := Host.reduce_andi_all _ _ _ _ _ e21 i
  clear e e15 e14 e21
  dsimp only [ori, andi, cmpf, cmpi, broadcastInDim, constant, constantI] at hx hd
  rw [IntOp.ori_eq_one] at hx
  rw [IntOp.andi_eq_one, IntOp.cmpi_sge, IntOp.cmpi_slt] at hd
  exact ⟨hx, hd⟩

/-- Under the precondition every entry of the type field is a defector's or a cooperator's word. -/
theorem types_binary (X : FVec Ideal S4096x4096 .f32) (D : IVec S4096x4096 32) (P : FVec Ideal S4096x4096 .f32)
    (h : Cert.Pre_finite_inputs.fn (F := Ideal) X D P = fun _ => 1#1) :
    ∀ i, X i = Cert.Lattice.zero ∨ X i = Cert.Lattice.one := by
  intro i
  rcases (entrywise X D P h i).1 with h0 | h1
  · exact Or.inl ((cmp_oeq_eq_one _ _).1 h0)
  · exact Or.inr ((cmp_oeq_eq_one _ _).1 h1)

/-- Under the precondition every direction word, read signed, lies in 0 … 3. -/
theorem directions_in_range (X : FVec Ideal S4096x4096 .f32) (D : IVec S4096x4096 32) (P : FVec Ideal S4096x4096 .f32)
    (h : Cert.Pre_finite_inputs.fn (F := Ideal) X D P = fun _ => 1#1) :
    ∀ i, 0 ≤ (D i).toInt ∧ (D i).toInt < 4 := by
  intro i
  have h0 : (0#32 : BitVec 32).toInt = 0 := by decide
  have h4 : (4#32 : BitVec 32).toInt = 4 := by decide
  obtain ⟨-, hlo, hhi⟩ := entrywise X D P h i
  rw [h0] at hlo
  rw [h4] at hhi
  exact ⟨hlo, hhi⟩

end Cert.PreFacts

end
-- ==== Proof.lean ====
/-
  The certificate: the kernel — a stencil on the periodic 4096 × 4096 lattice, one tile of 128 rows per grid point with
  eight halo rows above and below, all three read from the one type field — against its reference, under the stated
  precondition (every float finite, every type the word 0.0 or 1.0, every direction word one of 0 … 3).

  The three programs run to the end and leave their arguments as they were: the kernel's two instances by the launch of
  their one pipeline (three of whose windows share the type field's array), the reference by its host operations run in
  order. The idealization rewrote nothing, so there is nothing to preserve. At the extended reals the kernel's result
  array is the lattice's result in the kernel's form (its profit the five-group sum of shares less five times the
  cooperator indicator, its update one logistic of the picked neighbour's profit), the reference's the same in the
  reference's form (the cooperator's and defector's sums recombined by the two indicators, four Fermi weights then the
  pick); the two forms agree where every type is 0.0 or 1.0, because five times the kernel's folded word 0.98 is
  exactly the reference's word 4.9, and the reference's pick is the plain one where every direction word is in range.
-/
import proofs.«410334_j7902739824972_3_alg».proof.Defs
import proofs.«410334_j7902739824972_3_alg».proof.Proof.Gen.Kernel
import proofs.«410334_j7902739824972_3_alg».proof.Proof.Gen.KernelIdeal
import proofs.«410334_j7902739824972_3_alg».proof.Proof.Gen.ReferenceIdeal
import proofs.«410334_j7902739824972_3_alg».proof.Proof.Gen.Pre_finite_inputs
import proofs.«410334_j7902739824972_3_alg».proof.Proof.Kernel.Launch
import proofs.«410334_j7902739824972_3_alg».proof.Proof.KernelIdeal.Value
import proofs.«410334_j7902739824972_3_alg».proof.Proof.RefRun
import proofs.«410334_j7902739824972_3_alg».proof.Proof.RefUpdate
import proofs.«410334_j7902739824972_3_alg».proof.Proof.Bridge
import proofs.«410334_j7902739824972_3_alg».proof.Proof.PreFacts
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : @Cert.frame_Kernel Cert.Kernel.Gen.facts Cert.Pre_finite_inputs.Gen.facts :=
  fun m ρ _ => Cert.Kernel.Hand.frame m ρ

/-- The idealized kernel runs and keeps its arguments. -/
theorem frame_ki : @Cert.frame_KernelIdeal Cert.KernelIdeal.Gen.facts Cert.Pre_finite_inputs.Gen.facts :=
  fun m ρ _ => Cert.KernelIdeal.Hand.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.HandRun.run (F := Ideal) m ρ)

/-- Under the precondition the reference's last stage, of the arguments, is the kernel's result array. -/
theorem result_eq (X : Cert.Lattice.SLat.Idx → EReal) (D : Cert.Lattice.SLat.Idx → BitVec 32) (P : Cert.Lattice.SLat.Idx → EReal)
    (h : Cert.Pre_finite_inputs.fn (F := Ideal) X D P = fun _ => 1#1) :
    Cert.ReferenceIdeal.ReadP.val_main_v106 (F := Ideal) X D P = Cert.Lattice.kernelOut X D P := by
  funext j
  obtain ⟨k, p, q, rfl⟩ : ∃ (k : Fin 2) (p q : Fin 4096), j = ix3 k p q := ⟨j 0, j 1, j 2, eq_ix3 j⟩
  rw [Cert.ReferenceIdeal.RefValue.result_at X D P (Cert.PreFacts.directions_in_range X D P h) k p q,
    Cert.Lattice.outR_eq_outK X D P (Cert.PreFacts.types_binary X D P h) k p q]
  rfl

/-- At the extended reals, from memories agreeing on the arguments, both programs end with the same result array. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact result_eq _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
